-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x3x64x1024 : Shape := ⟨4, ![16, 3, 64, 1024]⟩
abbrev S3x16x64x1024 : Shape := ⟨4, ![3, 16, 64, 1024]⟩
abbrev S16x3x64 : Shape := ⟨3, ![16, 3, 64]⟩
abbrev S3x16x64 : Shape := ⟨3, ![3, 16, 64]⟩
abbrev S4096x1024 : Shape := ⟨2, ![4096, 1024]⟩
abbrev S1x3072 : Shape := ⟨2, ![1, 3072]⟩
abbrev S4096x3072 : Shape := ⟨2, ![4096, 3072]⟩
abbrev S2048x1024 : Shape := ⟨2, ![2048, 1024]⟩
abbrev S1x1024 : Shape := ⟨2, ![1, 1024]⟩
abbrev S2x2048x3072 : Shape := ⟨3, ![2, 2048, 3072]⟩
abbrev S1x2048x128 : Shape := ⟨3, ![1, 2048, 128]⟩
abbrev S1x512x128 : Shape := ⟨3, ![1, 512, 128]⟩
abbrev S2048x1 : Shape := ⟨2, ![2048, 1]⟩
abbrev S2048x64 : Shape := ⟨2, ![2048, 64]⟩
abbrev S2048x128 : Shape := ⟨2, ![2048, 128]⟩
abbrev S512x128 : Shape := ⟨2, ![512, 128]⟩
abbrev S512x64 : Shape := ⟨2, ![512, 64]⟩
abbrev S2048x512 : Shape := ⟨2, ![2048, 512]⟩
abbrev S2048 : Shape := ⟨1, ![2048]⟩

abbrev nBuf : Space → Nat
  | .hbm => 23
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16x3x64x1024, .f32⟩
  | .hbm, ⟨6, _⟩ => ⟨S3x16x64x1024, .f32⟩
  | .hbm, ⟨7, _⟩ => ⟨S3072x1024, .f32⟩
  | .hbm, ⟨8, _⟩ => ⟨S16x3x64, .f32⟩
  | .hbm, ⟨9, _⟩ => ⟨S3x16x64, .f32⟩
  | .hbm, ⟨10, _⟩ => ⟨S3072, .f32⟩
  | .hbm, ⟨11, _⟩ => ⟨S2x2048x1024, .bf16⟩
  | .hbm, ⟨12, _⟩ => ⟨S3072x1024, .bf16⟩
  | .hbm, ⟨13, _⟩ => ⟨S1024x1024, .bf16⟩
  | .hbm, ⟨14, _⟩ => ⟨S4096x1024, .bf16⟩
  | .hbm, ⟨15, _⟩ => ⟨S1x3072, .f32⟩
  | .hbm, ⟨16, _⟩ => ⟨S4096x3072, .bf16⟩
  | .hbm, ⟨17, _⟩ => ⟨S2x2048x3072, .bf16⟩
  | .hbm, ⟨18, _⟩ => ⟨S2x2048x1024, .bf16⟩
  | .hbm, ⟨19, _⟩ => ⟨S4096x1024, .bf16⟩
  | .hbm, ⟨20, _⟩ => ⟨S1x1024, .f32⟩
  | .hbm, ⟨21, _⟩ => ⟨S4096x1024, .f32⟩
  | .hbm, ⟨22, _⟩ => ⟨S2x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2048x1, .f32⟩
  | .local _ .vmem, ⟨17, _⟩ => ⟨S2048x1, .f32⟩
  | .local _ .vmem, ⟨18, _⟩ => ⟨S2048x64, .f32⟩
  | .local _ .vmem, ⟨19, _⟩ => ⟨S2048x1, .f32⟩
  | .local _ .vmem, ⟨20, _⟩ => ⟨S2048x1, .f32⟩
  | .local _ .vmem, ⟨21, _⟩ => ⟨S2048x64, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_scratch4 : Ref sig .tc := ⟨.vmem, 20, rfl⟩
abbrev cc1_scratch5 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨4, ![2, 8, 1, 4], ![false, false, false, false]⟩

def k1_cond2 (i : grid1.Coords) : BitVec 1 :=
  let arg3 : BitVec 32 := BitVec.ofNat 32 (i 3).val
  let c3_i32 : BitVec 32 := 3#32
  let v79 : BitVec 1 := Scalar.cmpi .eq arg3 c3_i32
  let v80 : BitVec 32 := Scalar.extui v79
  let c0_i32_42 : BitVec 32 := 0#32
  let v81 : BitVec 1 := Scalar.cmpi .ne v80 c0_i32_42
  v81

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg1
  let c0_i32 : BitVec 32 := 0#32
  ![arg0.toNat, arg3.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.addi c16_i32 arg1
  let c0_i32 : BitVec 32 := 0#32
  ![arg0.toNat, arg3.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  shapeCasts_S3072_S16x3x64 : S3072.ShapeCasts S16x3x64
  transposes_S16x3x64_S3x16x64_1_0_2 : S16x3x64.Transposes [1, 0, 2] S3x16x64
  shapeCasts_S3x16x64_S3072 : S3x16x64.ShapeCasts S3072
  bitsLt_bf16_f32 : FTy.bits .bf16 < FTy.bits .f32
  shapeCasts_S2x2048x1024_S4096x1024 : S2x2048x1024.ShapeCasts S4096x1024
  shapeCasts_S3072_S1x3072 : S3072.ShapeCasts S1x3072
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S4096x3072_S2x2048x3072 : S4096x3072.ShapeCasts S2x2048x3072
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S2048x128_o0_0_S2048x64 : S2048x128.Slices ![0, 0] S2048x64
  slices_S2048x128_o0_64_S2048x64 : S2048x128.Slices ![0, 64] S2048x64
  slices_S512x128_o0_0_S512x64 : S512x128.Slices ![0, 0] S512x64
  slices_S512x128_o0_64_S512x64 : S512x128.Slices ![0, 64] S512x64
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  concatenates_S2048x64_S2048x64_S2048x128_d1 : Shape.Concatenates [S2048x64, S2048x64] S2048x128 1
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  shapeCasts_S1024_S1x1024 : S1024.ShapeCasts S1x1024
  broadcasts_S1x1024_S1024x1024 : S1x1024.Broadcasts S1024x1024
  shapeCasts_S4096x1024_S2x2048x1024 : S4096x1024.ShapeCasts S2x2048x1024
  dot_S2048x1024_S1024x1024_S2048x1024_1_1_0_0_n_n_wf : DotDims.WF S2048x1024 S1024x1024 S2048x1024 [1] [1] [0] [0] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x3072.size a
  hwx0_3 : ∀ i : grid0.Coords, EltTy.bits .bf16 = 32 ∨ (Rect.block (s := S4096x3072) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S2x2048x3072.size a
  hwx1_0 : ∀ i : grid1.Coords, EltTy.bits .bf16 = 32 ∨ (Rect.block (s := S2x2048x3072) S1x2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S2x2048x3072.size a
  hwx1_1 : ∀ i : grid1.Coords, EltTy.bits .bf16 = 32 ∨ (Rect.block (s := S2x2048x3072) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S2x2048x3072.size a
  hwx1_2 : ∀ i : grid1.Coords, EltTy.bits .bf16 = 32 ∨ (Rect.block (s := S2x2048x3072) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x128.size a ≤ S2x2048x1024.size a
  hwx1_3 : ∀ i : grid1.Coords, EltTy.bits .bf16 = 32 ∨ (Rect.block (s := S2x2048x1024) S1x2048x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v9) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KI.R0.lean ====
/-
  The first projection x · wᵀ + b as a pipeline of 2 × 3 grid points: point (i, j) reads rows i·2048.. of x, rows j·1024.. of
  the weights and columns j·1024.. of the bias, and writes the block (i, j) of the result. At a point the body loads the
  three blocks whole, multiplies, adds the bias row to every row and stores the block whole; nothing is carried from one
  point to the next. This module: what the body leaves in the output's staging buffer as a function of the three input
  blocks, the body's triple, the pipeline's proof data at any contents V of the buffers at the region's entry, and the
  body obligation.
-/
import proofs.«411221_j41120016892169_3_alg».proof.Proof.Gen.KernelIdeal.Launch
import proofs.«411221_j41120016892169_3_alg».proof.Proof.Gen.KernelIdeal.Skeleton
import proofs.«411221_j41120016892169_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2048x1024 := Rect.unit (s := S2048x1024) ![0, 0] S2048x1024.size inb_S2048x1024_S2048x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in the output window's buffer -/

/-- The output's staging buffer after the body: its one store, of the product-plus-bias of the three input blocks. -/
def out0_3 (x0 : Vec F S2048x1024 .bf16) (x1 : Vec F S1024x1024 .bf16) (x2 : Vec F S1x1024 .f32) : Vec F S2048x1024 .bf16 :=
  View.canon [⟨r0_x, k0_pay1 (View.ld x0 r0_x) (View.ld x1 r0_w) (View.ld x2 r0_b)⟩]

/-- The one store covers the buffer. -/
theorem cover0_3 (p0 : Vec F S2048x1024 .bf16) (y : S2048x1024.Idx) :
    ∃ pc ∈ ([⟨r0_x, p0⟩] : List (View.Piece (Elt F) S2048x1024 .bf16)), y ∈ pc.1.set :=
  View.cover_of_tiled [⟨r0_x, p0⟩] S2048x1024.size (by rfl) y

/-! ## The body's triple -/

set_option maxHeartbeats 4000000 in
/-- On whole staging memrefs, the inputs' at contents x0 x1 x2 and the output's at anything, the body runs to the
    continuation holding the inputs' as they were and the output's at out0_3 of them. -/
theorem sound_kernel0 (c : Dev nD) (E : Set ℕ) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .bf16) (harg5 : arg5.IsWhole)
    (x0 : Vec F S2048x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core c: the arrays as the region finds them; after the body at point t each input's buffer at its
    block and the output's at out0_3 of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Conds.lean ====
import proofs.«411221_j41120016892169_3_alg».proof.Proof.Gen.KernelIdeal.Launch
import proofs.«411221_j41120016892169_3_alg».proof.Proof.Gen.KernelIdeal.Skeleton
import proofs.«411221_j41120016892169_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions of custom_call 1 -/

/-- The condition of the body's first `scf.if` (the key tile is the first one), from the grid coordinates. -/
abbrev cond1_0 (i : grid1.Coords) : Prop := (Scalar.cmpi .ne (Scalar.extui (Scalar.cmpi .eq (BitVec.ofNat 32 (i 3).val) 0#32)) 0#32) = 1#1
/-- It holds at the points whose key tile is 0 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the key tile is the last one), from the grid coordinates. -/
abbrev cond1_1 (i : grid1.Coords) : Prop := k1_cond2 i = 1#1
/-- It holds at the points whose key tile is 3 — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are inputs: never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the last key tile's branch is not taken the output window is idle: nothing is stored into it. -/
theorem idleAt1_3 : ∀ t : Fin cfg1.N, ¬cond1_1 (grid1.coords t) → cfg1.idle 3 (grid1.coords t) = true := by decide +kernel
/-- There the pipeline does not write the output's block back. -/
theorem noFlush1_3 : ∀ t : Fin cfg1.N, ¬cond1_1 (grid1.coords t) → (cfg1.win 3).flush t = false := by decide +kernel
/-- Where the last key tile's branch is taken the output window is live. -/
theorem liveAt1_3 : ∀ t : Fin cfg1.N, cond1_1 (grid1.coords t) → cfg1.idle 3 (grid1.coords t) = false := by decide +kernel

/-! ## The staging and scratch memrefs -/

/-- One staging buffer of the output window, through which its contents are stated. -/
abbrev VO1_3 : View sig .tc .vmem S1x2048x128 .bf16 := (Memref.whole cc1_stg3_0 : Memref sig .tc .vmem S1x2048x128 .bf16).view
/-- Each window's current staging memref at point `t`, and its wholeness. -/
abbrev ms1_0 (t : Fin cfg1.N) : Memref sig .tc .vmem S1x2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x128 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x64 .f32 := Memref.whole cc1_scratch2
abbrev scM1_3 : Memref sig .tc .vmem S2048x1 .f32 := Memref.whole cc1_scratch3
abbrev scM1_4 : Memref sig .tc .vmem S2048x1 .f32 := Memref.whole cc1_scratch4
abbrev scM1_5 : Memref sig .tc .vmem S2048x64 .f32 := Memref.whole cc1_scratch5
/-- The scratch operands as views: what each holds is stated through it. -/
abbrev VS1_0 : View sig .tc .vmem S2048x1 .f32 := scM1_0.view
abbrev VS1_1 : View sig .tc .vmem S2048x1 .f32 := scM1_1.view
abbrev VS1_2 : View sig .tc .vmem S2048x64 .f32 := scM1_2.view
abbrev VS1_3 : View sig .tc .vmem S2048x1 .f32 := scM1_3.view
abbrev VS1_4 : View sig .tc .vmem S2048x1 .f32 := scM1_4.view
abbrev VS1_5 : View sig .tc .vmem S2048x64 .f32 := scM1_5.view

/-- The frame invariant with the six scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ d, owns (c : Thread nD τ) scM1_3 fullShare d)
        ∗ (∃ d, owns (c : Thread nD τ) scM1_4 fullShare d)
        ∗ (∃ d, owns (c : Thread nD τ) scM1_5 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, scM1_2, scM1_3, scM1_4, scM1_5, owns_whole]; try rfl

end Cert.KernelIdeal.Hand

end
-- ==== Proof.KI.R1RunB.lean ====
import proofs.«411221_j41120016892169_3_alg».proof.Proof.KI.R1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each scratch memref, as pieces (last first), at a point whose key tile is neither
    the first nor the last (neither branch taken), with the proof that on whole memrefs — the three inputs' at their
    contents, the output's at contents handed back untouched, the six scratch at the contents the point before left —
    the body runs to the continuation holding the inputs and the output as they were and each scratch with its pieces
    written. -/
noncomputable def kernelRun1_B (c : Dev nD) (i : grid1.Coords) (arg4 : Memref sig .tc .vmem S1x2048x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x64 .f32) (harg13 : arg13.IsWhole) (hc0 : ¬cond1_0 i) (hc1 : ¬cond1_1 i)
    (x0 : Vec F S1x2048x128 .bf16) (x1 : Vec F S1x512x128 .bf16) (x2 : Vec F S1x512x128 .bf16) (xs0 : Vec F S2048x1 .f32) (xs1 : Vec F S2048x1 .f32) (xs2 : Vec F S2048x64 .f32) (xs3 : Vec F S2048x1 .f32) (xs4 : Vec F S2048x1 .f32) (xs5 : Vec F S2048x64 .f32) :
    Σ' (LS0 : List (View.Piece (Elt F) S2048x1 .f32)) (LS1 : List (View.Piece (Elt F) S2048x1 .f32)) (LS2 : List (View.Piece (Elt F) S2048x64 .f32)) (LS3 : List (View.Piece (Elt F) S2048x1 .f32)) (LS4 : List (View.Piece (Elt F) S2048x1 .f32)), { LS5 : List (View.Piece (Elt F) S2048x64 .f32) //
      ∀ (xi3 : Vec F S1x2048x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__flash_attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__flash_attn_kernel_eq_skeleton]; unfold cc1__flash_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg7.eq_unread hf3
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.R1RunA.lean ====
import proofs.«411221_j41120016892169_3_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each scratch memref, as pieces (last first), at a point whose key tile is the first
    (the reset branch taken, the final branch not), with the proof that on whole memrefs — the three inputs' at their
    contents, the output's at contents handed back untouched, the six scratch at anything (the reset stores cover
    them) — the body runs to the continuation holding the inputs and the output as they were and each scratch with
    its pieces written. -/
noncomputable def kernelRun1_A (c : Dev nD) (i : grid1.Coords) (arg4 : Memref sig .tc .vmem S1x2048x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x64 .f32) (harg13 : arg13.IsWhole) (hc0 : cond1_0 i) (hc1 : ¬cond1_1 i)
    (x0 : Vec F S1x2048x128 .bf16) (x1 : Vec F S1x512x128 .bf16) (x2 : Vec F S1x512x128 .bf16) :
    Σ' (LS0 : List (View.Piece (Elt F) S2048x1 .f32)) (LS1 : List (View.Piece (Elt F) S2048x1 .f32)) (LS2 : List (View.Piece (Elt F) S2048x64 .f32)) (LS3 : List (View.Piece (Elt F) S2048x1 .f32)) (LS4 : List (View.Piece (Elt F) S2048x1 .f32)), { LS5 : List (View.Piece (Elt F) S2048x64 .f32) //
      ∀ (xi3 : Vec F S1x2048x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__flash_attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__flash_attn_kernel_eq_skeleton]; unfold cc1__flash_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.R1RunC.lean ====
import proofs.«411221_j41120016892169_3_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref and in each scratch memref, as pieces (last first), at
    a point whose key tile is the last (the reset branch not taken, the final branch taken), with the proof that on
    whole memrefs — the three inputs' at their contents, the output's at anything, the six scratch at the contents the
    point before left — the body runs to the continuation holding the inputs as they were and the output and each
    scratch with its pieces written. -/
noncomputable def kernelRun1_C (c : Dev nD) (i : grid1.Coords) (arg4 : Memref sig .tc .vmem S1x2048x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x64 .f32) (harg13 : arg13.IsWhole) (hc0 : ¬cond1_0 i) (hc1 : cond1_1 i)
    (x0 : Vec F S1x2048x128 .bf16) (x1 : Vec F S1x512x128 .bf16) (x2 : Vec F S1x512x128 .bf16) (xs0 : Vec F S2048x1 .f32) (xs1 : Vec F S2048x1 .f32) (xs2 : Vec F S2048x64 .f32) (xs3 : Vec F S2048x1 .f32) (xs4 : Vec F S2048x1 .f32) (xs5 : Vec F S2048x64 .f32) :
    Σ' (L3 : List (View.Piece (Elt F) S1x2048x128 .bf16)) (LS0 : List (View.Piece (Elt F) S2048x1 .f32)) (LS1 : List (View.Piece (Elt F) S2048x1 .f32)) (LS2 : List (View.Piece (Elt F) S2048x64 .f32)) (LS3 : List (View.Piece (Elt F) S2048x1 .f32)) (LS4 : List (View.Piece (Elt F) S2048x1 .f32)), { LS5 : List (View.Piece (Elt F) S2048x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__flash_attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__flash_attn_kernel_eq_skeleton]; unfold cc1__flash_attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.R1Step.lean ====
/-
  One key tile of the attention kernel as a function of what it reads: the six running vectors (head 0's maximum,
  denominator and numerators, then head 1's) after a tile, from the query block, the tile's key and value blocks and
  the six vectors before it; the state a first tile starts from (maximum -∞, sums 0); and the output block the last
  tile stores: each head's numerators over its denominator, the two heads side by side.
-/
import proofs.«411221_j41120016892169_3_alg».proof.Proof.Gen.KernelIdeal.Skeleton

noncomputable section

namespace Cert.KernelIdeal.Hand

open Idealize.ShloMosaic
open Cert.KernelIdeal Cert.KernelIdeal.Gen

variable {F : FTy → Type} [FloatOps F]

/-- The six scratch vectors: head 0's maximum, denominator, numerators, then head 1's. -/
abbrev Scr (F : FTy → Type) [FloatOps F] : Type :=
  Vec F S2048x1 .f32 × Vec F S2048x1 .f32 × Vec F S2048x64 .f32 × Vec F S2048x1 .f32 × Vec F S2048x1 .f32 × Vec F S2048x64 .f32

/-- What the first key tile's reset stores: both maxima -∞, every sum 0. -/
def scr0 : Scr F := (k1_pay4, k1_pay5, k1_pay6, k1_pay7, k1_pay8, k1_pay9)

/-- One key tile's update: each head's new maximum, its denominator and numerators rescaled to the new maximum plus
    the tile's own terms. -/
def scrStep (q : Vec F S1x2048x128 .bf16) (kk vv : Vec F S1x512x128 .bf16) (s : Scr F) : Scr F :=
  (k1_pay24 (k1_pay18 q kk s.1),
   k1_pay22 (k1_pay21 q kk s.1 s.2.1),
   k1_pay23 (k1_pay15 vv) (k1_pay19 q kk s.1) (k1_pay20 q kk s.1) s.2.2.1,
   k1_pay2 (k1_pay26 (k1_pay13 q) (k1_pay14 kk) s.2.2.2.1),
   k1_pay29 (k1_pay13 q) (k1_pay14 kk) s.2.2.2.1 s.2.2.2.2.1,
   k1_pay1 (k1_pay27 (k1_pay13 q) (k1_pay14 kk) s.2.2.2.1) (k1_pay30 (k1_pay13 q) (k1_pay14 kk) (k1_pay16 vv) s.2.2.2.1) s.2.2.2.2.2)

/-- The output block from the six vectors: head 0's numerators over its denominator beside head 1's. -/
def outOf (s : Scr F) : Vec F S1x2048x128 .bf16 := k1_pay3 s.2.2.1 s.2.1 s.2.2.2.2.2 s.2.2.2.2.1

end Cert.KernelIdeal.Hand

end
-- ==== Proof.KI.R1Souts.lean ====
/-
  What the attention body leaves behind at one grid point, case by case. A point is in case A (its key tile is the
  first: the six running vectors are reset, then updated), in case B (a middle key tile: updated only) or in case C
  (the last key tile: updated, then the output block is stored). For every case and each of the six scratch buffers:
  the buffer's contents after the body, as the case's stores read back over unspecified contents, and the fact that
  those stores cover the whole buffer, so that the read-back does not depend on what was there. For case C the same
  for the output's staging buffer; at the other points nothing is stored into it and a placeholder stands for it.
-/
import proofs.«411221_j41120016892169_3_alg».proof.Proof.KI.R1RunC
import proofs.«411221_j41120016892169_3_alg».proof.Proof.KI.R1Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The output's staging buffer at a point that stores nothing into it: a placeholder (unspecified contents read back)
    that nothing consults, since at those points the block is neither written back nor read later. -/
def out1_idle_3 : Vec F S1x2048x128 .bf16 := VO1_3.read (Elt F) VO1_3.junk

section
variable (c : Dev nD) (i : grid1.Coords)
  (arg4 : Memref sig .tc .vmem S1x2048x128 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S1x2048x128 .bf16) (harg7 : arg7.IsWhole)
  (arg8 : Memref sig .tc .vmem S2048x1 .f32) (harg8 : arg8.IsWhole)
  (arg9 : Memref sig .tc .vmem S2048x1 .f32) (harg9 : arg9.IsWhole)
  (arg10 : Memref sig .tc .vmem S2048x64 .f32) (harg10 : arg10.IsWhole)
  (arg11 : Memref sig .tc .vmem S2048x1 .f32) (harg11 : arg11.IsWhole)
  (arg12 : Memref sig .tc .vmem S2048x1 .f32) (harg12 : arg12.IsWhole)
  (arg13 : Memref sig .tc .vmem S2048x64 .f32) (harg13 : arg13.IsWhole)

/-! ## Case A: the first key tile -/

section
variable (hc0 : cond1_0 i) (hc1 : ¬cond1_1 i)
  (x0 : Vec F S1x2048x128 .bf16) (x1 : Vec F S1x512x128 .bf16) (x2 : Vec F S1x512x128 .bf16)

local notation "runA" => kernelRun1_A c i arg4 harg4 arg5 harg5 arg6 harg6 arg7 harg7 arg8 harg8 arg9 harg9 arg10 harg10 arg11 harg11 arg12 harg12 arg13 harg13 hc0 hc1 x0 x1 x2

/-- Head 0's running maximum after a first key tile. -/
def sout1_A_0 : Vec F S2048x1 .f32 := VS1_0.read (Elt F) (VS1_0.writes (Elt F) VS1_0.junk (runA).1)
theorem scover1_A_0 (y : S2048x1.Idx) : ∃ pc ∈ (runA).1, y ∈ pc.1.set :=
  View.cover_of_tiledL (runA).1 S2048x1.size (by sl_kernel_rfl) y
/-- Head 0's denominator after a first key tile. -/
def sout1_A_1 : Vec F S2048x1 .f32 := VS1_1.read (Elt F) (VS1_1.writes (Elt F) VS1_1.junk (runA).2.1)
theorem scover1_A_1 (y : S2048x1.Idx) : ∃ pc ∈ (runA).2.1, y ∈ pc.1.set :=
  View.cover_of_tiledL (runA).2.1 S2048x1.size (by sl_kernel_rfl) y
/-- Head 0's numerators after a first key tile. -/
def sout1_A_2 : Vec F S2048x64 .f32 := VS1_2.read (Elt F) (VS1_2.writes (Elt F) VS1_2.junk (runA).2.2.1)
theorem scover1_A_2 (y : S2048x64.Idx) : ∃ pc ∈ (runA).2.2.1, y ∈ pc.1.set :=
  View.cover_of_tiledL (runA).2.2.1 S2048x64.size (by sl_kernel_rfl) y
/-- Head 1's running maximum after a first key tile. -/
def sout1_A_3 : Vec F S2048x1 .f32 := VS1_3.read (Elt F) (VS1_3.writes (Elt F) VS1_3.junk (runA).2.2.2.1)
theorem scover1_A_3 (y : S2048x1.Idx) : ∃ pc ∈ (runA).2.2.2.1, y ∈ pc.1.set :=
  View.cover_of_tiledL (runA).2.2.2.1 S2048x1.size (by sl_kernel_rfl) y
/-- Head 1's denominator after a first key tile. -/
def sout1_A_4 : Vec F S2048x1 .f32 := VS1_4.read (Elt F) (VS1_4.writes (Elt F) VS1_4.junk (runA).2.2.2.2.1)
theorem scover1_A_4 (y : S2048x1.Idx) : ∃ pc ∈ (runA).2.2.2.2.1, y ∈ pc.1.set :=
  View.cover_of_tiledL (runA).2.2.2.2.1 S2048x1.size (by sl_kernel_rfl) y
/-- Head 1's numerators after a first key tile. -/
def sout1_A_5 : Vec F S2048x64 .f32 := VS1_5.read (Elt F) (VS1_5.writes (Elt F) VS1_5.junk (runA).2.2.2.2.2.1)
theorem scover1_A_5 (y : S2048x64.Idx) : ∃ pc ∈ (runA).2.2.2.2.2.1, y ∈ pc.1.set :=
  View.cover_of_tiledL (runA).2.2.2.2.2.1 S2048x64.size (by sl_kernel_rfl) y

end

/-! ## Case B: a middle key tile -/

section
variable (hc0 : ¬cond1_0 i) (hc1 : ¬cond1_1 i)
  (x0 : Vec F S1x2048x128 .bf16) (x1 : Vec F S1x512x128 .bf16) (x2 : Vec F S1x512x128 .bf16) (xs : Scr F)

set_option quotPrecheck false in
local notation "runB" => kernelRun1_B c i arg4 harg4 arg5 harg5 arg6 harg6 arg7 harg7 arg8 harg8 arg9 harg9 arg10 harg10 arg11 harg11 arg12 harg12 arg13 harg13 hc0 hc1 x0 x1 x2 xs.1 xs.2.1 xs.2.2.1 xs.2.2.2.1 xs.2.2.2.2.1 xs.2.2.2.2.2

/-- Head 0's running maximum after a middle key tile, from the six vectors before it. -/
def sout1_B_0 : Vec F S2048x1 .f32 := VS1_0.read (Elt F) (VS1_0.writes (Elt F) VS1_0.junk (runB).1)
theorem scover1_B_0 (y : S2048x1.Idx) : ∃ pc ∈ (runB).1, y ∈ pc.1.set :=
  View.cover_of_tiledL (runB).1 S2048x1.size (by sl_kernel_rfl) y
/-- Head 0's denominator after a middle key tile. -/
def sout1_B_1 : Vec F S2048x1 .f32 := VS1_1.read (Elt F) (VS1_1.writes (Elt F) VS1_1.junk (runB).2.1)
theorem scover1_B_1 (y : S2048x1.Idx) : ∃ pc ∈ (runB).2.1, y ∈ pc.1.set :=
  View.cover_of_tiledL (runB).2.1 S2048x1.size (by sl_kernel_rfl) y
/-- Head 0's numerators after a middle key tile. -/
def sout1_B_2 : Vec F S2048x64 .f32 := VS1_2.read (Elt F) (VS1_2.writes (Elt F) VS1_2.junk (runB).2.2.1)
theorem scover1_B_2 (y : S2048x64.Idx) : ∃ pc ∈ (runB).2.2.1, y ∈ pc.1.set :=
  View.cover_of_tiledL (runB).2.2.1 S2048x64.size (by sl_kernel_rfl) y
/-- Head 1's running maximum after a middle key tile. -/
def sout1_B_3 : Vec F S2048x1 .f32 := VS1_3.read (Elt F) (VS1_3.writes (Elt F) VS1_3.junk (runB).2.2.2.1)
theorem scover1_B_3 (y : S2048x1.Idx) : ∃ pc ∈ (runB).2.2.2.1, y ∈ pc.1.set :=
  View.cover_of_tiledL (runB).2.2.2.1 S2048x1.size (by sl_kernel_rfl) y
/-- Head 1's denominator after a middle key tile. -/
def sout1_B_4 : Vec F S2048x1 .f32 := VS1_4.read (Elt F) (VS1_4.writes (Elt F) VS1_4.junk (runB).2.2.2.2.1)
theorem scover1_B_4 (y : S2048x1.Idx) : ∃ pc ∈ (runB).2.2.2.2.1, y ∈ pc.1.set :=
  View.cover_of_tiledL (runB).2.2.2.2.1 S2048x1.size (by sl_kernel_rfl) y
/-- Head 1's numerators after a middle key tile. -/
def sout1_B_5 : Vec F S2048x64 .f32 := VS1_5.read (Elt F) (VS1_5.writes (Elt F) VS1_5.junk (runB).2.2.2.2.2.1)
theorem scover1_B_5 (y : S2048x64.Idx) : ∃ pc ∈ (runB).2.2.2.2.2.1, y ∈ pc.1.set :=
  View.cover_of_tiledL (runB).2.2.2.2.2.1 S2048x64.size (by sl_kernel_rfl) y

end

/-! ## Case C: the last key tile -/

section
variable (hc0 : ¬cond1_0 i) (hc1 : cond1_1 i)
  (x0 : Vec F S1x2048x128 .bf16) (x1 : Vec F S1x512x128 .bf16) (x2 : Vec F S1x512x128 .bf16) (xs : Scr F)

set_option quotPrecheck false in
local notation "runC" => kernelRun1_C c i arg4 harg4 arg5 harg5 arg6 harg6 arg7 harg7 arg8 harg8 arg9 harg9 arg10 harg10 arg11 harg11 arg12 harg12 arg13 harg13 hc0 hc1 x0 x1 x2 xs.1 xs.2.1 xs.2.2.1 xs.2.2.2.1 xs.2.2.2.2.1 xs.2.2.2.2.2

/-- The output block the last key tile stores, from the six vectors before it. -/
def out1_C_3 : Vec F S1x2048x128 .bf16 := VO1_3.read (Elt F) (VO1_3.writes (Elt F) VO1_3.junk (runC).1)
theorem cover1_C_3 (y : S1x2048x128.Idx) : ∃ pc ∈ (runC).1, y ∈ pc.1.set :=
  View.cover_of_tiledL (runC).1 S1x2048x128.size (by sl_kernel_rfl) y
/-- Head 0's running maximum after the last key tile. -/
def sout1_C_0 : Vec F S2048x1 .f32 := VS1_0.read (Elt F) (VS1_0.writes (Elt F) VS1_0.junk (runC).2.1)
theorem scover1_C_0 (y : S2048x1.Idx) : ∃ pc ∈ (runC).2.1, y ∈ pc.1.set :=
  View.cover_of_tiledL (runC).2.1 S2048x1.size (by sl_kernel_rfl) y
/-- Head 0's denominator after the last key tile. -/
def sout1_C_1 : Vec F S2048x1 .f32 := VS1_1.read (Elt F) (VS1_1.writes (Elt F) VS1_1.junk (runC).2.2.1)
theorem scover1_C_1 (y : S2048x1.Idx) : ∃ pc ∈ (runC).2.2.1, y ∈ pc.1.set :=
  View.cover_of_tiledL (runC).2.2.1 S2048x1.size (by sl_kernel_rfl) y
/-- Head 0's numerators after the last key tile. -/
def sout1_C_2 : Vec F S2048x64 .f32 := VS1_2.read (Elt F) (VS1_2.writes (Elt F) VS1_2.junk (runC).2.2.2.1)
theorem scover1_C_2 (y : S2048x64.Idx) : ∃ pc ∈ (runC).2.2.2.1, y ∈ pc.1.set :=
  View.cover_of_tiledL (runC).2.2.2.1 S2048x64.size (by sl_kernel_rfl) y
/-- Head 1's running maximum after the last key tile. -/
def sout1_C_3 : Vec F S2048x1 .f32 := VS1_3.read (Elt F) (VS1_3.writes (Elt F) VS1_3.junk (runC).2.2.2.2.1)
theorem scover1_C_3 (y : S2048x1.Idx) : ∃ pc ∈ (runC).2.2.2.2.1, y ∈ pc.1.set :=
  View.cover_of_tiledL (runC).2.2.2.2.1 S2048x1.size (by sl_kernel_rfl) y
/-- Head 1's denominator after the last key tile. -/
def sout1_C_4 : Vec F S2048x1 .f32 := VS1_4.read (Elt F) (VS1_4.writes (Elt F) VS1_4.junk (runC).2.2.2.2.2.1)
theorem scover1_C_4 (y : S2048x1.Idx) : ∃ pc ∈ (runC).2.2.2.2.2.1, y ∈ pc.1.set :=
  View.cover_of_tiledL (runC).2.2.2.2.2.1 S2048x1.size (by sl_kernel_rfl) y
/-- Head 1's numerators after the last key tile. -/
def sout1_C_5 : Vec F S2048x64 .f32 := VS1_5.read (Elt F) (VS1_5.writes (Elt F) VS1_5.junk (runC).2.2.2.2.2.2.1)
theorem scover1_C_5 (y : S2048x64.Idx) : ∃ pc ∈ (runC).2.2.2.2.2.2.1, y ∈ pc.1.set :=
  View.cover_of_tiledL (runC).2.2.2.2.2.2.1 S2048x64.size (by sl_kernel_rfl) y

end

end

end Cert.KernelIdeal.Hand

end
-- ==== Proof.KI.R1Dat.lean ====
/-
  The attention kernel as a pipeline of 2 × 8 × 1 × 4 grid points (batch, head pair, query tile, key tile): the proof data.
  Point t reads the query block of its head pair (all 2048 rows), the key tile and the value tile t % 4 of 512 rows, all
  three out of ONE array (the projection's result, at column blocks hp, 8 + hp, 16 + hp); six scratch buffers carry each
  head's running maximum, denominator and numerators from key tile to key tile; the output block is stored at the last
  key tile only and is idle at the other points.
-/
import proofs.«411221_j41120016892169_3_alg».proof.Proof.KI.R1Souts
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Which case a point is in -/

theorem c0_of1 (t : Fin cfg1.N) (h : t.val % 4 = 0) : cond1_0 (grid1.coords t) := (hcond1_0 t).mpr h
theorem nc0_of1 (t : Fin cfg1.N) (h : ¬t.val % 4 = 0) : ¬cond1_0 (grid1.coords t) := fun hc => h ((hcond1_0 t).mp hc)
theorem c1_of1 (t : Fin cfg1.N) (h : t.val % 4 = 3) : cond1_1 (grid1.coords t) := (hcond1_1 t).mpr h
theorem nc1_of1 (t : Fin cfg1.N) (h : ¬t.val % 4 = 3) : ¬cond1_1 (grid1.coords t) := fun hc => h ((hcond1_1 t).mp hc)
/-- A first key tile is not a last one. -/
theorem nc1_first1 (t : Fin cfg1.N) (h : t.val % 4 = 0) : ¬cond1_1 (grid1.coords t) := nc1_of1 t (by omega)

/-! ## What the buffers hold after each point -/

-- A case's contents at point t: the case's function at the point's coordinates, staging memrefs, scratch memrefs and
-- input blocks (for a case that reads the scratch, also at the six vectors it finds).
set_option quotPrecheck false in
local notation "atA[" f ", " c ", " t ", " h0 ", " h1 "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) h0 h1 (iblk1 V c 0 t) (iblk1 V c 1 t) (iblk1 V c 2 t)
set_option quotPrecheck false in
local notation "atX[" f ", " c ", " t ", " h0 ", " h1 ", " xs "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) h0 h1 (iblk1 V c 0 t) (iblk1 V c 1 t) (iblk1 V c 2 t) xs
set_option quotPrecheck false in
local notation "tupA[" c ", " t ", " h0 ", " h1 "]" => ((out1_idle_3, atA[sout1_A_0, c, t, h0, h1], atA[sout1_A_1, c, t, h0, h1], atA[sout1_A_2, c, t, h0, h1], atA[sout1_A_3, c, t, h0, h1], atA[sout1_A_4, c, t, h0, h1], atA[sout1_A_5, c, t, h0, h1]) : Vec F S1x2048x128 .bf16 × Scr F)
set_option quotPrecheck false in
local notation "tupB[" c ", " t ", " h0 ", " h1 ", " xs "]" => ((out1_idle_3, atX[sout1_B_0, c, t, h0, h1, xs], atX[sout1_B_1, c, t, h0, h1, xs], atX[sout1_B_2, c, t, h0, h1, xs], atX[sout1_B_3, c, t, h0, h1, xs], atX[sout1_B_4, c, t, h0, h1, xs], atX[sout1_B_5, c, t, h0, h1, xs]) : Vec F S1x2048x128 .bf16 × Scr F)
set_option quotPrecheck false in
local notation "tupC[" c ", " t ", " h0 ", " h1 ", " xs "]" => ((atX[out1_C_3, c, t, h0, h1, xs], atX[sout1_C_0, c, t, h0, h1, xs], atX[sout1_C_1, c, t, h0, h1, xs], atX[sout1_C_2, c, t, h0, h1, xs], atX[sout1_C_3, c, t, h0, h1, xs], atX[sout1_C_4, c, t, h0, h1, xs], atX[sout1_C_5, c, t, h0, h1, xs]) : Vec F S1x2048x128 .bf16 × Scr F)

/-- What the output's staging buffer and the six scratch buffers hold after the body at position n: at a first key
    tile the reset-and-update of the point's blocks; at a later one the update of what the point before left; at a last
    one also the output block, stored from the updated vectors. Where nothing is stored into the output's buffer its
    component is a placeholder. -/
def outsAt1 (c : Dev nD) : (n : ℕ) → n < cfg1.N → Vec F S1x2048x128 .bf16 × Scr F
  | 0, hn => tupA[c, (⟨0, hn⟩ : Fin cfg1.N), c0_of1 ⟨0, hn⟩ (Nat.zero_mod _), nc1_first1 ⟨0, hn⟩ (Nat.zero_mod _)]
  | n + 1, hn =>
    if h0 : (n + 1) % 4 = 0 then
      tupA[c, (⟨n + 1, hn⟩ : Fin cfg1.N), c0_of1 ⟨n + 1, hn⟩ h0, nc1_first1 ⟨n + 1, hn⟩ h0]
    else if h3 : (n + 1) % 4 = 3 then
      tupC[c, (⟨n + 1, hn⟩ : Fin cfg1.N), nc0_of1 ⟨n + 1, hn⟩ h0, c1_of1 ⟨n + 1, hn⟩ h3, (outsAt1 c n (Nat.lt_of_succ_lt hn)).2]
    else
      tupB[c, (⟨n + 1, hn⟩ : Fin cfg1.N), nc0_of1 ⟨n + 1, hn⟩ h0, nc1_of1 ⟨n + 1, hn⟩ h3, (outsAt1 c n (Nat.lt_of_succ_lt hn)).2]

/-- At a first key tile: case A's contents. -/
theorem outsAt1_A (c : Dev nD) (t : Fin cfg1.N) (h0 : t.val % 4 = 0) :
    outsAt1 V c t.val t.isLt = tupA[c, t, c0_of1 t h0, nc1_first1 t h0] := by
  obtain ⟨n, hn⟩ := t
  cases n with
  | zero => exact rfl
  | succ n => exact (dif_pos h0).trans rfl

/-- At a middle key tile: case B's contents, over what the point before left. -/
theorem outsAt1_B (c : Dev nD) (t : Fin cfg1.N) (h0 : ¬t.val % 4 = 0) (h3 : ¬t.val % 4 = 3) :
    outsAt1 V c t.val t.isLt = tupB[c, t, nc0_of1 t h0, nc1_of1 t h3, (outsAt1 V c (t.val - 1) (Nat.lt_of_le_of_lt (Nat.sub_le _ _) t.isLt)).2] := by
  obtain ⟨n, hn⟩ := t
  cases n with
  | zero => exact absurd (Nat.zero_mod _) h0
  | succ n => exact (dif_neg h0).trans ((dif_neg h3).trans rfl)

/-- At a last key tile: case C's contents, over what the point before left. -/
theorem outsAt1_C (c : Dev nD) (t : Fin cfg1.N) (h0 : ¬t.val % 4 = 0) (h3 : t.val % 4 = 3) :
    outsAt1 V c t.val t.isLt = tupC[c, t, nc0_of1 t h0, c1_of1 t h3, (outsAt1 V c (t.val - 1) (Nat.lt_of_le_of_lt (Nat.sub_le _ _) t.isLt)).2] := by
  obtain ⟨n, hn⟩ := t
  cases n with
  | zero => exact absurd (Nat.zero_mod _) h0
  | succ n => exact (dif_neg h0).trans ((dif_pos h3).trans rfl)

/-! ## The region invariant -/

/-- The scoped buffers the attention region does not touch (the other two regions' staging buffers), each at some
    contents, and the generator register at some state. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ r, prngReg c r))

/-- The invariant once the six scratch buffers hold known vectors s. -/
def PhiAt1 (c : Dev nD) (s : Scr F) : sProp 𝕄 :=
  iprop(Rest1 (F := F) c
    ∗ owns (c : Thread nD τ) scM1_0 fullShare s.1
    ∗ owns (c : Thread nD τ) scM1_1 fullShare s.2.1
    ∗ owns (c : Thread nD τ) scM1_2 fullShare s.2.2.1
    ∗ owns (c : Thread nD τ) scM1_3 fullShare s.2.2.2.1
    ∗ owns (c : Thread nD τ) scM1_4 fullShare s.2.2.2.2.1
    ∗ owns (c : Thread nD τ) scM1_5 fullShare s.2.2.2.2.2)

/-- What the launch hands the region, opened: the untouched rest and each scratch buffer at some contents. -/
theorem PhiA1_open (c : Dev nD) :
    (Pipeline.ΦA spec1 c : sProp 𝕄) ⊢ iprop(Rest1 (F := F) c
      ∗ (∃ d, owns (c : Thread nD τ) scM1_0 fullShare d)
      ∗ (∃ d, owns (c : Thread nD τ) scM1_1 fullShare d)
      ∗ (∃ d, owns (c : Thread nD τ) scM1_2 fullShare d)
      ∗ (∃ d, owns (c : Thread nD τ) scM1_3 fullShare d)
      ∗ (∃ d, owns (c : Thread nD τ) scM1_4 fullShare d)
      ∗ (∃ d, owns (c : Thread nD τ) scM1_5 fullShare d)) := by
  rw [PhiA1_eq]; unfold Rest1
  iintro ⟨⟨G0, G1, G2, G3, G4, G5, G6, G7, HS0, HS1, HS2, HS3, HS4, HS5, G8, G9, G10, G11, G12, G13⟩, Hg⟩
  isplitl [G0 G1 G2 G3 G4 G5 G6 G7 G8 G9 G10 G11 G12 G13 Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact Hg
  isplitl [HS0]; · iexact HS0
  isplitl [HS1]; · iexact HS1
  isplitl [HS2]; · iexact HS2
  isplitl [HS3]; · iexact HS3
  isplitl [HS4]; · iexact HS4
  iexact HS5

/-- And closed again. -/
theorem PhiA1_close (c : Dev nD) :
    iprop(Rest1 (F := F) c
      ∗ (∃ d, owns (c : Thread nD τ) scM1_0 fullShare d)
      ∗ (∃ d, owns (c : Thread nD τ) scM1_1 fullShare d)
      ∗ (∃ d, owns (c : Thread nD τ) scM1_2 fullShare d)
      ∗ (∃ d, owns (c : Thread nD τ) scM1_3 fullShare d)
      ∗ (∃ d, owns (c : Thread nD τ) scM1_4 fullShare d)
      ∗ (∃ d, owns (c : Thread nD τ) scM1_5 fullShare d)) ⊢ (Pipeline.ΦA spec1 c : sProp 𝕄) := by
  rw [PhiA1_eq]; unfold Rest1
  iintro ⟨⟨G0, G1, G2, G3, G4, G5, G6, G7, G8, G9, G10, G11, G12, G13, Hg⟩, HS0, HS1, HS2, HS3, HS4, HS5⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [HS0]; · iexact HS0
    isplitl [HS1]; · iexact HS1
    isplitl [HS2]; · iexact HS2
    isplitl [HS3]; · iexact HS3
    isplitl [HS4]; · iexact HS4
    isplitl [HS5]; · iexact HS5
    isplitl [G8]; · iexact G8
    isplitl [G9]; · iexact G9
    isplitl [G10]; · iexact G10
    isplitl [G11]; · iexact G11
    isplitl [G12]; · iexact G12
    iexact G13
  iexact Hg

/-- The region invariant before position n: before the first point what the launch hands over (every scoped buffer at
    anything); afterwards the six scratch buffers at what the point before left, the other scoped buffers at anything;
    the generator register at some state throughout. -/
def PhiS1 (c : Dev nD) : (n : ℕ) → n ≤ cfg1.N → sProp 𝕄
  | 0, _ => Pipeline.ΦA spec1 c
  | n + 1, hn => PhiAt1 c (outsAt1 V c n hn).2

theorem PhiS1_zero (c : Dev nD) (n : ℕ) (h : n ≤ cfg1.N) (hz : n = 0) : PhiS1 V c n h = Pipeline.ΦA spec1 c := by
  subst hz; rfl

/-- After point n (before point n + 1): the scratch buffers at that point's contents. -/
theorem PhiS1_succ (c : Dev nD) (n : ℕ) (hn : n < cfg1.N) : PhiS1 V c (n + 1) hn = PhiAt1 c (outsAt1 V c n hn).2 := rfl

/-- Before a point that is not the first: the scratch buffers at what the point before left. -/
theorem PhiS1_pos (c : Dev nD) (n : ℕ) (h : n ≤ cfg1.N) (hz : n ≠ 0) :
    PhiS1 V c n h = PhiAt1 c (outsAt1 V c (n - 1) (by omega)).2 := by
  cases n with
  | zero => exact absurd rfl hz
  | succ n => rfl

/-- Before any point the invariant holds the untouched rest and each scratch buffer at some contents. -/
theorem PhiS1_any (c : Dev nD) (n : ℕ) (h : n ≤ cfg1.N) :
    PhiS1 V c n h ⊢ iprop(Rest1 (F := F) c
      ∗ (∃ d, owns (c : Thread nD τ) scM1_0 fullShare d)
      ∗ (∃ d, owns (c : Thread nD τ) scM1_1 fullShare d)
      ∗ (∃ d, owns (c : Thread nD τ) scM1_2 fullShare d)
      ∗ (∃ d, owns (c : Thread nD τ) scM1_3 fullShare d)
      ∗ (∃ d, owns (c : Thread nD τ) scM1_4 fullShare d)
      ∗ (∃ d, owns (c : Thread nD τ) scM1_5 fullShare d)) := by
  cases n with
  | zero => exact PhiA1_open c
  | succ n =>
    rw [PhiS1_succ]; unfold PhiAt1
    iintro ⟨HR, HS0, HS1, HS2, HS3, HS4, HS5⟩
    isplitl [HR]; · iexact HR
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

/-- The proof data on core c. The three input windows read one array: its full share is dealt among them, the left
    half to the queries, the right half's halves to the keys and the values. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-! ## The input windows' buffers hold their blocks -/

/-- An input window's current staging buffer holds its block at every point, fetched there or not, for any proof data
    whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point. The inputs' memrefs hold their blocks; the position says which case the point is in. At a
    first key tile the invariant hands the body the six scratch buffers at anything and the reset covers them; at a
    later one it hands them at what the point before left. Either way the case's run applies, and the invariant takes
    the scratch buffers back at this point's contents, each case's stores covering them. The output's buffer is handed
    back untouched except at a last key tile, whose store covers it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc V c t]
  by_cases h0 : t.val % 4 = 0
  · -- a first key tile
    rw [Dat.leavesExact_idle (dat1 V c) 3 t (idleAt1_3 t (nc1_first1 t h0)) (noFlush1_3 t (nc1_first1 t h0))]
    rw [outsAt1_A V c t h0]
    unfold PhiAt1; dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨HR, HS0, HS1, HS2, HS3, HS4, HS5⟩
    iapply ((kernelRun1_A c (grid1.coords t) _ _ _ _ _ _ _ _ _ _ _ _ _ _ _ _ _ _ _ _ (c0_of1 t h0) (nc1_first1 t h0) (iblk1 V c 0 t) (iblk1 V c 1 t) (iblk1 V c 2 t)).2.2.2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, ⟨%e0, HS0⟩, ⟨%e1, HS1⟩, ⟨%e2, HS2⟩, ⟨%e3, HS3⟩, ⟨%e4, HS4⟩, ⟨%e5, HS5⟩⟩
    isplitl [HR HS0 HS1 HS2 HS3 HS4 HS5]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_A_4 c _ _ _ _ _ _ _ _ _ _ _ _ _ _ _ _ _ _ _ _ _ _ _ _ _ _)
      unfold owns; iexists _; isplitr
      swap; · iexact HS5
      ipureintro; exact View.read_writes_of_cover _ _ _ _ _ (scover1_A_5 c _ _ _ _ _ _ _ _ _ _ _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun e => h0 (by rw [e])
    rw [PhiS1_pos V c _ _ hz]
    by_cases h3 : t.val % 4 = 3
    · -- a last key tile
      rw [show (dat1 V c).leavesExact 3 t = owns (c : Thread nD τ) (ms1_3 t) fullShare ((dat1 V c).after 3 t) from by
        unfold Dat.leavesExact; rw [liveAt1_3 t (c1_of1 t h3)], after1_3]
      rw [outsAt1_C V c t h0 h3]
      unfold PhiAt1; dsimp only
      iintro ⟨⟨HR, HS0, HS1, HS2, HS3, HS4, HS5⟩, Ho, ⟨%d0, H0⟩, ⟨%d1, H1⟩, ⟨%d2, H2⟩, ⟨%d3, H3⟩⟩
      iapply ((kernelRun1_C c (grid1.coords t) _ _ _ _ _ _ _ _ _ _ _ _ _ _ _ _ _ _ _ _ (nc0_of1 t h0) (c1_of1 t h3) (iblk1 V c 0 t) (iblk1 V c 1 t) (iblk1 V c 2 t) _ _ _ _ _ _).2.2.2.2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, ⟨%e0, HS0⟩, ⟨%e1, HS1⟩, ⟨%e2, HS2⟩, ⟨%e3', HS3⟩, ⟨%e4, HS4⟩, ⟨%e5, HS5⟩⟩
      isplitl [HR HS0 HS1 HS2 HS3 HS4 HS5]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover1_C_3 c _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (scover1_C_4 c _ _ _ _ _ _ _ _ _ _ _ _ _ _ _ _ _ _ _ _ _ _ _ _ _ _ _)
        unfold owns; iexists _; isplitr
        swap; · iexact HS5
        ipureintro; exact View.read_writes_of_cover _ _ _ _ _ (scover1_C_5 c _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _ _ _ _ _)
    · -- a middle key tile
      rw [Dat.leavesExact_idle (dat1 V c) 3 t (idleAt1_3 t (nc1_of1 t h3)) (noFlush1_3 t (nc1_of1 t h3))]
      rw [outsAt1_B V c t h0 h3]
      unfold PhiAt1; dsimp only
      iintro ⟨⟨HR, HS0, HS1, HS2, HS3, HS4, HS5⟩, Ho, ⟨%d0, H0⟩, ⟨%d1, H1⟩, ⟨%d2, H2⟩, ⟨%d3, H3⟩⟩
      iapply ((kernelRun1_B c (grid1.coords t) _ _ _ _ _ _ _ _ _ _ _ _ _ _ _ _ _ _ _ _ (nc0_of1 t h0) (nc1_of1 t h3) (iblk1 V c 0 t) (iblk1 V c 1 t) (iblk1 V c 2 t) _ _ _ _ _ _).2.2.2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e0, HS0⟩, ⟨%e1, HS1⟩, ⟨%e2, HS2⟩, ⟨%e3, HS3⟩, ⟨%e4, HS4⟩, ⟨%e5, HS5⟩⟩
      isplitl [HR HS0 HS1 HS2 HS3 HS4 HS5]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover1_B_3 c _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (scover1_B_4 c _ _ _ _ _ _ _ _ _ _ _ _ _ _ _ _ _ _ _ _ _ _ _ _ _ _ _)
        unfold owns; iexists _; isplitr
        swap; · iexact HS5
        ipureintro; exact View.read_writes_of_cover _ _ _ _ _ (scover1_B_5 c _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives every scoped buffer back at some contents. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_close c)

end Cert.KernelIdeal.Hand

end
-- ==== Proof.KI.RunVals.lean ====
/-
  The whole run: the host stretches and the three pipelines in @main's order. Between two items a core holds every
  unscoped buffer at a known valuation: the launch memory, then each host stretch applied, then each pipeline's result
  array replaced by what the pipeline leaves in it (its write-backs folded over the grid). Each pipeline is entered by
  sorting its arrays out of the unscoped buffers and left by putting them back; the attention pipeline reads ONE array
  through three windows, so that array's full share is dealt in three at entry and joined again at exit.
-/
import proofs.«411221_j41120016892169_3_alg».proof.Proof.KI.R0
import proofs.«411221_j41120016892169_3_alg».proof.Proof.KI.R1Dat
import proofs.«411221_j41120016892169_3_alg».proof.Proof.KI.R2
import proofs.«411221_j41120016892169_3_alg».proof.Proof.KI.ValueCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at the boundaries -/

/-- A valuation read at the TensorCore's references. -/
abbrev atTc (W : Dev nD → Valuation τ sig (Elt F)) : (c : Dev nD) → (b : Ref sig .tc) → Buf (Elt F) ((c : Thread nD τ).loc b) :=
  fun c b => W c b

/-- Before the first pipeline: the launch memory after the first host stretch. -/
abbrev U1 (c : Dev nD) : Valuation τ sig (Elt F) := Gen.V1 m c
/-- What the first pipeline leaves in its result array. -/
def o2 (c : Dev nD) : Buf (Elt F) ((c : Thread nD τ).loc main_v11) := (dat0 (atTc (U1 m)) c).arrAt 3 cfg0.N
/-- After the first pipeline. -/
def U2 (c : Dev nD) : Valuation τ sig (Elt F) := Function.update (U1 m c) main_v11 (o2 m c)
/-- Before the attention pipeline. -/
abbrev U3 (c : Dev nD) : Valuation τ sig (Elt F) := StableHlo.after hostOps1 (U2 m c)
def o4 (c : Dev nD) : Buf (Elt F) ((c : Thread nD τ).loc main_v13) := (dat1 (atTc (U3 m)) c).arrAt 3 cfg1.N
/-- After the attention pipeline. -/
def U4 (c : Dev nD) : Valuation τ sig (Elt F) := Function.update (U3 m c) main_v13 (o4 m c)
/-- Before the last pipeline. -/
abbrev U5 (c : Dev nD) : Valuation τ sig (Elt F) := StableHlo.after hostOps2 (U4 m c)
def o6 (c : Dev nD) : Buf (Elt F) ((c : Thread nD τ).loc main_v16) := (dat2 (atTc (U5 m)) c).arrAt 3 cfg2.N
/-- After the last pipeline. -/
def U6 (c : Dev nD) : Valuation τ sig (Elt F) := Function.update (U5 m c) main_v16 (o6 m c)
/-- At the end. -/
abbrev U7 (c : Dev nD) : Valuation τ sig (Elt F) := StableHlo.after hostOps3 (U6 m c)

/-- What the pipelines leave, as the conditional frame asks for it: the contents after item J - 1. -/
def outsK : Gen.Outs (F := F) := fun J r c => if J = 2 then U2 m c r else if J = 4 then U4 m c r else U6 m c r

theorem U2_self (c : Dev nD) : U2 m c main_v11 = o2 m c := by unfold U2; exact Function.update_self ..
theorem U4_self (c : Dev nD) : U4 m c main_v13 = o4 m c := by unfold U4; exact Function.update_self ..
theorem U6_self (c : Dev nD) : U6 m c main_v16 = o6 m c := by unfold U6; exact Function.update_self ..
theorem U2_of (c : Dev nD) (r : Ref sig .tc) (h : r ≠ main_v11) : U2 m c r = U1 m c r := by
  unfold U2; exact Function.update_of_ne (StableHlo.devRef_ne_of_ne h : (Proc.devRef .tc r : DevRef τ sig) ≠ Proc.devRef .tc main_v11) _ _
theorem U4_of (c : Dev nD) (r : Ref sig .tc) (h : r ≠ main_v13) : U4 m c r = U3 m c r := by
  unfold U4; exact Function.update_of_ne (StableHlo.devRef_ne_of_ne h : (Proc.devRef .tc r : DevRef τ sig) ≠ Proc.devRef .tc main_v13) _ _
theorem U6_of (c : Dev nD) (r : Ref sig .tc) (h : r ≠ main_v16) : U6 m c r = U5 m c r := by
  unfold U6; exact Function.update_of_ne (StableHlo.devRef_ne_of_ne h : (Proc.devRef .tc r : DevRef τ sig) ≠ Proc.devRef .tc main_v16) _ _

/-- The conditional frame's valuations at these contents are the ones above. -/
theorem V2_eq (c : Dev nD) : Gen.V2 m (outsK m) c = U2 m c := by
  show Function.update (Gen.V1 m c) main_v11 (outsK m 2 main_v11 c) = U2 m c
  rw [show outsK m 2 main_v11 c = o2 m c from (if_pos rfl).trans (U2_self m c)]; rfl
theorem V3_eq (c : Dev nD) : Gen.V3 m (outsK m) c = U3 m c := by
  show StableHlo.after hostOps1 (Gen.V2 m (outsK m) c) = _; rw [V2_eq]
theorem V4_eq (c : Dev nD) : Gen.V4 m (outsK m) c = U4 m c := by
  show Function.update (Gen.V3 m (outsK m) c) main_v13 (outsK m 4 main_v13 c) = U4 m c
  rw [V3_eq, show outsK m 4 main_v13 c = o4 m c from (if_neg (by decide)).trans ((if_pos rfl).trans (U4_self m c))]; rfl
theorem V5_eq (c : Dev nD) : Gen.V5 m (outsK m) c = U5 m c := by
  show StableHlo.after hostOps2 (Gen.V4 m (outsK m) c) = _; rw [V4_eq]
theorem V6_eq (c : Dev nD) : Gen.V6 m (outsK m) c = U6 m c := by
  show Function.update (Gen.V5 m (outsK m) c) main_v16 (outsK m 6 main_v16 c) = U6 m c
  rw [V5_eq, show outsK m 6 main_v16 c = o6 m c from (if_neg (by decide)).trans ((if_neg (by decide)).trans (U6_self m c))]; rfl
theorem V7_eq (c : Dev nD) : Gen.V7 m (outsK m) c = U7 m c := by
  show StableHlo.after hostOps3 (Gen.V6 m (outsK m) c) = _; rw [V6_eq]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)

end Cert.KernelIdeal.Hand

end
-- ==== Proof.KI.Reg0.lean ====
/-
  The first projection as one item of the whole run. Between two items a core holds every unscoped buffer whole at a
  known valuation, beside its generator register and its dues (none). Entering the pipeline sorts its four arrays out of
  those buffers; the register goes into the pipeline's invariant and comes back; the buffers no window names bypass the
  pipeline. Leaving it puts the arrays back: the three input arrays are never written back, so they hold what they held,
  and the output array holds its write-backs folded over the grid, which is exactly the valuation at the next boundary.
-/
import proofs.«411221_j41120016892169_3_alg».proof.Proof.KI.RunVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays at the exit -/

/-- At the exit every array of the pipeline holds what the next boundary's valuation says: an input array is never
    written back and the valuation is unchanged there; the output array is the one place the valuation was replaced,
    by the folded write-backs. -/
theorem hF0 (c : Dev nD) : ∀ w : Fin cfg0.W, (dat0 (atTc (U1 m)) c).arrAt w cfg0.N = atTc (U2 m) c (Pipeline.arrRef spec0 w)
  | 0 => ((dat0 (atTc (U1 m)) c).arrAt_in 0 rfl _).trans ((A_eq0 (atTc (U1 m)) c 0).trans (U2_of m c _ (by decide)).symm)
  | 1 => ((dat0 (atTc (U1 m)) c).arrAt_in 1 rfl _).trans ((A_eq0 (atTc (U1 m)) c 1).trans (U2_of m c _ (by decide)).symm)
  | 2 => ((dat0 (atTc (U1 m)) c).arrAt_in 2 rfl _).trans ((A_eq0 (atTc (U1 m)) c 2).trans (U2_of m c _ (by decide)).symm)
  | 3 => (U2_self m c).symm
  | ⟨_ + 4, h⟩ => absurd h (Nat.not_lt.2 (Nat.le_add_left _ _))

/-- Off the pipeline's arrays the two valuations agree: the only buffer replaced is the output array. -/
theorem hrest0 (c : Dev nD) : ∀ b, b ∉ Finset.univ.image (Pipeline.arrRef spec0) → atTc (U2 m) c b = atTc (U1 m) c b :=
  fun b hb => U2_of m c b fun e => hb (Finset.mem_image.mpr ⟨3, Finset.mem_univ _, e.symm⟩)

/-! ## The region as a segment -/

set_option backward.isDefEq.respectTransparency.types false in
/-- The pipeline over the thread state: entered from every unscoped buffer at the valuation before it, left at the
    valuation after it; the register and the dues ride along; no semaphore of the kernel's own. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ Lz lvz 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) :
    (reg0 m).pre c = iprop(StableHlo.held (c : Thread nD τ) (Pipeline.ucRefs τ sig) (U1 m c) ∗ Rr c) := rfl
theorem reg0_post (c : Dev nD) :
    (reg0 m).post c = iprop(StableHlo.held (c : Thread nD τ) (Pipeline.ucRefs τ sig) (U2 m c) ∗ Rr c) := rfl

end Cert.KernelIdeal.Hand

end
-- ==== Proof.KI.Reg1.lean ====
/-
  The attention pipeline as a segment of the run. Its three input windows (queries, keys, values) read ONE array, the
  projection's result, and its fourth window writes the output array: the buffers behind the four windows are two. At
  entry the shared array's full share is dealt in three, the left half to the queries and the right half's two halves
  to the keys and the values, every part at the entry contents; no input window is ever written back, so at exit the
  three parts still hold those contents and join to the full share again, while the output array comes back at what
  the write-backs of all the grid points left in it. Every other unscoped buffer bypasses the region untouched.
-/
import proofs.«411221_j41120016892169_3_alg».proof.Proof.KI.RunVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

/-! ## The two buffers behind the four windows -/

section Arrays

variable (V : (c : Dev nD) → (b : Ref sig .tc) → Buf (Elt F) ((c : Thread nD τ).loc b))

/-- The shares the windows hold their arrays at: the inputs the three parts of the full share, the output the whole. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- A buffer whole at the full share is the same buffer held three times, at the left half and at the two halves of
    the right half, all at the same contents. -/
theorem pointsTo_three (ℓ : Loc nD τ sig) (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  ⟨(pointsTo_share (PosShare.mem_left_op_right fullShare)).1.trans
      (sep_mono .rfl (pointsTo_share (PosShare.mem_left_op_right fullShare.right)).1),
    (sep_mono .rfl (pointsTo_share (PosShare.mem_left_op_right fullShare.right)).2).trans
      (pointsTo_share (PosShare.mem_left_op_right fullShare)).2⟩

/-- The buffers behind the windows, each whole at the full share at contents `V'`, are the four windows' arrays at
    contents `G`, whenever `G` reads each window's array off `V'`: the shared array is dealt in three, the output
    array is the fourth window's as it is. Both ways. -/
theorem arrBufs1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 V c).arrays G := by
  have e0 : ((cfg1.win 0).arr.view.loc (c : Thread nD τ) ↦[(cfg1.win 0).arr.view.set]{(dat1 V c).share 0} G 0 : sProp 𝕄)
      = (((c : Thread nD τ).loc main_v12) ↦{fullShare.left} V' main_v12) := by
    rw [(arr_whole1 0).set_eq_univ, hG 0, share1_0]
  have e1 : ((cfg1.win 1).arr.view.loc (c : Thread nD τ) ↦[(cfg1.win 1).arr.view.set]{(dat1 V c).share 1} G 1 : sProp 𝕄)
      = (((c : Thread nD τ).loc main_v12) ↦{fullShare.right.left} V' main_v12) := by
    rw [(arr_whole1 1).set_eq_univ, hG 1, share1_1]
  have e2 : ((cfg1.win 2).arr.view.loc (c : Thread nD τ) ↦[(cfg1.win 2).arr.view.set]{(dat1 V c).share 2} G 2 : sProp 𝕄)
      = (((c : Thread nD τ).loc main_v12) ↦{fullShare.right.right} V' main_v12) := by
    rw [(arr_whole1 2).set_eq_univ, hG 2, share1_2]
  have e3 : ((cfg1.win 3).arr.view.loc (c : Thread nD τ) ↦[(cfg1.win 3).arr.view.set]{(dat1 V c).share 3} G 3 : sProp 𝕄)
      = (((c : Thread nD τ).loc main_v13) ↦{fullShare} V' main_v13) := by
    rw [(arr_whole1 3).set_eq_univ, hG 3, share1_3]
  unfold Pipeline.arrBufs Pipeline.Dat.arrays
  rw [bigSep_eq_bigSepL_of_eq [main_v12, main_v13] (by decide) (by decide), bigSep_W1, e0, e1, e2, e3]
  show iprop((((c : Thread nD τ).loc main_v12) ↦{fullShare} V' main_v12) ∗ (((c : Thread nD τ).loc main_v13) ↦{fullShare} V' main_v13))
    ⊣⊢ iprop((((c : Thread nD τ).loc main_v12) ↦{fullShare.left} V' main_v12) ∗ (((c : Thread nD τ).loc main_v12) ↦{fullShare.right.left} V' main_v12)
        ∗ (((c : Thread nD τ).loc main_v12) ↦{fullShare.right.right} V' main_v12) ∗ (((c : Thread nD τ).loc main_v13) ↦{fullShare} V' main_v13))
  constructor
  · iintro ⟨H12, H13⟩
    ihave H := (pointsTo_three _ _).1 $$ H12
    icases H with ⟨Hq, Hk, Hv⟩
    isplitl [Hq]; · iexact Hq
    isplitl [Hk]; · iexact Hk
    isplitl [Hv]; · iexact Hv
    iexact H13
  · iintro ⟨Hq, Hk, Hv, H13⟩
    isplitr [H13]
    · iapply (pointsTo_three _ _).2
      isplitl [Hq]; · iexact Hq
      isplitl [Hk]; · iexact Hk
      iexact Hv
    iexact H13

end Arrays

/-! ## Entry and exit: the arrays out of the unscoped buffers and back -/

variable (m : (ℓ : Loc nD τ sig) → Buf (Elt F) ℓ)

/-- No buffer behind an input window is the output array. -/
theorem arrRef1_ne : ∀ w : Fin cfg1.W, w ≠ 3 → Pipeline.arrRef spec1 w ≠ main_v13 := by decide

/-- The unscoped buffers no window reads do not include the output array: two valuations that differ at most there
    hold them alike. -/
theorem unscopedRest1_congr (c : Dev nD) (V₁ V₂ : (b : Ref sig .tc) → Buf (Elt F) ((c : Thread nD τ).loc b))
    (h : ∀ b, b ≠ main_v13 → V₂ b = V₁ b) :
    (Pipeline.unscopedRest (Ix := Unit) (Name := ℕ) (U := UR sig nD τ) (Lvl := ℕ) spec1 c V₁ : sProp 𝕄)
      = Pipeline.unscopedRest spec1 c V₂ := by
  unfold Pipeline.unscopedRest
  exact bigSep_congr fun b hb => by
    rw [h b fun e => (Finset.mem_sdiff.mp hb).2 (e ▸ Finset.mem_image.mpr ⟨3, Finset.mem_univ _, rfl⟩)]

/-- ENTRY: every unscoped buffer at the contents before the region is the four windows' arrays at the proof data's
    entry contents, the shared array dealt in three, beside the unscoped buffers no window reads. -/
theorem entry1 (c : Dev nD) :
    (StableHlo.held (c : Thread nD τ) (Pipeline.ucRefs τ sig) (U3 m c) : sProp 𝕄)
      ⊢ iprop((pdats m 1 c).arrays ((pdats m 1 c).arrAt · 0)
          ∗ Pipeline.unscopedRest (Ix := Unit) (Name := ℕ) (U := UR sig nD τ) (Lvl := ℕ) spec1 c (atTc (U3 m) c)) := by
  rw [← Pipeline.unscopedBufs_held, Pipeline.unscopedBufs_split₀ cfgs 1 winFacts₀1.arr_unscoped c]
  exact sep_mono (arrBufs1_iff (atTc (U3 m)) c (atTc (U3 m) c) _ fun w => rfl).1 .rfl

/-- EXIT: the three parts of the shared array, still at the entry contents (an input window is never written back),
    join to its full share; with the output array at what the write-backs left and the bypassing buffers they are
    every unscoped buffer at the contents after the region, which differ from those before at the output array only. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (atTc (U3 m) c))
      ⊢ (StableHlo.held (c : Thread nD τ) (Pipeline.ucRefs τ sig) (U4 m c) : sProp 𝕄) := by
  rw [← Pipeline.unscopedBufs_held, Pipeline.unscopedBufs_split₀ cfgs 1 winFacts₀1.arr_unscoped c]
  refine sep_mono (arrBufs1_iff (atTc (U3 m)) c (atTc (U4 m) c) _ fun w => ?_).2 (Entails.of_eq ?_)
  · by_cases hw : w = 3
    · subst hw; exact (U4_self m c).symm
    · have hin : (cfg1.win w).isOut = false := by revert w; decide
      exact ((dat1 (atTc (U3 m)) c).arrAt_in w hin cfg1.N).trans (U4_of m c _ (arrRef1_ne w hw)).symm
  · exact unscopedRest1_congr c _ _ fun b hb => U4_of m c b hb

/-! ## The region as a segment -/

-- the record's fields are stated over the pinned configuration, which unfolds to the printed one
set_option backward.isDefEq.respectTransparency.types false in
/-- The attention pipeline over the thread state: entered from every unscoped buffer at the contents before it, left
    at those after it; the generator register into the invariant and out; nothing owed; no semaphore of the kernel's own. -/
def reg1 : Pipeline.RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (atTc (U3 m)) c).loose
  hwaits := Pipeline.hwaits_of_owed_zero _ _ _ _ Lz lvz 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (U3 m)) c)
    unfold Pipeline.ΦA
    iintro ⟨Hp, -, Hr⟩
    isplitl [Hr]; · iexact Hr
    iexact Hp
  hout c := by
    rw [Pipeline.ownSems0_none]
    refine (hout1 (atTc (U3 m)) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = iprop(StableHlo.held (c : Thread nD τ) (Pipeline.ucRefs τ sig) (U3 m c) ∗ Rr c) := rfl
theorem reg1_post (c : Dev nD) : (reg1 m).post c = iprop(StableHlo.held (c : Thread nD τ) (Pipeline.ucRefs τ sig) (U4 m c) ∗ Rr c) := rfl

end Cert.KernelIdeal.Hand

end
-- ==== Proof.KI.Reg2.lean ====
/-
  The last projection as one item of the whole run. Between two items a core holds every unscoped buffer whole at a
  known valuation, beside its generator register and its dues (none). Entering the pipeline sorts its four arrays out of
  those buffers; the register goes into the pipeline's invariant and comes back; the buffers no window names bypass the
  pipeline. Leaving it puts the arrays back: the three input arrays are never written back, so they hold what they held,
  and the output array holds its write-backs folded over the grid, which is exactly the valuation at the next boundary.
-/
import proofs.«411221_j41120016892169_3_alg».proof.Proof.KI.RunVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays at the exit -/

/-- At the exit every array of the pipeline holds what the next boundary's valuation says: an input array is never
    written back and the valuation is unchanged there; the output array is the one place the valuation was replaced,
    by the folded write-backs. -/
theorem hF2 (c : Dev nD) : ∀ w : Fin cfg2.W, (dat2 (atTc (U5 m)) c).arrAt w cfg2.N = atTc (U6 m) c (Pipeline.arrRef spec2 w)
  | 0 => ((dat2 (atTc (U5 m)) c).arrAt_in 0 rfl _).trans ((A_eq2 (atTc (U5 m)) c 0).trans (U6_of m c _ (by decide)).symm)
  | 1 => ((dat2 (atTc (U5 m)) c).arrAt_in 1 rfl _).trans ((A_eq2 (atTc (U5 m)) c 1).trans (U6_of m c _ (by decide)).symm)
  | 2 => ((dat2 (atTc (U5 m)) c).arrAt_in 2 rfl _).trans ((A_eq2 (atTc (U5 m)) c 2).trans (U6_of m c _ (by decide)).symm)
  | 3 => (U6_self m c).symm
  | ⟨_ + 4, h⟩ => absurd h (Nat.not_lt.2 (Nat.le_add_left _ _))

/-- Off the pipeline's arrays the two valuations agree: the only buffer replaced is the output array. -/
theorem hrest2 (c : Dev nD) : ∀ b, b ∉ Finset.univ.image (Pipeline.arrRef spec2) → atTc (U6 m) c b = atTc (U5 m) c b :=
  fun b hb => U6_of m c b fun e => hb (Finset.mem_image.mpr ⟨3, Finset.mem_univ _, e.symm⟩)

/-! ## The region as a segment -/

set_option backward.isDefEq.respectTransparency.types false in
/-- The pipeline over the thread state: entered from every unscoped buffer at the valuation before it, left at the
    valuation after it; the register and the dues ride along; no semaphore of the kernel's own. -/
def reg2 : Pipeline.RegionSeg (pcfgs (F := F)) adm (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ Lz lvz 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg2_pre (c : Dev nD) :
    (reg2 m).pre c = iprop(StableHlo.held (c : Thread nD τ) (Pipeline.ucRefs τ sig) (U5 m c) ∗ Rr c) := rfl
theorem reg2_post (c : Dev nD) :
    (reg2 m).post c = iprop(StableHlo.held (c : Thread nD τ) (Pipeline.ucRefs τ sig) (U6 m c) ∗ Rr c) := rfl

end Cert.KernelIdeal.Hand

end
-- ==== Proof.KI.RunAll.lean ====
/-
  The whole run of @main: the three pipelines' segment records put into the program's conditional frame. The thread
  state between two items is "every unscoped buffer at the boundary's contents, the generator register at some state,
  nothing owed"; the launch makes it on every core at once, each region is entered from it and left at the next one, and
  at the end the result buffer and the five arguments are read off the last boundary's contents.
-/
import proofs.«411221_j41120016892169_3_alg».proof.Proof.KI.Reg0
import proofs.«411221_j41120016892169_3_alg».proof.Proof.KI.Reg1
import proofs.«411221_j41120016892169_3_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The whole run: every weakly fair execution of @main from memory m with zero counters terminates, nothing faulting,
    and the final memory holds the result buffer at the last boundary's contents and every argument as launched. -/
theorem run_all (ρ : Dev nD → PrngReg) :
    θ_run defs (onTc (τ := τ) (main (F := F))) ⟨m, fun _ => 0, ρ⟩ (fun r => ∀ c : Dev nD,
      r.2.mem ((c.tc : Thread nD τ).loc main_v17) = U7 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := Gen.value_cond (F := F) m (Ix := Unit) (U := UR sig nD τ) (Lvl := ℕ) emb₁ () 𝒱₀ Lz lvz (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
  exact (θ_run defs _ _).mono (fun r hr c => ⟨(hr c).1.trans (congrFun (V7_eq m c) _), (hr c).2⟩) h

end Cert.KernelIdeal.Hand

end
-- ==== Proof.LibRowsDot.lean ====
/-
  A matrix product of an M-by-K array with an N-by-K array, both contracted on their last axis, read at an entry.

  With dimension numbers "columns of the left against columns of the right, no batch axis", the operand indices
  at result entry (r, c) and contraction position k are (r, k) on the left and (c, k) on the right: each result
  entry is the dot product of a row of the left with a row of the right. So, over the extended reals, a product
  accumulated into the zero array and a host dot_general are both  ∑ k, lhs (r, k) * rhs (c, k).  Stated for any
  dimension record of that form, whatever its extents.
-/
import Idealize.ShloMosaic.Lib.ValueIdx
import Idealize.ShloMosaic.PureOps.Ideal.Laws

noncomputable section

namespace Idealize.ShloMosaic.RowsDot

open Idealize.ShloMosaic Idealize.ShloMosaic.ValueIdx

variable {M K N : Nat}

/-- The dimension numbers of an M×K by N×K product, rows against rows: last axis against last axis, nothing batched. -/
structure IsRowsByRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

/-- One axis is contracted. -/
theorem IsRowsByRows.rank_contr (h : IsRowsByRows d) : d.contr.rank = 1 := by
  rw [d.rank_contr, h.lc]; rfl

/-- Its extent is K. -/
theorem IsRowsByRows.size_contr (h : IsRowsByRows d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's row is the result's row. -/
theorem IsRowsByRows.lhs_row (h : IsRowsByRows d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem IsRowsByRows.lhs_col (h : IsRowsByRows d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem IsRowsByRows.rhs_row (h : IsRowsByRows d) (j : (⟨2, ![M, N]⟩ : Shape).Idx) (k : d.contr.Idx) :
    (d.rhsIdx j k 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction position. -/
theorem IsRowsByRows.rhs_col (h : IsRowsByRows d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The sum over the contraction shape's positions, re-indexed by its one coordinate: entry (r, c) of the product
    is the dot product of row r of the left operand with row c of the right operand. -/
theorem IsRowsByRows.sum_contr (h : IsRowsByRows d) {α : Type} [AddCommMonoid α] [Mul α]
    (lhs : (⟨2, ![M, K]⟩ : Shape).Idx → α) (rhs : (⟨2, ![N, K]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 c k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 c k :=
    funext fun a => Fin.ext (by
      match a with
      | ⟨0, _⟩ => exact h.rhs_row _ _
      | ⟨1, _⟩ => exact (h.rhs_col _ _).trans hk)
  rw [el, er]

/-- A kernel's product into the zero accumulator, over the extended reals, at entry (r, c). -/
theorem IsRowsByRows.matmul_zero_apply (h : IsRowsByRows d) {φ₁ φ₂ : FTy} (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 c k) := by
  rw [Ideal.matmul_constant_zero_apply]
  exact h.sum_contr lhs rhs r c

/-- A host dot_general, over the extended reals, at entry (r, c). -/
theorem IsRowsByRows.dotGeneral_apply (h : IsRowsByRows d) {φ₁ φ₂ : FTy} (prec : Option ContractPrecision) (sched : HostSchedule)
    (lhs : FVec Ideal (⟨2, ![M, K]⟩ : Shape) φ₁) (rhs : FVec Ideal (⟨2, ![N, K]⟩ : Shape) φ₂) (r : Fin M) (c : Fin N) :
    FloatOps.dotGeneral d prec sched lhs rhs (ix2 r c) = ∑ k : Fin K, lhs (ix2 r k) * rhs (ix2 c k) := by
  rw [Ideal.dotGeneral_apply]
  exact h.sum_contr lhs rhs r c

end Idealize.ShloMosaic.RowsDot

end
-- ==== Proof.LinPoint.lean ====
/-
  The two linear kernels' stored blocks, read at an entry over the extended reals.

  Each kernel multiplies a block x (M rows of 1024) by a weight block w (1024 rows of 1024), contracting the last axis of
  both, starting from the zero array, and adds the bias row to every row of the product. The reshapes are identities and
  the narrowing of the result is the identity over the extended reals. So the entry (r, c) of the stored block is
  ∑ k, x (r, k) · w (c, k) + bias (0, c).
-/
import proofs.«411221_j41120016892169_3_alg».proof.Proof.Gen.KernelIdeal.Skeleton
import proofs.«411221_j41120016892169_3_alg».proof.Proof.LibRowsDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Hand.LinPoint

open Cert.KernelIdeal Cert.KernelIdeal.Gen Idealize.ShloMosaic Idealize.ShloMosaic.ValueIdx

/-- The first kernel's dimension numbers: last axis against last axis, nothing batched. -/
theorem rows0 : RowsDot.IsRowsByRows (M := 2048) (K := 1024) (N := 1024) dot_S2048x1024_S1024x1024_S2048x1024_1_1_0_0_n_n :=
  ⟨rfl, rfl, rfl, rfl, rfl, rfl⟩

/-- The third kernel's dimension numbers: the same form. -/
theorem rows2 : RowsDot.IsRowsByRows (M := 1024) (K := 1024) (N := 1024) dot_S1024x1024_S1024x1024_S1024x1024_1_1_0_0_n_n :=
  ⟨rfl, rfl, rfl, rfl, rfl, rfl⟩

/-- The bias row broadcast to M rows reads, at (r, c), the row's entry c. -/
theorem bias_at {M : Nat} (x2 : (⟨2, ![1, 1024]⟩ : Shape).Idx → EReal)
    (h : (⟨2, ![1, 1024]⟩ : Shape).Broadcasts (⟨2, ![M, 1024]⟩ : Shape)) (r : Fin M) (c : Fin 1024) :
    broadcastTo (⟨2, ![M, 1024]⟩ : Shape) x2 h (ix2 r c) = x2 (ix2 0 c) := by
  refine broadcastTo_apply x2 h (ix2 r c) (ix2 0 c) fun a => ?_
  match a with
  | ⟨0, _⟩ => rfl
  | ⟨1, _⟩ => rfl

/-- The first linear kernel's stored block at (r, c). -/
theorem lin0_at (x0 : Vec Ideal S2048x1024 .bf16) (x1 : Vec Ideal S1024x1024 .bf16) (x2 : Vec Ideal S1x1024 .f32) (r : Fin 2048) (c : Fin 1024) : k0_pay1 (F := Ideal) x0 x1 x2 (ix2 r c) = (∑ k : Fin 1024, x0 (ix2 r k) * x1 (ix2 c k)) + x2 (ix2 0 c) := by
  unfold k0_pay1
  rw [shapeCast_self, shapeCast_self, shapeCast_self]
  refine (truncf_apply (ψ := .bf16) (φ := .f32) _ _ (ix2 r c)).trans ?_
  refine (addf_apply _ _ _).trans ?_
  refine congrArg₂ (· + ·) ?_ ?_
  · exact rows0.matmul_zero_apply none x0 x1 r c
  · exact bias_at x2 _ r c

/-- The third linear kernel's stored block at (r, c). -/
theorem lin2_at (x0 : Vec Ideal S1024x1024 .bf16) (x1 : Vec Ideal S1024x1024 .bf16) (x2 : Vec Ideal S1x1024 .f32) (r : Fin 1024) (c : Fin 1024) : k2_pay1 (F := Ideal) x0 x1 x2 (ix2 r c) = (∑ k : Fin 1024, x0 (ix2 r k) * x1 (ix2 c k)) + x2 (ix2 0 c) := by
  unfold k2_pay1
  rw [shapeCast_self, shapeCast_self, shapeCast_self]
  refine (addf_apply _ _ _).trans ?_
  refine congrArg₂ (· + ·) ?_ ?_
  · exact rows2.matmul_zero_apply none x0 x1 r c
  · exact bias_at x2 _ r c

end Cert.Hand.LinPoint

end
-- ==== Proof.KI.Val0.lean ====
/-
  The first projection, from blocks to the array. Grid point (i, j) of the 2 × 3 grid writes back block (i, j) of the
  output: rows i·2048.. and columns j·1024.. . At a point the body's stored block is, entry by entry, the dot product of
  a row of the x block with a row of the weight block plus the bias entry; the x block is rows i·2048.. of x, the weight
  block rows j·1024.. of w, the bias block columns j·1024.. of b. So each written block is the restriction of ONE
  function of the three whole arrays, entry (r, e) ↦ ∑ k, x (r, k) · w (e, k) + b (0, e); the six blocks tile the
  output, every point writes its block back, hence the output array after the run is that function.
-/
import proofs.«411221_j41120016892169_3_alg».proof.Proof.KI.R0
import proofs.«411221_j41120016892169_3_alg».proof.Proof.LinPoint
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The whole array as one function of the three argument arrays -/

/-- Entry (r, e) of x · wᵀ + b. -/
def lin0R (X : S4096x1024.Idx → EReal) (W : S3072x1024.Idx → EReal) (B : S1x3072.Idx → EReal) (r : Fin 4096) (e : Fin 3072) : EReal :=
  (∑ k : Fin 1024, X (ix2 r k) * W (ix2 e k)) + B (ix2 0 e)

/-- The array of those entries. -/
def lin0G (X : S4096x1024.Idx → EReal) (W : S3072x1024.Idx → EReal) (B : S1x3072.Idx → EReal) : S4096x3072.Idx → EReal :=
  fun i => lin0R X W B (i 0) (i 1)

theorem zero_off0 : (![0, 0] : Fin 2 → Nat) = fun _ => 0 := funext fun a => by fin_cases a <;> rfl

/-! ## One grid point -/

/-- If the three blocks are rows i·2048.. of X, rows j·1024.. of W and columns j·1024.. of B, the body's stored block
    is block (i, j) of the array of entries. -/
theorem lin0_block (X : S4096x1024.Idx → EReal) (W : S3072x1024.Idx → EReal) (B : S1x3072.Idx → EReal)
    (x0 : Vec Ideal S2048x1024 .bf16) (x1 : Vec Ideal S1024x1024 .bf16) (x2 : Vec Ideal S1x1024 .f32)
    (i j : Nat) (hi : i ≤ 1) (hj : j ≤ 2)
    (h0 : ∀ (p : Fin 2048) (k : Fin 1024), x0 (ix2 p k) = X (ix2 ⟨i * 2048 + p.val, by have := p.isLt; omega⟩ k))
    (h1 : ∀ (q : Fin 1024) (k : Fin 1024), x1 (ix2 q k) = W (ix2 ⟨j * 1024 + q.val, by have := q.isLt; omega⟩ k))
    (h2 : ∀ (q : Fin 1024), x2 (ix2 0 q) = B (ix2 0 ⟨j * 1024 + q.val, by have := q.isLt; omega⟩))
    (y : S2048x1024.Idx) :
    k0_pay1 (F := Ideal) x0 x1 x2 y
      = lin0R X W B ⟨i * 2048 + (y 0).val, by have := idx2_lt0 y; omega⟩ ⟨j * 1024 + (y 1).val, by have := idx2_lt1 y; omega⟩ := by
  obtain ⟨p, q, rfl⟩ : ∃ (p : Fin 2048) (q : Fin 1024), y = ix2 p q := ⟨y 0, y 1, eq_ix2 y⟩
  rw [Cert.Hand.LinPoint.lin0_at]
  unfold lin0R
  rw [h2 q]
  refine congrArg₂ (· + ·) (Finset.sum_congr rfl fun k _ => ?_) rfl
  rw [h0 p k, h1 q k]

/-- The printed index maps over the grid: the x block moves with the output's row block, the weight and bias blocks
    with its column block, and the output's block indices stay in range. -/
theorem idx_rel0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 1 ∧ win0_3.index t (1 : Fin 2) ≤ 2 :=
  (by decide +kernel : ∀ t : Fin grid0.N, _)

/-- Every block (a, b) of the output is some point's. -/
theorem idx_onto0 : ∀ (a : Fin 2) (b : Fin 3), ∃ t : Fin cfg0.N, win0_3.index t = ![a.val, b.val] :=
  (by decide +kernel : ∀ (a : Fin 2) (b : Fin 3), ∃ t : Fin grid0.N, win0_3.index t = ![a.val, b.val])

/-- What point t writes back is block t of the array of entries. -/
theorem flushed0_eq (c : Dev nD) (t : Fin cfg0.N) :
    (dat0 (F := Ideal) V c).flushed 3 t = ((cfg0.win 3).blk t).view.read (Elt Ideal) (lin0G (V c main_v9) (V c main_v7) (V c main_v10)) := by
  show (cfg0.win 3).cut (grid0.coords t) ((dat0 V c).after 3 t) = _
  rw [after0_3]
  unfold out0_3
  rw [View.canon_unit_zero zero_off0]
  simp only [View.ld_unit_zero (S := S2048x1024) zero_off0, View.ld_unit_zero (S := S1024x1024) zero_off0, View.ld_unit_zero (S := S1x1024) zero_off0]
  obtain ⟨e0, e1, e2, e3, e4, e5, e6, e7⟩ := idx_rel0 t
  funext y
  show k0_pay1 (iblk0 V c 0 t) (iblk0 V c 1 t) (iblk0 V c 2 t) y
    = lin0G (V c main_v9) (V c main_v7) (V c main_v10) (((cfg0.win 3).blk t).view.emb y)
  refine (lin0_block (V c main_v9) (V c main_v7) (V c main_v10) (iblk0 V c 0 t) (iblk0 V c 1 t) (iblk0 V c 2 t)
    (win0_3.index t (0 : Fin 2)) (win0_3.index t (1 : Fin 2)) e6 e7 ?_ ?_ ?_ y).trans ?_
  · intro p k
    show V c main_v9 (((cfg0.win 0).blk t).view.emb (ix2 p k)) = _
    refine congrArg (V c main_v9) (funext fun a => Fin.ext ?_)
    match a with
    | ⟨0, _⟩ => show win0_0.index t (0 : Fin 2) * 2048 + 1 * p.val = win0_3.index t (0 : Fin 2) * 2048 + p.val; omega
    | ⟨1, _⟩ => show win0_0.index t (1 : Fin 2) * 1024 + 1 * k.val = k.val; omega
  · intro q k
    show V c main_v7 (((cfg0.win 1).blk t).view.emb (ix2 q k)) = _
    refine congrArg (V c main_v7) (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 1024 + 1 * k.val = k.val; omega
  · intro q
    show V c main_v10 (((cfg0.win 2).blk t).view.emb (ix2 0 q)) = _
    refine congrArg (V c main_v10) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  · unfold lin0G
    refine congrArg₂ (lin0R (V c main_v9) (V c main_v7) (V c main_v10)) (Fin.ext ?_) (Fin.ext ?_)
    · show win0_3.index t (0 : Fin 2) * 2048 + (y 0).val = win0_3.index t (0 : Fin 2) * 2048 + 1 * (y 0).val; omega
    · show win0_3.index t (1 : Fin 2) * 1024 + (y 1).val = win0_3.index t (1 : Fin 2) * 1024 + 1 * (y 1).val; omega

/-! ## The blocks tile the array -/

/-- An index of the array is in point t's block iff each coordinate is in the block's range on its axis. -/
theorem mem_blk0 (t : Fin cfg0.N) (i : S4096x3072.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v11).slice (win0_3.rect t)).set ↔ _
  rw [View.set_slice_whole, Rect.mem_set_unit]
  exact Iff.rfl

/-- Entry (r, e) lies in the block of the point with row block r / 2048 and column block e / 1024, which writes back. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-! ## The array after the run -/

/-- The output array after all points is the array of entries of the arrays the region found. -/
theorem arr0_eq (c : Dev nD) :
    (dat0 (F := Ideal) V c).arrAt 3 cfg0.N = lin0G (V c main_v9) (V c main_v7) (V c main_v10) :=
  (dat0 (F := Ideal) V c).arrAt_eq_of_cover 3 (lin0G (V c main_v9) (V c main_v7) (V c main_v10))
    (fun t _ => flushed0_eq V c t) cover0

/-- Entry (r, e) of the output array after the run. -/
theorem arr0_final (c : Dev nD) (r : Fin 4096) (e : Fin 3072) :
    ((dat0 (F := Ideal) V c).arrAt 3 cfg0.N : S4096x3072.Idx → EReal) (ix2 r e)
      = lin0R (V c main_v9) (V c main_v7) (V c main_v10) r e :=
  congrFun (arr0_eq V c) (ix2 r e)

/-- The entry written out. -/
theorem lin0R_def (X : S4096x1024.Idx → EReal) (W : S3072x1024.Idx → EReal) (B : S1x3072.Idx → EReal) (r : Fin 4096) (e : Fin 3072) :
    lin0R X W B r e = (∑ k : Fin 1024, X (ix2 r k) * W (ix2 e k)) + B (ix2 0 e) := rfl

end Cert.KernelIdeal.Hand

end
-- ==== Proof.KI.HostGlue.lean ====
/-
  What the host operations between the three kernels do to the arrays, read entry by entry (at the ideal tier, where a
  change of float format is the identity).

  Every host operation of the program is a reshape, a transpose of the leading two axes, or a change of float format.
  A reshape keeps the row-major position of every entry, so entry (b, s, d) of a [2, 2048, n] array is entry
  (b·2048 + s, d) of the [4096, n] array it is reshaped to or from. The projection weights arrive as 3072 rows ordered
  head-major with the three projections interleaved (row h·192 + t·64 + j); reshaped to [16, 3, 64, ·], transposed to
  [3, 16, 64, ·] and reshaped back they are three head-major slabs (row t·1024 + h·64 + j). The bias is permuted the same
  way.
-/
import proofs.«411221_j41120016892169_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Idealize.ShloMosaic.StableHlo (after_cons after_nil)
open Cert.KernelIdeal Cert.KernelIdeal.Gen
open Idealize.ShloMosaic.ValueIdx

/-! ## A reshape between [2, 2048, n] and [4096, n], read at an entry -/

/-- Merging the two leading axes: entry (b·2048 + s, d) of the result is entry (b, s, d) of the operand. -/
theorem merge_apply {α : Type} {n : ℕ} (x : (⟨3, ![2, 2048, n]⟩ : Shape).Idx → α)
    (h : (⟨3, ![2, 2048, n]⟩ : Shape).ShapeCasts ⟨2, ![4096, n]⟩) (b : Fin 2) (s : Fin 2048) (d : Fin n) :
    shapeCast ⟨2, ![4096, n]⟩ x h (ix2 ⟨b.val * 2048 + s.val, by have := b.isLt; have := s.isLt; omega⟩ d) = x (ix3 b s d) :=
  shapeCast_apply x h _ _ (by
    rw [Shape.rowMajor_val_three, Shape.rowMajor_val_two]
    rfl)

/-- Splitting the leading axis: entry (b, s, d) of the result is entry (b·2048 + s, d) of the operand. -/
theorem split_apply {α : Type} {n : ℕ} (x : (⟨2, ![4096, n]⟩ : Shape).Idx → α)
    (h : (⟨2, ![4096, n]⟩ : Shape).ShapeCasts ⟨3, ![2, 2048, n]⟩) (b : Fin 2) (s : Fin 2048) (d : Fin n) :
    shapeCast ⟨3, ![2, 2048, n]⟩ x h (ix3 b s d) = x (ix2 ⟨b.val * 2048 + s.val, by have := b.isLt; have := s.isLt; omega⟩ d) :=
  shapeCast_apply x h _ _ (by
    rw [Shape.rowMajor_val_three, Shape.rowMajor_val_two]
    rfl)

/-! ## The stretches between and after the kernels -/

/-- Between the first and the second kernel: the projected rows split back into batch and sequence position. -/
theorem hg_v12 (W : Valuation τ sig (Elt Ideal)) (b : Fin 2) (s : Fin 2048) (e : Fin 3072) :
    (StableHlo.after (hostOps1 (F := Ideal)) W main_v12 : S2x2048x3072.Idx → EReal) (ix3 b s e)
      = (W main_v11 : S4096x3072.Idx → EReal) (ix2 ⟨b.val * 2048 + s.val, by have := b.isLt; have := s.isLt; omega⟩ e) := by
  have e1 : (StableHlo.after (hostOps1 (F := Ideal)) W main_v12 : S2x2048x3072.Idx → EReal)
      = shapeCast S2x2048x3072 (W main_v11 : S4096x3072.Idx → EReal) shapeCasts_S4096x3072_S2x2048x3072 := by
    dsimp only [hostOps1]; after_results; rfl
  rw [e1]
  exact split_apply _ _ b s e

/-- Between the second and the third kernel: the attention output's batch and sequence axes merged into rows. -/
theorem hg_v14 (W : Valuation τ sig (Elt Ideal)) (b : Fin 2) (s : Fin 2048) (e : Fin 1024) :
    (StableHlo.after (hostOps2 (F := Ideal)) W main_v14 : S4096x1024.Idx → EReal)
        (ix2 ⟨b.val * 2048 + s.val, by have := b.isLt; have := s.isLt; omega⟩ e)
      = (W main_v13 : S2x2048x1024.Idx → EReal) (ix3 b s e) := by
  have e1 : (StableHlo.after (hostOps2 (F := Ideal)) W main_v14 : S4096x1024.Idx → EReal)
      = shapeCast S4096x1024 (W main_v13 : S2x2048x1024.Idx → EReal) shapeCasts_S2x2048x1024_S4096x1024 := by
    dsimp only [hostOps2]; after_results; rfl
  rw [e1]
  exact merge_apply _ _ b s e

/-- Between the second and the third kernel: the output bias as a one-row matrix. -/
theorem hg_v15 (W : Valuation τ sig (Elt Ideal)) (d : Fin 1024) :
    (StableHlo.after (hostOps2 (F := Ideal)) W main_v15 : S1x1024.Idx → EReal) (ix2 0 d)
      = (W main_arg4 : S1024.Idx → EReal) (ix1 d) := by
  have e1 : (StableHlo.after (hostOps2 (F := Ideal)) W main_v15 : S1x1024.Idx → EReal)
      = shapeCast S1x1024 (W main_arg4 : S1024.Idx → EReal) shapeCasts_S1024_S1x1024 := by
    dsimp only [hostOps2]; after_results; rfl
  rw [e1]
  exact shapeCast_a_1a_apply _ _ 0 d

/-- After the third kernel: the output rows split back into batch and sequence position. -/
theorem hg_v17 (W : Valuation τ sig (Elt Ideal)) (b : Fin 2) (s : Fin 2048) (d : Fin 1024) :
    (StableHlo.after (hostOps3 (F := Ideal)) W main_v17 : S2x2048x1024.Idx → EReal) (ix3 b s d)
      = (W main_v16 : S4096x1024.Idx → EReal) (ix2 ⟨b.val * 2048 + s.val, by have := b.isLt; have := s.isLt; omega⟩ d) := by
  have e1 : (StableHlo.after (hostOps3 (F := Ideal)) W main_v17 : S2x2048x1024.Idx → EReal)
      = shapeCast S2x2048x1024 (W main_v16 : S4096x1024.Idx → EReal) shapeCasts_S4096x1024_S2x2048x1024 := by
    dsimp only [hostOps3]; after_results; rfl
  rw [e1]
  exact split_apply _ _ b s d

/-! ## The stretch before the first kernel -/

/-- The activations: the format change is the identity, the reshape merges batch and sequence position into rows. -/
theorem hg_v9 (m : (ℓ : Loc nD τ sig) → Buf (Elt Ideal) ℓ) (c : Dev nD) (b : Fin 2) (s : Fin 2048) (d : Fin 1024) :
    (Gen.V1 m c main_v9 : S4096x1024.Idx → EReal)
        (ix2 ⟨b.val * 2048 + s.val, by have := b.isLt; have := s.isLt; omega⟩ d)
      = (m ((c : Thread nD τ).loc main_arg0) : S2x2048x1024.Idx → EReal) (ix3 b s d) := by
  have e1 : (Gen.V1 m c main_v9 : S4096x1024.Idx → EReal)
      = shapeCast S4096x1024
          (truncf .bf16 (m ((c : Thread nD τ).loc main_arg0) : FVec Ideal S2x2048x1024 .f32) bitsLt_bf16_f32 : FVec Ideal S2x2048x1024 .bf16)
          shapeCasts_S2x2048x1024_S4096x1024 := by
    dsimp only [Gen.V1, Gen.V0, hostOps0]; after_results; rfl
  rw [e1]
  exact merge_apply _ _ b s d

/-- The output projection's weights: only the format changes, which is the identity. -/
theorem hg_v8 (m : (ℓ : Loc nD τ sig) → Buf (Elt Ideal) ℓ) (c : Dev nD) (d e : Fin 1024) :
    (Gen.V1 m c main_v8 : S1024x1024.Idx → EReal) (ix2 d e)
      = (m ((c : Thread nD τ).loc main_arg3) : S1024x1024.Idx → EReal) (ix2 d e) := by
  have e1 : (Gen.V1 m c main_v8 : S1024x1024.Idx → EReal)
      = (truncf .bf16 (m ((c : Thread nD τ).loc main_arg3) : FVec Ideal S1024x1024 .f32) bitsLt_bf16_f32 : FVec Ideal S1024x1024 .bf16) := by
    dsimp only [Gen.V1, Gen.V0, hostOps0]; after_results
  rw [e1]
  rfl

/-! ## The projection weights and bias: head-major interleaved rows to three head-major slabs -/

/-- The bias permuted: entry t·1024 + h·64 + j of the result is entry h·192 + t·64 + j of the operand. -/
theorem perm3_apply {α : Type} (x : S3072.Idx → α)
    (h0 : S3072.ShapeCasts S16x3x64) (h1 : S16x3x64.Transposes [1, 0, 2] S3x16x64)
    (h2 : S3x16x64.ShapeCasts S3072) (h3 : S3072.ShapeCasts S1x3072)
    (t : Fin 3) (h : Fin 16) (j : Fin 64) :
    shapeCast S1x3072 (shapeCast S3072 (transpose S3x16x64 [1, 0, 2] (shapeCast S16x3x64 x h0) h1) h2) h3
        (ix2 0 ⟨t.val * 1024 + h.val * 64 + j.val, by have := t.isLt; have := h.isLt; have := j.isLt; omega⟩)
      = x (ix1 ⟨h.val * 192 + t.val * 64 + j.val, by have := t.isLt; have := h.isLt; have := j.isLt; omega⟩) := by
  refine (shapeCast_a_1a_apply _ h3 0 _).trans ?_
  refine (shapeCast_apply _ h2 _ (ix3 t h j) (by
    rw [Shape.rowMajor_val_three, Shape.rowMajor_val_one]
    show (t.val * 16 + h.val) * 64 + j.val = t.val * 1024 + h.val * 64 + j.val
    omega)).trans ?_
  refine (transpose_apply _ _ h1 _ (ix3 h t j) fun c => match c with | ⟨0, _⟩ => rfl | ⟨1, _⟩ => rfl | ⟨2, _⟩ => rfl).trans ?_
  exact shapeCast_apply _ h0 _ _ (by
    rw [Shape.rowMajor_val_three, Shape.rowMajor_val_one]
    show h.val * 192 + t.val * 64 + j.val = (h.val * 3 + t.val) * 64 + j.val
    omega)

/-- The weights' rows permuted the same way, every column kept. -/
theorem perm4_apply {α : Type} (x : S3072x1024.Idx → α)
    (h0 : S3072x1024.ShapeCasts S16x3x64x1024) (h1 : S16x3x64x1024.Transposes [1, 0, 2, 3] S3x16x64x1024)
    (h2 : S3x16x64x1024.ShapeCasts S3072x1024)
    (t : Fin 3) (h : Fin 16) (j : Fin 64) (d : Fin 1024) :
    shapeCast S3072x1024 (transpose S3x16x64x1024 [1, 0, 2, 3] (shapeCast S16x3x64x1024 x h0) h1) h2
        (ix2 ⟨t.val * 1024 + h.val * 64 + j.val, by have := t.isLt; have := h.isLt; have := j.isLt; omega⟩ d)
      = x (ix2 ⟨h.val * 192 + t.val * 64 + j.val, by have := t.isLt; have := h.isLt; have := j.isLt; omega⟩ d) := by
  refine (shapeCast_apply _ h2 _ (ix4 t h j d) (by
    rw [Shape.rowMajor_val_four, Shape.rowMajor_val_two]
    show ((t.val * 16 + h.val) * 64 + j.val) * 1024 + d.val = (t.val * 1024 + h.val * 64 + j.val) * 1024 + d.val
    omega)).trans ?_
  refine (transpose_apply _ _ h1 _ (ix4 h t j d) fun c => match c with | ⟨0, _⟩ => rfl | ⟨1, _⟩ => rfl | ⟨2, _⟩ => rfl | ⟨3, _⟩ => rfl).trans ?_
  exact shapeCast_apply _ h0 _ _ (by
    rw [Shape.rowMajor_val_four, Shape.rowMajor_val_two]
    show (h.val * 192 + t.val * 64 + j.val) * 1024 + d.val = ((h.val * 3 + t.val) * 64 + j.val) * 1024 + d.val
    omega)

/-- The bias the first kernel reads: reshaped, its two leading axes exchanged, reshaped back, as one row. -/
theorem hg_v10 (m : (ℓ : Loc nD τ sig) → Buf (Elt Ideal) ℓ) (c : Dev nD) (t : Fin 3) (h : Fin 16) (j : Fin 64) :
    (Gen.V1 m c main_v10 : S1x3072.Idx → EReal) (ix2 0 ⟨t.val * 1024 + h.val * 64 + j.val, by have := t.isLt; have := h.isLt; have := j.isLt; omega⟩)
      = (m ((c : Thread nD τ).loc main_arg2) : S3072.Idx → EReal) (ix1 ⟨h.val * 192 + t.val * 64 + j.val, by have := t.isLt; have := h.isLt; have := j.isLt; omega⟩) := by
  have e1 : (Gen.V1 m c main_v10 : S1x3072.Idx → EReal)
      = shapeCast S1x3072 (shapeCast S3072 (transpose S3x16x64 [1, 0, 2]
          (shapeCast S16x3x64 (m ((c : Thread nD τ).loc main_arg2) : S3072.Idx → EReal) shapeCasts_S3072_S16x3x64)
          transposes_S16x3x64_S3x16x64_1_0_2) shapeCasts_S3x16x64_S3072) shapeCasts_S3072_S1x3072 := by
    dsimp only [Gen.V1, Gen.V0, hostOps0]; after_results <;> rfl
  rw [e1]
  exact perm3_apply _ _ _ _ _ t h j

/-- The weights the first kernel reads: reshaped, the two leading axes exchanged, reshaped back; the format change is
    the identity. -/
theorem hg_v7 (m : (ℓ : Loc nD τ sig) → Buf (Elt Ideal) ℓ) (c : Dev nD) (t : Fin 3) (h : Fin 16) (j : Fin 64) (d : Fin 1024) :
    (Gen.V1 m c main_v7 : S3072x1024.Idx → EReal) (ix2 ⟨t.val * 1024 + h.val * 64 + j.val, by have := t.isLt; have := h.isLt; have := j.isLt; omega⟩ d)
      = (m ((c : Thread nD τ).loc main_arg1) : S3072x1024.Idx → EReal) (ix2 ⟨h.val * 192 + t.val * 64 + j.val, by have := t.isLt; have := h.isLt; have := j.isLt; omega⟩ d) := by
  have e1 : (Gen.V1 m c main_v7 : S3072x1024.Idx → EReal)
      = (truncf .bf16 (shapeCast S3072x1024 (transpose S3x16x64x1024 [1, 0, 2, 3]
          (shapeCast S16x3x64x1024 (m ((c : Thread nD τ).loc main_arg1) : FVec Ideal S3072x1024 .f32) shapeCasts_S3072x1024_S16x3x64x1024)
          transposes_S16x3x64x1024_S3x16x64x1024_1_0_2_3) shapeCasts_S3x16x64x1024_S3072x1024 : FVec Ideal S3072x1024 .f32)
          bitsLt_bf16_f32 : FVec Ideal S3072x1024 .bf16) := by
    dsimp only [Gen.V1, Gen.V0, hostOps0]; after_results <;> rfl
  rw [e1]
  exact (truncf_apply (ψ := .bf16) (φ := .f32) _ bitsLt_bf16_f32 _).trans (perm4_apply _ _ _ _ t h j d)

end Cert.KernelIdeal.Hand

end
-- ==== Proof.KI.Val1.lean ====
/-
  The attention region, from blocks to the array. The grid is 2 × 8 × 1 × 4 (batch b, head pair h, one query tile,
  key tile g), its points in row-major order: point b·32 + h·4 + g. Every window's block index is a function of the
  point: the query block sits at (b, 0, h) of the projection's result, the key block at (b, g, 8 + h), the value
  block at (b, g, 16 + h), the output block at (b, 0, h) of the output. So the three input blocks are rows and
  columns of the ONE array they are cut from. The output block is written back at a pair's last key tile only
  (g = 3); the 16 blocks (b, 0, h) tile the output, so entry (b, s, e) of the output after the run is entry
  (0, s, e mod 128) of what the staging buffer holds after point b·32 + (e / 128)·4 + 3.
-/
import proofs.«411221_j41120016892169_3_alg».proof.Proof.KI.R1Dat
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-! ## The block indices as functions of the point -/

/-- The printed index maps over the grid: at point t the batch is t / 32, the head pair (t / 4) mod 8, the key tile
    t mod 4. -/
theorem idx_rel1 : ∀ t : Fin cfg1.N,
    win1_0.index t (0 : Fin 3) = t.val / 32 ∧ win1_0.index t (1 : Fin 3) = 0 ∧ win1_0.index t (2 : Fin 3) = t.val / 4 % 8
    ∧ win1_1.index t (0 : Fin 3) = t.val / 32 ∧ win1_1.index t (1 : Fin 3) = t.val % 4 ∧ win1_1.index t (2 : Fin 3) = 8 + t.val / 4 % 8
    ∧ win1_2.index t (0 : Fin 3) = t.val / 32 ∧ win1_2.index t (1 : Fin 3) = t.val % 4 ∧ win1_2.index t (2 : Fin 3) = 16 + t.val / 4 % 8
    ∧ win1_3.index t (0 : Fin 3) = t.val / 32 ∧ win1_3.index t (1 : Fin 3) = 0 ∧ win1_3.index t (2 : Fin 3) = t.val / 4 % 8 :=
  (by decide +kernel : ∀ t : Fin grid1.N, _)

/-- Point (b, h, g) is a point of the grid. -/
theorem pt_lt1 (b : Fin 2) (hp : Fin 8) (g : Fin 4) : b.val * 32 + hp.val * 4 + g.val < cfg1.N := by
  have := b.isLt; have := hp.isLt; have := g.isLt
  rw [show cfg1.N = 64 from N_1]; omega

/-- The point that writes back the block holding column e of batch b. -/
theorem fl_lt1 (b : Fin 2) (e : Fin 1024) : b.val * 32 + (e.val / 128) * 4 + 3 < cfg1.N := by
  have := b.isLt; have := e.isLt
  rw [show cfg1.N = 64 from N_1]; omega

/-! ## The three input blocks as rows and columns of the projection's result -/

/-- The query block at point (b, h, g): all rows of batch b, columns h·128.. . -/
theorem iblk1_0_pt (c : Dev nD) (t : Fin cfg1.N) (b : Fin 2) (hp : Fin 8) (g : Fin 4)
    (ht : t.val = b.val * 32 + hp.val * 4 + g.val) (r : Fin 2048) (l : Fin 128) :
    (iblk1 V c 0 t : Vec F S1x2048x128 .bf16) (ix3 0 r l)
      = (V c main_v12 : S2x2048x3072.Idx → Elt F .bf16) (ix3 b r ⟨hp.val * 128 + l.val, by have := hp.isLt; have := l.isLt; omega⟩) := by
  obtain ⟨e0, e1, e2, -⟩ := idx_rel1 t
  have hb := b.isLt; have hh := hp.isLt; have hg := g.isLt
  show V c main_v12 (((cfg1.win 0).blk t).view.emb (ix3 0 r l)) = _
  refine congrArg (V c main_v12) (funext fun a => Fin.ext ?_)
  match a with
  | ⟨0, _⟩ => show win1_0.index t (0 : Fin 3) * 1 + 1 * 0 = b.val; omega
  | ⟨1, _⟩ => show win1_0.index t (1 : Fin 3) * 2048 + 1 * r.val = r.val; omega
  | ⟨2, _⟩ => show win1_0.index t (2 : Fin 3) * 128 + 1 * l.val = hp.val * 128 + l.val; omega

/-- The key block at point (b, h, g): rows g·512.. of batch b, columns 1024 + h·128.. . -/
theorem iblk1_1_pt (c : Dev nD) (t : Fin cfg1.N) (b : Fin 2) (hp : Fin 8) (g : Fin 4)
    (ht : t.val = b.val * 32 + hp.val * 4 + g.val) (r : Fin 512) (l : Fin 128) :
    (iblk1 V c 1 t : Vec F S1x512x128 .bf16) (ix3 0 r l)
      = (V c main_v12 : S2x2048x3072.Idx → Elt F .bf16)
          (ix3 b ⟨g.val * 512 + r.val, by have := g.isLt; have := r.isLt; omega⟩
            ⟨1024 + hp.val * 128 + l.val, by have := hp.isLt; have := l.isLt; omega⟩) := by
  obtain ⟨-, -, -, e0, e1, e2, -⟩ := idx_rel1 t
  have hb := b.isLt; have hh := hp.isLt; have hg := g.isLt
  show V c main_v12 (((cfg1.win 1).blk t).view.emb (ix3 0 r l)) = _
  refine congrArg (V c main_v12) (funext fun a => Fin.ext ?_)
  match a with
  | ⟨0, _⟩ => show win1_1.index t (0 : Fin 3) * 1 + 1 * 0 = b.val; omega
  | ⟨1, _⟩ => show win1_1.index t (1 : Fin 3) * 512 + 1 * r.val = g.val * 512 + r.val; omega
  | ⟨2, _⟩ => show win1_1.index t (2 : Fin 3) * 128 + 1 * l.val = 1024 + hp.val * 128 + l.val; omega

/-- The value block at point (b, h, g): rows g·512.. of batch b, columns 2048 + h·128.. . -/
theorem iblk1_2_pt (c : Dev nD) (t : Fin cfg1.N) (b : Fin 2) (hp : Fin 8) (g : Fin 4)
    (ht : t.val = b.val * 32 + hp.val * 4 + g.val) (r : Fin 512) (l : Fin 128) :
    (iblk1 V c 2 t : Vec F S1x512x128 .bf16) (ix3 0 r l)
      = (V c main_v12 : S2x2048x3072.Idx → Elt F .bf16)
          (ix3 b ⟨g.val * 512 + r.val, by have := g.isLt; have := r.isLt; omega⟩
            ⟨2048 + hp.val * 128 + l.val, by have := hp.isLt; have := l.isLt; omega⟩) := by
  obtain ⟨-, -, -, -, -, -, e0, e1, e2, -⟩ := idx_rel1 t
  have hb := b.isLt; have hh := hp.isLt; have hg := g.isLt
  show V c main_v12 (((cfg1.win 2).blk t).view.emb (ix3 0 r l)) = _
  refine congrArg (V c main_v12) (funext fun a => Fin.ext ?_)
  match a with
  | ⟨0, _⟩ => show win1_2.index t (0 : Fin 3) * 1 + 1 * 0 = b.val; omega
  | ⟨1, _⟩ => show win1_2.index t (1 : Fin 3) * 512 + 1 * r.val = g.val * 512 + r.val; omega
  | ⟨2, _⟩ => show win1_2.index t (2 : Fin 3) * 128 + 1 * l.val = 2048 + hp.val * 128 + l.val; omega

/-- The same three reads with the point written out as b·32 + h·4 + g. -/
theorem iblk1_0_at (c : Dev nD) (b : Fin 2) (hp : Fin 8) (g : Fin 4) (r : Fin 2048) (l : Fin 128) :
    (iblk1 V c 0 (⟨b.val * 32 + hp.val * 4 + g.val, pt_lt1 b hp g⟩ : Fin cfg1.N) : Vec F S1x2048x128 .bf16) (ix3 0 r l)
      = (V c main_v12 : S2x2048x3072.Idx → Elt F .bf16) (ix3 b r ⟨hp.val * 128 + l.val, by have := hp.isLt; have := l.isLt; omega⟩) :=
  iblk1_0_pt V c ⟨_, pt_lt1 b hp g⟩ b hp g rfl r l

theorem iblk1_1_at (c : Dev nD) (b : Fin 2) (hp : Fin 8) (g : Fin 4) (r : Fin 512) (l : Fin 128) :
    (iblk1 V c 1 (⟨b.val * 32 + hp.val * 4 + g.val, pt_lt1 b hp g⟩ : Fin cfg1.N) : Vec F S1x512x128 .bf16) (ix3 0 r l)
      = (V c main_v12 : S2x2048x3072.Idx → Elt F .bf16)
          (ix3 b ⟨g.val * 512 + r.val, by have := g.isLt; have := r.isLt; omega⟩
            ⟨1024 + hp.val * 128 + l.val, by have := hp.isLt; have := l.isLt; omega⟩) :=
  iblk1_1_pt V c ⟨_, pt_lt1 b hp g⟩ b hp g rfl r l

theorem iblk1_2_at (c : Dev nD) (b : Fin 2) (hp : Fin 8) (g : Fin 4) (r : Fin 512) (l : Fin 128) :
    (iblk1 V c 2 (⟨b.val * 32 + hp.val * 4 + g.val, pt_lt1 b hp g⟩ : Fin cfg1.N) : Vec F S1x512x128 .bf16) (ix3 0 r l)
      = (V c main_v12 : S2x2048x3072.Idx → Elt F .bf16)
          (ix3 b ⟨g.val * 512 + r.val, by have := g.isLt; have := r.isLt; omega⟩
            ⟨2048 + hp.val * 128 + l.val, by have := hp.isLt; have := l.isLt; omega⟩) :=
  iblk1_2_pt V c ⟨_, pt_lt1 b hp g⟩ b hp g rfl r l

/-! ## The output array as one function of what the staging buffer holds at the last key tiles -/

/-- Entry (b, s, e) read off the staging buffer after the last key tile of batch b, head pair e / 128. -/
def out1R (c : Dev nD) (b : Fin 2) (s : Fin 2048) (e : Fin 1024) : Elt F .bf16 :=
  (outsAt1 V c (b.val * 32 + (e.val / 128) * 4 + 3) (fl_lt1 b e)).1 (ix3 0 s ⟨e.val % 128, Nat.mod_lt _ (by decide)⟩)

/-- The array of those entries. -/
def out1G (c : Dev nD) : S2x2048x1024.Idx → Elt F .bf16 :=
  fun i => out1R V c (i 0) (i 1) (i 2)

/-- What the staging buffer holds depends on the point's number only, not on how it is written. -/
theorem outs1_congr (c : Dev nD) {n m : ℕ} (hn : n < cfg1.N) (hm : m < cfg1.N) (h : n = m)
    (y y' : S1x2048x128.Idx) (hy : y = y') : (outsAt1 V c n hn).1 y = (outsAt1 V c m hm).1 y' := by
  subst h; subst hy; rfl

/-- At a last key tile, an entry of the staging buffer is the array of entries at the place the block's rectangle
    puts it. -/
theorem out1G_emb (c : Dev nD) (t : Fin cfg1.N) (h3 : t.val % 4 = 3) (y : S1x2048x128.Idx) :
    (outsAt1 V c t.val t.isLt).1 y = out1G V c (((cfg1.win 3).blk t).view.emb y) := by
  have hN : t.val < 64 := lt_of_lt_of_eq t.isLt (show cfg1.N = 64 from N_1)
  obtain ⟨-, -, -, -, -, -, -, -, -, e0, e1, e2⟩ := idx_rel1 t
  obtain ⟨y0, y1, y2, rfl⟩ : ∃ (y0 : Fin 1) (y1 : Fin 2048) (y2 : Fin 128), y = ix3 y0 y1 y2 := ⟨y 0, y 1, y 2, eq_ix3 y⟩
  have h0 := y0.isLt; have h2 := y2.isLt
  unfold out1G out1R
  refine outs1_congr V c _ _ ?_ _ _ ?_
  · show t.val = (win1_3.index t (0 : Fin 3) * 1 + 1 * y0.val) * 32
        + ((win1_3.index t (2 : Fin 3) * 128 + 1 * y2.val) / 128) * 4 + 3
    omega
  · funext a
    refine Fin.ext ?_
    match a with
    | ⟨0, _⟩ => show y0.val = 0; omega
    | ⟨1, _⟩ => show y1.val = win1_3.index t (1 : Fin 3) * 2048 + 1 * y1.val; omega
    | ⟨2, _⟩ => show y2.val = (win1_3.index t (2 : Fin 3) * 128 + 1 * y2.val) % 128; omega

/-- What a last key tile writes back is its block of the array of entries. -/
theorem flushed1_eq (c : Dev nD) (t : Fin cfg1.N) (hf : (cfg1.win 3).flush t = true) :
    (dat1 V c).flushed 3 t = ((cfg1.win 3).blk t).view.read (Elt F) (out1G V c) := by
  have h3 : t.val % 4 = 3 := (flush1_3 t).mp hf
  show (cfg1.win 3).cut (grid1.coords t) ((dat1 V c).after 3 t) = _
  rw [after1_3]
  funext y
  exact out1G_emb V c t h3 y

/-! ## The blocks tile the array -/

/-- An index of the array is in point t's block iff each coordinate is in the block's range on its axis. -/
theorem mem_blk1 (t : Fin cfg1.N) (i : S2x2048x1024.Idx) :
    i ∈ ((cfg1.win 3).blk t).view.set ↔ ∀ a : Fin 3, win1_3.index t a * S1x2048x128.size a ≤ (i a).val ∧ (i a).val < win1_3.index t a * S1x2048x128.size a + S1x2048x128.size a := by
  show i ∈ ((View.whole main_v13).slice (win1_3.rect t)).set ↔ _
  rw [View.set_slice_whole, Rect.mem_set_unit]
  exact Iff.rfl

/-- Entry (b, s, e) lies in the block of the last key tile of batch b, head pair e / 128, which writes back. -/
theorem cover1 (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  have hlt : (i 0).val * 32 + ((i 2).val / 128) * 4 + 3 < cfg1.N := by
    rw [show cfg1.N = 64 from N_1]; omega
  obtain ⟨t, htv⟩ : ∃ t : Fin cfg1.N, t.val = (i 0).val * 32 + ((i 2).val / 128) * 4 + 3 := ⟨⟨_, hlt⟩, rfl⟩
  obtain ⟨-, -, -, -, -, -, -, -, -, e0, e1, e2⟩ := idx_rel1 t
  refine ⟨t, (flush1_3 t).mpr (by omega), ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 128 ≤ (i 2).val ∧ (i 2).val < win1_3.index t (2 : Fin 3) * 128 + 128; omega

/-! ## The array after the run -/

/-- The output array after all points is the array of entries. -/
theorem arr1_eq (c : Dev nD) : (dat1 V c).arrAt 3 cfg1.N = out1G V c :=
  (dat1 V c).arrAt_eq_of_cover 3 (out1G V c) (fun t hf => flushed1_eq V c t hf) cover1

/-- Entry (b, s, e) of the output array after the run. -/
theorem arr1_final (c : Dev nD) (b : Fin 2) (s : Fin 2048) (e : Fin 1024) :
    ((dat1 V c).arrAt 3 cfg1.N : S2x2048x1024.Idx → Elt F .bf16) (ix3 b s e)
      = (outsAt1 V c (b.val * 32 + (e.val / 128) * 4 + 3) (fl_lt1 b e)).1
          (ix3 0 s ⟨e.val % 128, Nat.mod_lt _ (by decide)⟩) :=
  congrFun (arr1_eq V c) (ix3 b s e)

end Cert.KernelIdeal.Hand

end
-- ==== Proof.KI.R1Pieces.lean ====
/-
  The attention body's stores as pure terms. At a grid point the body leaves in each of the six scratch buffers one
  whole-buffer store whose payload is a function of the query block, the key and value tiles and the six vectors it
  found there: exactly the corresponding component of one key tile's update `scrStep`. At a first key tile the body
  first stores the reset vectors (maxima -∞, sums 0) and every later load of a scratch reads that reset back, so the
  update there is `scrStep` of the reset state `scr0`, the update's store covering the reset's. At the last key tile the
  four vectors the output is made of (each head's numerators and denominator) are loaded back after the update's
  stores, so the output block is `outOf` of the updated state.

  Every store and every load goes through the whole-buffer rectangle at zero offsets: a load through it reads the
  contents, one store through it (or the last of several) leaves its payload, and a load of what one such store left
  reads that payload.
-/
import proofs.«411221_j41120016892169_3_alg».proof.Proof.KI.R1Souts
import proofs.«411221_j41120016892169_3_alg».proof.Proof.KI.R1Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-2 and of a rank-3 rectangle are the constant function 0. -/
private theorem zero2 : (![0, 0] : Fin 2 → Nat) = fun _ => 0 := funext fun a => by fin_cases a <;> rfl
private theorem zero3 : (![0, 0, 0] : Fin 3 → Nat) = fun _ => 0 := funext fun a => by fin_cases a <;> rfl

section
variable (c : Dev nD) (i : grid1.Coords)
  (arg4 : Memref sig .tc .vmem S1x2048x128 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S1x2048x128 .bf16) (harg7 : arg7.IsWhole)
  (arg8 : Memref sig .tc .vmem S2048x1 .f32) (harg8 : arg8.IsWhole)
  (arg9 : Memref sig .tc .vmem S2048x1 .f32) (harg9 : arg9.IsWhole)
  (arg10 : Memref sig .tc .vmem S2048x64 .f32) (harg10 : arg10.IsWhole)
  (arg11 : Memref sig .tc .vmem S2048x1 .f32) (harg11 : arg11.IsWhole)
  (arg12 : Memref sig .tc .vmem S2048x1 .f32) (harg12 : arg12.IsWhole)
  (arg13 : Memref sig .tc .vmem S2048x64 .f32) (harg13 : arg13.IsWhole)

/-! ## A middle key tile: each scratch is its component of the update of the six vectors found -/

section
variable (hc0 : ¬cond1_0 i) (hc1 : ¬cond1_1 i)
  (x0 : Vec F S1x2048x128 .bf16) (x1 : Vec F S1x512x128 .bf16) (x2 : Vec F S1x512x128 .bf16) (xs : Scr F)

/-- Head 0's maximum: the larger of the old maximum and the tile's row maxima of the scaled scores. -/
theorem sout1_B_0_eq :
    sout1_B_0 c i arg4 harg4 arg5 harg5 arg6 harg6 arg7 harg7 arg8 harg8 arg9 harg9 arg10 harg10 arg11 harg11 arg12 harg12 arg13 harg13 hc0 hc1 x0 x1 x2 xs
      = (scrStep x0 x1 x2 xs).1 := by
  unfold sout1_B_0
  rw [View.read_writes_eq_canon _ _ _ (scover1_B_0 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg8.read_unread,
    View.ld_unit_zero (S := S1x2048x128) zero3, View.ld_unit_zero (S := S1x512x128) zero3, View.ld_unit_zero (S := S2048x1) zero2]

/-- Head 0's denominator: the old one rescaled to the new maximum plus the tile's exponentials. -/
theorem sout1_B_1_eq :
    sout1_B_1 c i arg4 harg4 arg5 harg5 arg6 harg6 arg7 harg7 arg8 harg8 arg9 harg9 arg10 harg10 arg11 harg11 arg12 harg12 arg13 harg13 hc0 hc1 x0 x1 x2 xs
      = (scrStep x0 x1 x2 xs).2.1 := by
  unfold sout1_B_1
  rw [View.read_writes_eq_canon _ _ _ (scover1_B_1 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg8.read_unread, harg9.read_unread,
    View.ld_unit_zero (S := S1x2048x128) zero3, View.ld_unit_zero (S := S1x512x128) zero3, View.ld_unit_zero (S := S2048x1) zero2]

/-- Head 0's numerators: the old ones rescaled plus the tile's exponentials times its values. -/
theorem sout1_B_2_eq :
    sout1_B_2 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.1 := by
  unfold sout1_B_2
  rw [View.read_writes_eq_canon _ _ _ (scover1_B_2 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg6.read_unread, harg8.read_unread, harg10.read_unread,
    View.ld_unit_zero (S := S1x2048x128) zero3, View.ld_unit_zero (S := S1x512x128) zero3, View.ld_unit_zero (S := S2048x1) zero2,
    View.ld_unit_zero (S := S2048x64) zero2]

/-- Head 1's maximum. -/
theorem sout1_B_3_eq :
    sout1_B_3 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.1 := by
  unfold sout1_B_3
  rw [View.read_writes_eq_canon _ _ _ (scover1_B_3 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg11.read_unread,
    View.ld_unit_zero (S := S1x2048x128) zero3, View.ld_unit_zero (S := S1x512x128) zero3, View.ld_unit_zero (S := S2048x1) zero2]

/-- Head 1's denominator. -/
theorem sout1_B_4_eq :
    sout1_B_4 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.2.1 := by
  unfold sout1_B_4
  rw [View.read_writes_eq_canon _ _ _ (scover1_B_4 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg11.read_unread, harg12.read_unread,
    View.ld_unit_zero (S := S1x2048x128) zero3, View.ld_unit_zero (S := S1x512x128) zero3, View.ld_unit_zero (S := S2048x1) zero2]

/-- Head 1's numerators. -/
theorem sout1_B_5_eq :
    sout1_B_5 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.2.2 := by
  unfold sout1_B_5
  rw [View.read_writes_eq_canon _ _ _ (scover1_B_5 c i arg4 harg4 arg5 harg5 arg6 harg6 arg7 harg7 arg8 harg8 arg9 harg9 arg10 harg10 arg11 harg11 arg12 harg12 arg13 harg13 hc0 hc1 x0 x1 x2 xs)]
  unfold kernelRun1_B
  dsimp only
  sl_unfold_words
  rw [View.canon_unit_zero zero2]
  simp only [scrStep, View.readAt_eq_ld, harg4.read_unread, harg5.read_unread, harg6.read_unread, harg11.read_unread, harg13.read_unread,
    View.ld_unit_zero (S := S1x2048x128) zero3, View.ld_unit_zero (S := S1x512x128) zero3, View.ld_unit_zero (S := S2048x1) zero2,
    View.ld_unit_zero (S := S2048x64) zero2]

end

/-! ## The last key tile: the scratch as at a middle tile, and the output block from the updated vectors -/

section
variable (hc0 : ¬cond1_0 i) (hc1 : cond1_1 i)
  (x0 : Vec F S1x2048x128 .bf16) (x1 : Vec F S1x512x128 .bf16) (x2 : Vec F S1x512x128 .bf16) (xs : Scr F)

/-- Head 0's maximum after the last key tile. -/
theorem sout1_C_0_eq :
    sout1_C_0 c i arg4 harg4 arg5 harg5 arg6 harg6 arg7 harg7 arg8 harg8 arg9 harg9 arg10 harg10 arg11 harg11 arg12 harg12 arg13 harg13 hc0 hc1 x0 x1 x2 xs
      = (scrStep x0 x1 x2 xs).1 := by
  unfold sout1_C_0
  rw [View.read_writes_eq_canon _ _ _ (scover1_C_0 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg8.read_unread,
    View.ld_unit_zero (S := S1x2048x128) zero3, View.ld_unit_zero (S := S1x512x128) zero3, View.ld_unit_zero (S := S2048x1) zero2]

/-- Head 0's denominator after the last key tile. -/
theorem sout1_C_1_eq :
    sout1_C_1 c i arg4 harg4 arg5 harg5 arg6 harg6 arg7 harg7 arg8 harg8 arg9 harg9 arg10 harg10 arg11 harg11 arg12 harg12 arg13 harg13 hc0 hc1 x0 x1 x2 xs
      = (scrStep x0 x1 x2 xs).2.1 := by
  unfold sout1_C_1
  rw [View.read_writes_eq_canon _ _ _ (scover1_C_1 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg8.read_unread, harg9.read_unread,
    View.ld_unit_zero (S := S1x2048x128) zero3, View.ld_unit_zero (S := S1x512x128) zero3, View.ld_unit_zero (S := S2048x1) zero2]

/-- Head 0's numerators after the last key tile. -/
theorem sout1_C_2_eq :
    sout1_C_2 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.1 := by
  unfold sout1_C_2
  rw [View.read_writes_eq_canon _ _ _ (scover1_C_2 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg6.read_unread, harg8.read_unread, harg10.read_unread,
    View.ld_unit_zero (S := S1x2048x128) zero3, View.ld_unit_zero (S := S1x512x128) zero3, View.ld_unit_zero (S := S2048x1) zero2,
    View.ld_unit_zero (S := S2048x64) zero2]

/-- Head 1's maximum after the last key tile. -/
theorem sout1_C_3_eq :
    sout1_C_3 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.1 := by
  unfold sout1_C_3
  rw [View.read_writes_eq_canon _ _ _ (scover1_C_3 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg11.read_unread,
    View.ld_unit_zero (S := S1x2048x128) zero3, View.ld_unit_zero (S := S1x512x128) zero3, View.ld_unit_zero (S := S2048x1) zero2]

/-- Head 1's denominator after the last key tile. -/
theorem sout1_C_4_eq :
    sout1_C_4 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.2.1 := by
  unfold sout1_C_4
  rw [View.read_writes_eq_canon _ _ _ (scover1_C_4 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg11.read_unread, harg12.read_unread,
    View.ld_unit_zero (S := S1x2048x128) zero3, View.ld_unit_zero (S := S1x512x128) zero3, View.ld_unit_zero (S := S2048x1) zero2]

/-- Head 1's numerators after the last key tile. -/
theorem sout1_C_5_eq :
    sout1_C_5 c i arg4 harg4 arg5 harg5 arg6 harg6 arg7 harg7 arg8 harg8 arg9 harg9 arg10 harg10 arg11 harg11 arg12 harg12 arg13 harg13 hc0 hc1 x0 x1 x2 xs
      = (scrStep x0 x1 x2 xs).2.2.2.2.2 := by
  unfold sout1_C_5
  rw [View.read_writes_eq_canon _ _ _ (scover1_C_5 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero2]
  simp only [scrStep, View.readAt_eq_ld, harg4.read_unread, harg5.read_unread, harg6.read_unread, harg11.read_unread, harg13.read_unread,
    View.ld_unit_zero (S := S1x2048x128) zero3, View.ld_unit_zero (S := S1x512x128) zero3, View.ld_unit_zero (S := S2048x1) zero2,
    View.ld_unit_zero (S := S2048x64) zero2]

/-- The output block: its four operands are loads of head 0's numerators and denominator and head 1's, each read
    back from the one store the update has just made, so they are the updated state's components. -/
theorem out1_C_3_eq :
    out1_C_3 c i arg4 harg4 arg5 harg5 arg6 harg6 arg7 harg7 arg8 harg8 arg9 harg9 arg10 harg10 arg11 harg11 arg12 harg12 arg13 harg13 hc0 hc1 x0 x1 x2 xs
      = outOf (scrStep x0 x1 x2 xs) := by
  unfold out1_C_3
  rw [View.read_writes_eq_canon _ _ _ (cover1_C_3 c i arg4 harg4 arg5 harg5 arg6 harg6 arg7 harg7 arg8 harg8 arg9 harg9 arg10 harg10 arg11 harg11 arg12 harg12 arg13 harg13 hc0 hc1 x0 x1 x2 xs)]
  unfold kernelRun1_C
  dsimp only
  sl_unfold_words
  rw [View.canon_unit_zero zero3]
  simp only [outOf, scrStep, View.readCov_unit_zero (S := S2048x1) _ zero2, View.readCov_unit_zero (S := S2048x64) _ zero2,
    View.readAt_eq_ld, harg4.read_unread, harg5.read_unread, harg6.read_unread, harg8.read_unread, harg9.read_unread, harg10.read_unread,
    harg11.read_unread, harg12.read_unread, harg13.read_unread,
    View.ld_unit_zero (S := S1x2048x128) zero3, View.ld_unit_zero (S := S1x512x128) zero3, View.ld_unit_zero (S := S2048x1) zero2,
    View.ld_unit_zero (S := S2048x64) zero2]

end

/-! ## A first key tile: the reset is stored first, every scratch load reads it back, and the update's store covers it -/

section
variable (hc0 : cond1_0 i) (hc1 : ¬cond1_1 i)
  (x0 : Vec F S1x2048x128 .bf16) (x1 : Vec F S1x512x128 .bf16) (x2 : Vec F S1x512x128 .bf16)

/-- Head 0's maximum after a first key tile: the update of the reset state. -/
theorem sout1_A_0_eq :
    sout1_A_0 c i arg4 harg4 arg5 harg5 arg6 harg6 arg7 harg7 arg8 harg8 arg9 harg9 arg10 harg10 arg11 harg11 arg12 harg12 arg13 harg13 hc0 hc1 x0 x1 x2
      = (scrStep x0 x1 x2 scr0).1 := by
  unfold sout1_A_0
  rw [View.read_writes_eq_canon _ _ _ (scover1_A_0 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x1) zero2]
  simp only [scrStep, scr0, View.readCov_unit_zero (S := S2048x1) _ zero2, View.readCov_unit_zero (S := S2048x64) _ zero2,
    View.readAt_eq_ld, harg4.read_unread, harg5.read_unread,
    View.ld_unit_zero (S := S1x2048x128) zero3, View.ld_unit_zero (S := S1x512x128) zero3]

/-- Head 0's denominator after a first key tile. -/
theorem sout1_A_1_eq :
    sout1_A_1 c i arg4 harg4 arg5 harg5 arg6 harg6 arg7 harg7 arg8 harg8 arg9 harg9 arg10 harg10 arg11 harg11 arg12 harg12 arg13 harg13 hc0 hc1 x0 x1 x2
      = (scrStep x0 x1 x2 scr0).2.1 := by
  unfold sout1_A_1
  rw [View.read_writes_eq_canon _ _ _ (scover1_A_1 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x1) zero2]
  simp only [scrStep, scr0, View.readCov_unit_zero (S := S2048x1) _ zero2, View.readCov_unit_zero (S := S2048x64) _ zero2,
    View.readAt_eq_ld, harg4.read_unread, harg5.read_unread,
    View.ld_unit_zero (S := S1x2048x128) zero3, View.ld_unit_zero (S := S1x512x128) zero3]

/-- Head 0's numerators after a first key tile. -/
theorem sout1_A_2_eq :
    sout1_A_2 c i arg4 harg4 arg5 harg5 arg6 harg6 arg7 harg7 arg8 harg8 arg9 harg9 arg10 harg10 arg11 harg11 arg12 harg12 arg13 harg13 hc0 hc1 x0 x1 x2
      = (scrStep x0 x1 x2 scr0).2.2.1 := by
  unfold sout1_A_2
  rw [View.read_writes_eq_canon _ _ _ (scover1_A_2 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x64) zero2]
  simp only [scrStep, scr0, View.readCov_unit_zero (S := S2048x1) _ zero2, View.readCov_unit_zero (S := S2048x64) _ zero2,
    View.readAt_eq_ld, harg4.read_unread, harg5.read_unread, harg6.read_unread,
    View.ld_unit_zero (S := S1x2048x128) zero3, View.ld_unit_zero (S := S1x512x128) zero3]

/-- Head 1's maximum after a first key tile. -/
theorem sout1_A_3_eq :
    sout1_A_3 c i arg4 harg4 arg5 harg5 arg6 harg6 arg7 harg7 arg8 harg8 arg9 harg9 arg10 harg10 arg11 harg11 arg12 harg12 arg13 harg13 hc0 hc1 x0 x1 x2
      = (scrStep x0 x1 x2 scr0).2.2.2.1 := by
  unfold sout1_A_3
  rw [View.read_writes_eq_canon _ _ _ (scover1_A_3 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x1) zero2]
  simp only [scrStep, scr0, View.readCov_unit_zero (S := S2048x1) _ zero2, View.readCov_unit_zero (S := S2048x64) _ zero2,
    View.readAt_eq_ld, harg4.read_unread, harg5.read_unread,
    View.ld_unit_zero (S := S1x2048x128) zero3, View.ld_unit_zero (S := S1x512x128) zero3]

/-- Head 1's denominator after a first key tile. -/
theorem sout1_A_4_eq :
    sout1_A_4 c i arg4 harg4 arg5 harg5 arg6 harg6 arg7 harg7 arg8 harg8 arg9 harg9 arg10 harg10 arg11 harg11 arg12 harg12 arg13 harg13 hc0 hc1 x0 x1 x2
      = (scrStep x0 x1 x2 scr0).2.2.2.2.1 := by
  unfold sout1_A_4
  rw [View.read_writes_eq_canon _ _ _ (scover1_A_4 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x1) zero2]
  simp only [scrStep, scr0, View.readCov_unit_zero (S := S2048x1) _ zero2, View.readCov_unit_zero (S := S2048x64) _ zero2,
    View.readAt_eq_ld, harg4.read_unread, harg5.read_unread,
    View.ld_unit_zero (S := S1x2048x128) zero3, View.ld_unit_zero (S := S1x512x128) zero3]

/-- Head 1's numerators after a first key tile. -/
theorem sout1_A_5_eq :
    sout1_A_5 c i arg4 harg4 arg5 harg5 arg6 harg6 arg7 harg7 arg8 harg8 arg9 harg9 arg10 harg10 arg11 harg11 arg12 harg12 arg13 harg13 hc0 hc1 x0 x1 x2
      = (scrStep x0 x1 x2 scr0).2.2.2.2.2 := by
  unfold sout1_A_5
  rw [View.read_writes_eq_canon _ _ _ (scover1_A_5 c i arg4 harg4 arg5 harg5 arg6 harg6 arg7 harg7 arg8 harg8 arg9 harg9 arg10 harg10 arg11 harg11 arg12 harg12 arg13 harg13 hc0 hc1 x0 x1 x2)]
  unfold kernelRun1_A
  dsimp only
  sl_unfold_words
  rw [View.canon_cons_unit_zero (S := S2048x64) zero2]
  simp only [scrStep, scr0, View.readCov_unit_zero (S := S2048x1) _ zero2, View.readCov_unit_zero (S := S2048x64) _ zero2,
    View.readAt_eq_ld, harg4.read_unread, harg5.read_unread, harg6.read_unread,
    View.ld_unit_zero (S := S1x2048x128) zero3, View.ld_unit_zero (S := S1x512x128) zero3]

end

end

end Cert.KernelIdeal.Hand

end
-- ==== Proof.KI.R1Eqs.lean ====
/-
  The attention kernel's carried state along the grid, in closed form. Grid point t (its key tile is t % 4) reads the
  query block, the key tile and the value tile of its window; what the six scratch buffers hold after it is one key
  tile's update `scrStep` of the reset state at a first key tile (t % 4 = 0) and of what the point before left
  otherwise; and at a last key tile (t % 4 = 3) the output block is `outOf` of the state just reached.
-/
import proofs.«411221_j41120016892169_3_alg».proof.Proof.KI.R1Dat
import proofs.«411221_j41120016892169_3_alg».proof.Proof.KI.R1Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The query block, the key tile and the value tile point t reads, at their literal types. -/
abbrev xq (c : Dev nD) (t : Fin cfg1.N) : Vec F S1x2048x128 .bf16 := iblk1 V c 0 t
abbrev xk (c : Dev nD) (t : Fin cfg1.N) : Vec F S1x512x128 .bf16 := iblk1 V c 1 t
abbrev xv (c : Dev nD) (t : Fin cfg1.N) : Vec F S1x512x128 .bf16 := iblk1 V c 2 t

/-! ## The six stores of one point, over the point's own buffers and blocks -/

/-- At a first key tile the six buffers hold the update of the reset state. -/
theorem stepA_at (c : Dev nD) (t : Fin cfg1.N) (hc0 : cond1_0 (grid1.coords t)) (hc1 : ¬cond1_1 (grid1.coords t)) :
    ((sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t),
      sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t),
      sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t),
      sout1_A_4 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t),
      sout1_A_5 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t)) : Scr F)
      = scrStep (xq V c t) (xk V c t) (xv V c t) scr0 := by
  rw [sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t),
    sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t),
    sout1_A_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t),
    sout1_A_4_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t),
    sout1_A_5_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t)]

/-- At a middle key tile they hold the update of the six vectors found. -/
theorem stepB_at (c : Dev nD) (t : Fin cfg1.N) (hc0 : ¬cond1_0 (grid1.coords t)) (hc1 : ¬cond1_1 (grid1.coords t)) (xs : Scr F) :
    ((sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_B_4 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_B_5 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs) : Scr F)
      = scrStep (xq V c t) (xk V c t) (xv V c t) xs := by
  rw [sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_B_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_B_4_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_B_5_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs]

/-- At the last key tile likewise, -/
theorem stepC_at (c : Dev nD) (t : Fin cfg1.N) (hc0 : ¬cond1_0 (grid1.coords t)) (hc1 : cond1_1 (grid1.coords t)) (xs : Scr F) :
    ((sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_C_4 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs,
      sout1_C_5 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs) : Scr F)
      = scrStep (xq V c t) (xk V c t) (xv V c t) xs := by
  rw [sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_C_4_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs,
    sout1_C_5_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs]

/-- and the output block stored there is made of the updated vectors. -/
theorem outC_at (c : Dev nD) (t : Fin cfg1.N) (hc0 : ¬cond1_0 (grid1.coords t)) (hc1 : cond1_1 (grid1.coords t)) (xs : Scr F) :
    out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) xs
      = outOf (scrStep (xq V c t) (xk V c t) (xv V c t) xs) :=
  out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (xq V c t) (xk V c t) (xv V c t) xs

/-! ## Along the grid -/

/-- After a first key tile the carried state is the update of the reset state. -/
theorem outsAt1_first (c : Dev nD) (t : Fin cfg1.N) (h : t.val % 4 = 0) :
    (outsAt1 V c t.val t.isLt).2 = scrStep (xq V c t) (xk V c t) (xv V c t) scr0 := by
  rw [outsAt1_A V c t h]; dsimp only
  exact stepA_at V c t (c0_of1 t h) (nc1_first1 t h)

/-- After any other key tile it is the update of what the point before left. -/
theorem outsAt1_next (c : Dev nD) (t : Fin cfg1.N) (h : t.val % 4 ≠ 0) (hn : t.val - 1 < cfg1.N) :
    (outsAt1 V c t.val t.isLt).2 = scrStep (xq V c t) (xk V c t) (xv V c t) (outsAt1 V c (t.val - 1) hn).2 := by
  by_cases h3 : t.val % 4 = 3
  · rw [outsAt1_C V c t h h3]; dsimp only
    exact stepC_at V c t (nc0_of1 t h) (c1_of1 t h3) (outsAt1 V c (t.val - 1) hn).2
  · rw [outsAt1_B V c t h h3]; dsimp only
    exact stepB_at V c t (nc0_of1 t h) (nc1_of1 t h3) (outsAt1 V c (t.val - 1) hn).2

/-- At a last key tile the output block is made of the state that tile has just reached. -/
theorem outsAt1_out (c : Dev nD) (t : Fin cfg1.N) (h : t.val % 4 = 3) :
    (outsAt1 V c t.val t.isLt).1 = outOf (outsAt1 V c t.val t.isLt).2 := by
  have h0 : ¬t.val % 4 = 0 := by omega
  rw [outsAt1_C V c t h0 h]; dsimp only
  exact (outC_at V c t (nc0_of1 t h0) (c1_of1 t h) (outsAt1 V c (t.val - 1) (Nat.lt_of_le_of_lt (Nat.sub_le _ _) t.isLt)).2).trans
    (congrArg outOf (stepC_at V c t (nc0_of1 t h0) (c1_of1 t h) (outsAt1 V c (t.val - 1) (Nat.lt_of_le_of_lt (Nat.sub_le _ _) t.isLt)).2).symm)

end Cert.KernelIdeal.Hand

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.AttnPoint.lean ====
/-
  One grid point of the tiled attention kernel, over the extended reals, read entry by entry.

  A point holds a block of 2048 query rows carrying two heads side by side (lanes 0..63 and 64..127), one tile
  of 512 key rows and the matching tile of value rows, and per head a running maximum, a running denominator and
  64 running numerators for every query row. For one head, write z c for the scaled score of the row against key
  row c of the tile (the dot product over the head's 64 lanes, times 1/8) and M' = max m (max_c z c) for the new
  maximum. The point stores
      m' = M',    l' = exp (m - M') * l + ∑ c, exp (z c - M'),    a' d = exp (m - M') * a d + ∑ c, exp (z c - M') * v c d,
  which is exactly one step of the online softmax. The first key tile resets the state to (-∞, 0, 0) and the last
  writes a' d / l' into the head's lanes of the output block. Each of these is read here at an index.
-/
import proofs.«411221_j41120016892169_3_alg».proof.Proof.Gen.KernelIdeal.Skeleton
import proofs.«411221_j41120016892169_3_alg».proof.Proof.LibRowsDot
import proofs.«411221_j41120016892169_3_alg».proof.Proof.LibPlainDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.Hand.AttnPoint

open Cert.KernelIdeal Cert.KernelIdeal.Gen Idealize.ShloMosaic Idealize.ShloMosaic.ValueIdx

/-! ## Two layout operations at an index: a column kept as a unit axis -/

section Layout
variable {α : Type}

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, 0), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## The scaled scores of a tile, and a row's maximum -/

/-- Head 0's scaled score of query row r against key row c of the tile: lanes 0..63, times 1/8. -/
def sc0 (q : Vec Ideal S1x2048x128 .bf16) (kk : Vec Ideal S1x512x128 .bf16) (r : Fin 2048) (c : Fin 512) : EReal :=
  (∑ j : Fin 64, q (ix3 0 r ⟨j.val, by omega⟩) * kk (ix3 0 c ⟨j.val, by omega⟩)) * Ideal.ofBits .f32 0x3E000000#32

/-- Head 1's scaled score: lanes 64..127, times 1/8. -/
def sc1 (q : Vec Ideal S1x2048x128 .bf16) (kk : Vec Ideal S1x512x128 .bf16) (r : Fin 2048) (c : Fin 512) : EReal :=
  (∑ j : Fin 64, q (ix3 0 r ⟨64 + j.val, by omega⟩) * kk (ix3 0 c ⟨64 + j.val, by omega⟩)) * Ideal.ofBits .f32 0x3E000000#32

/-- The maximum of a tile's 512 scores, from -∞. -/
def rmax (z : Fin 512 → EReal) : EReal := (Finset.univ : Finset (Fin 512)).fold max ⊥ z

/-- The scaled scores of 64-lane query rows against 64-lane key rows. -/
def scG (v10 : FVec Ideal S2048x64 .bf16) (v12 : FVec Ideal S512x64 .bf16) (r : Fin 2048) (c : Fin 512) : EReal :=
  (∑ j : Fin 64, v10 (ix2 r j) * v12 (ix2 c j)) * Ideal.ofBits .f32 0x3E000000#32

/-! ## The lane halves of the loaded blocks -/

/-- Head 0's lanes of the query block. -/
abbrev qlo (q : Vec Ideal S1x2048x128 .bf16) : FVec Ideal S2048x64 .bf16 :=
  extractStridedSlice S2048x64 ![0, 0] (k1_pay10 q) slices_S2048x128_o0_0_S2048x64
/-- Head 0's lanes of the key tile. -/
abbrev klo (kk : Vec Ideal S1x512x128 .bf16) : FVec Ideal S512x64 .bf16 :=
  extractStridedSlice S512x64 ![0, 0] (k1_pay11 kk) slices_S512x128_o0_0_S512x64

theorem qlo_at (q : Vec Ideal S1x2048x128 .bf16) (r : Fin 2048) (j : Fin 64) :
    qlo q (ix2 r j) = q (ix3 0 r ⟨j.val, by omega⟩) :=
  (slice2_axis1_apply (n1 := 128) 0 (k1_pay10 (F := Ideal) q) slices_S2048x128_o0_0_S2048x64 r j ⟨j.val, by omega⟩
      (Nat.zero_add _).symm).trans
    (shapeCast_1ab_ab_apply q shapeCasts_S1x2048x128_S2048x128 r _)

theorem klo_at (kk : Vec Ideal S1x512x128 .bf16) (c : Fin 512) (j : Fin 64) :
    klo kk (ix2 c j) = kk (ix3 0 c ⟨j.val, by omega⟩) :=
  (slice2_axis1_apply (n1 := 128) 0 (k1_pay11 (F := Ideal) kk) slices_S512x128_o0_0_S512x64 c j ⟨j.val, by omega⟩
      (Nat.zero_add _).symm).trans
    (shapeCast_1ab_ab_apply kk shapeCasts_S1x512x128_S512x128 c _)

theorem qhi_at (q : Vec Ideal S1x2048x128 .bf16) (r : Fin 2048) (j : Fin 64) :
    k1_pay13 (F := Ideal) q (ix2 r j) = q (ix3 0 r ⟨64 + j.val, by omega⟩) :=
  (slice2_axis1_apply (n1 := 128) 64 (k1_pay10 (F := Ideal) q) slices_S2048x128_o0_64_S2048x64 r j ⟨64 + j.val, by omega⟩
      rfl).trans
    (shapeCast_1ab_ab_apply q shapeCasts_S1x2048x128_S2048x128 r _)

theorem khi_at (kk : Vec Ideal S1x512x128 .bf16) (c : Fin 512) (j : Fin 64) :
    k1_pay14 (F := Ideal) kk (ix2 c j) = kk (ix3 0 c ⟨64 + j.val, by omega⟩) :=
  (slice2_axis1_apply (n1 := 128) 64 (k1_pay11 (F := Ideal) kk) slices_S512x128_o0_64_S512x64 c j ⟨64 + j.val, by omega⟩
      rfl).trans
    (shapeCast_1ab_ab_apply kk shapeCasts_S1x512x128_S512x128 c _)

theorem vlo_at (vv : Vec Ideal S1x512x128 .bf16) (c : Fin 512) (j : Fin 64) :
    k1_pay15 (F := Ideal) vv (ix2 c j) = vv (ix3 0 c ⟨j.val, by omega⟩) :=
  (slice2_axis1_apply (n1 := 128) 0 (k1_pay12 (F := Ideal) vv) slices_S512x128_o0_0_S512x64 c j ⟨j.val, by omega⟩
      (Nat.zero_add _).symm).trans
    (shapeCast_1ab_ab_apply vv shapeCasts_S1x512x128_S512x128 c _)

theorem vhi_at (vv : Vec Ideal S1x512x128 .bf16) (c : Fin 512) (j : Fin 64) :
    k1_pay16 (F := Ideal) vv (ix2 c j) = vv (ix3 0 c ⟨64 + j.val, by omega⟩) :=
  (slice2_axis1_apply (n1 := 128) 64 (k1_pay12 (F := Ideal) vv) slices_S512x128_o0_64_S512x64 c j ⟨64 + j.val, by omega⟩
      rfl).trans
    (shapeCast_1ab_ab_apply vv shapeCasts_S1x512x128_S512x128 c _)

theorem scG_lo (q : Vec Ideal S1x2048x128 .bf16) (kk : Vec Ideal S1x512x128 .bf16) (r : Fin 2048) :
    scG (qlo q) (klo kk) r = sc0 q kk r := by
  funext c
  unfold scG sc0
  refine congrArg (· * Ideal.ofBits .f32 0x3E000000#32) ?_
  exact Finset.sum_congr rfl fun j _ => by rw [qlo_at, klo_at]

theorem scG_hi (q : Vec Ideal S1x2048x128 .bf16) (kk : Vec Ideal S1x512x128 .bf16) (r : Fin 2048) :
    scG (k1_pay13 (F := Ideal) q) (k1_pay14 (F := Ideal) kk) r = sc1 q kk r := by
  funext c
  unfold scG sc1
  refine congrArg (· * Ideal.ofBits .f32 0x3E000000#32) ?_
  exact Finset.sum_congr rfl fun j _ => by rw [qhi_at, khi_at]

/-! ## The two products and the two row reductions at an entry -/

theorem dotQK_rows : RowsDot.IsRowsByRows (M := 2048) (K := 64) (N := 512) dot_S2048x64_S512x64_S2048x512_1_1_0_0_n_n :=
  ⟨rfl, rfl, rfl, rfl, rfl, rfl⟩

theorem dotPV_plain : PlainDot.IsPlain (M := 2048) (K := 512) (N := 64) dot_S2048x512_S512x64_S2048x64_1_0_0_1_n_n :=
  ⟨rfl, rfl, rfl, rfl, rfl, rfl⟩

/-- The source index of the lane reduction over row r with lane k put back is (r, k). -/
theorem lift_row (r : Fin 2048) (k : Fin 512) : reduces_S2048x512_S2048.lift (ix1 r) k = ix2 r k := by
  funext a
  apply Fin.ext
  match a with
  | ⟨0, _⟩ => rfl
  | ⟨1, _⟩ => rfl

/-- The lane maximum from -∞ of a [2048, 512] array, kept as a column, at row r: the maximum of the row. -/
theorem rowmax_apply (src : FVec Ideal S2048x512 .f32) (z : Fin 512 → EReal) (r : Fin 2048)
    (hz : ∀ cc, src (ix2 r cc) = z cc) :
    shapeCast S2048x1 (multiReduction (F := Ideal) .maximumf [1] S2048 src 0xFF800000#32 reduces_S2048x512_S2048 (.inl rfl) rfl)
      shapeCasts_S2048_S2048x1 (ix2 r 0) = rmax z := by
  refine (shapeCast_a_a1_apply _ _ r 0).trans ?_
  refine (Ideal.multiReduction_maximumf_single src _ _ _ _ (ix1 r)).trans ?_
  have hb : FloatOps.ofBits (F := Ideal) .f32 0xFF800000#32 = (⊥ : EReal) := by
    simp [Ideal.ofBits, Ideal.ieee]
  have hf : (src ∘ reduces_S2048x512_S2048.lift (ix1 r)) = z :=
    funext fun cc => (congrArg src (lift_row r cc)).trans (hz cc)
  unfold rmax
  exact congrArg₂ (fun b f => (Finset.univ : Finset (Fin 512)).fold max b f) hb hf

/-- The lane sum of a [2048, 512] array, kept as a column, at row r: the sum of the row. -/
theorem rowsum_apply (src : FVec Ideal S2048x512 .f32) (z : Fin 512 → EReal) (r : Fin 2048)
    (hz : ∀ cc, src (ix2 r cc) = z cc) :
    shapeCast S2048x1 (multiReduction (F := Ideal) .add [1] S2048 src 0x00000000#32 reduces_S2048x512_S2048 (.inl rfl) rfl)
      shapeCasts_S2048_S2048x1 (ix2 r 0) = ∑ cc : Fin 512, z cc := by
  refine (shapeCast_a_a1_apply _ _ r 0).trans ?_
  refine (Ideal.multiReduction_add_single src _ _ _ _ (ix1 r)).trans ?_
  exact Finset.sum_congr rfl fun cc _ => (congrArg src (lift_row r cc)).trans (hz cc)

/-! ## One head's update, over any 64-lane query rows, key rows and value rows -/

section Head
variable (v10 : FVec Ideal S2048x64 .bf16) (v12 : FVec Ideal S512x64 .bf16) (v14 : FVec Ideal S512x64 .bf16)
  (m l : Vec Ideal S2048x1 .f32) (a : Vec Ideal S2048x64 .f32) (r : Fin 2048)

/-- The scaled scores. -/
theorem score_at (c : Fin 512) : k1_pay25 (F := Ideal) v10 v12 (ix2 r c) = scG v10 v12 r c := by
  unfold k1_pay25 scG
  refine (mulf_apply _ _ _).trans ?_
  exact congrArg₂ (· * ·) (dotQK_rows.matmul_zero_apply none v10 v12 r c) rfl

/-- The new maximum. -/
theorem newmax_at : k1_pay26 (F := Ideal) v10 v12 m (ix2 r 0) = max (m (ix2 r 0)) (rmax (scG v10 v12 r)) := by
  unfold k1_pay26
  refine (maximumf_apply _ _ _).trans ?_
  exact congrArg (max (m (ix2 r 0))) (rowmax_apply _ _ r (score_at v10 v12 r))

/-- The factor that rescales the old sums. -/
theorem alpha_at : k1_pay27 (F := Ideal) v10 v12 m (ix2 r 0)
    = Ideal.exp (m (ix2 r 0) - max (m (ix2 r 0)) (rmax (scG v10 v12 r))) := by
  unfold k1_pay27
  show Ideal.exp (m (ix2 r 0) - k1_pay26 (F := Ideal) v10 v12 m (ix2 r 0)) = _
  rw [newmax_at]

/-- The tile's terms. -/
theorem p_at (c : Fin 512) : k1_pay28 (F := Ideal) v10 v12 m (ix2 r c)
    = Ideal.exp (scG v10 v12 r c - max (m (ix2 r 0)) (rmax (scG v10 v12 r))) := by
  unfold k1_pay28
  show Ideal.exp (k1_pay25 (F := Ideal) v10 v12 (ix2 r c)
    - broadcastTo S2048x512 (k1_pay26 (F := Ideal) v10 v12 m) broadcasts_S2048x1_S2048x512 (ix2 r c)) = _
  rw [score_at, broadcastTo_a1_ab_apply, newmax_at]

/-- The new denominator. -/
theorem newl_at : k1_pay29 (F := Ideal) v10 v12 m l (ix2 r 0)
    = Ideal.exp (m (ix2 r 0) - max (m (ix2 r 0)) (rmax (scG v10 v12 r))) * l (ix2 r 0)
      + ∑ cc : Fin 512, Ideal.exp (scG v10 v12 r cc - max (m (ix2 r 0)) (rmax (scG v10 v12 r))) := by
  unfold k1_pay29
  refine (congrFun (shapeCast_self _ _) _).trans ?_
  refine (addf_apply _ _ _).trans ?_
  refine congrArg₂ (· + ·) ?_ (rowsum_apply _ _ r (p_at v10 v12 m r))
  refine (mulf_apply _ _ _).trans ?_
  exact congrArg (· * l (ix2 r 0)) (alpha_at v10 v12 m r)

/-- The tile's terms against the value rows. -/
theorem pv_at (c : Fin 64) : k1_pay30 (F := Ideal) v10 v12 v14 m (ix2 r c)
    = ∑ cc : Fin 512, Ideal.exp (scG v10 v12 r cc - max (m (ix2 r 0)) (rmax (scG v10 v12 r))) * v14 (ix2 cc c) := by
  unfold k1_pay30
  refine (dotPV_plain.matmul_zero_apply none _ v14 r c).trans ?_
  exact Finset.sum_congr rfl fun cc _ => congrArg (· * v14 (ix2 cc c)) (p_at v10 v12 m r cc)

/-- The new numerators, from the rescaling factor and the tile's contribution. -/
theorem newa_at (v55 : FVec Ideal S2048x1 .f32) (v68 : FVec Ideal S2048x64 .f32) (c : Fin 64) :
    k1_pay1 (F := Ideal) v55 v68 a (ix2 r c) = v55 (ix2 r 0) * a (ix2 r c) + v68 (ix2 r c) := by
  unfold k1_pay1
  refine (congrFun (shapeCast_self _ _) _).trans ?_
  refine (addf_apply _ _ _).trans ?_
  refine congrArg (· + v68 (ix2 r c)) ?_
  refine (mulf_apply _ _ _).trans ?_
  exact congrArg (· * a (ix2 r c)) (broadcastTo_a1_ab_apply _ _ r c)

end Head

/-! ## The two heads of a grid point -/

section Points
variable (q : Vec Ideal S1x2048x128 .bf16) (kk vv : Vec Ideal S1x512x128 .bf16)
  (m l : Vec Ideal S2048x1 .f32) (a : Vec Ideal S2048x64 .f32) (r : Fin 2048) (c : Fin 64)

/-- Head 0's new maximum. -/
theorem m0_at : k1_pay24 (F := Ideal) (k1_pay18 q kk m) (ix2 r 0) = max (m (ix2 r 0)) (rmax (sc0 q kk r)) := by
  unfold k1_pay24
  refine (congrFun (shapeCast_self _ _) _).trans ?_
  rw [← scG_lo q kk r]
  exact newmax_at (qlo q) (klo kk) m r

/-- Head 0's new denominator. -/
theorem l0_at : k1_pay22 (F := Ideal) (k1_pay21 q kk m l) (ix2 r 0)
    = Ideal.exp (m (ix2 r 0) - max (m (ix2 r 0)) (rmax (sc0 q kk r))) * l (ix2 r 0)
      + ∑ cc : Fin 512, Ideal.exp (sc0 q kk r cc - max (m (ix2 r 0)) (rmax (sc0 q kk r))) := by
  rw [← scG_lo q kk r]
  exact newl_at (qlo q) (klo kk) m l r

/-- Head 0's new numerators. -/
theorem a0_at : k1_pay23 (F := Ideal) (k1_pay15 vv) (k1_pay19 q kk m) (k1_pay20 q kk m) a (ix2 r c)
    = Ideal.exp (m (ix2 r 0) - max (m (ix2 r 0)) (rmax (sc0 q kk r))) * a (ix2 r c)
      + ∑ cc : Fin 512, Ideal.exp (sc0 q kk r cc - max (m (ix2 r 0)) (rmax (sc0 q kk r))) * vv (ix3 0 cc ⟨c.val, by omega⟩) := by
  show k1_pay1 (F := Ideal) (k1_pay27 (F := Ideal) (qlo q) (klo kk) m)
    (k1_pay30 (F := Ideal) (qlo q) (klo kk) (k1_pay15 (F := Ideal) vv) m) a (ix2 r c) = _
  rw [newa_at, alpha_at, pv_at, scG_lo]
  simp only [vlo_at]

/-- Head 1's new maximum. -/
theorem m1_at : k1_pay2 (F := Ideal) (k1_pay26 (k1_pay13 q) (k1_pay14 kk) m) (ix2 r 0)
    = max (m (ix2 r 0)) (rmax (sc1 q kk r)) := by
  unfold k1_pay2
  refine (congrFun (shapeCast_self _ _) _).trans ?_
  rw [← scG_hi q kk r]
  exact newmax_at _ _ m r

/-- Head 1's new denominator. -/
theorem l1_at : k1_pay29 (F := Ideal) (k1_pay13 q) (k1_pay14 kk) m l (ix2 r 0)
    = Ideal.exp (m (ix2 r 0) - max (m (ix2 r 0)) (rmax (sc1 q kk r))) * l (ix2 r 0)
      + ∑ cc : Fin 512, Ideal.exp (sc1 q kk r cc - max (m (ix2 r 0)) (rmax (sc1 q kk r))) := by
  rw [← scG_hi q kk r]
  exact newl_at _ _ m l r

/-- Head 1's new numerators. -/
theorem a1_at : k1_pay1 (F := Ideal) (k1_pay27 (k1_pay13 q) (k1_pay14 kk) m)
      (k1_pay30 (k1_pay13 q) (k1_pay14 kk) (k1_pay16 vv) m) a (ix2 r c)
    = Ideal.exp (m (ix2 r 0) - max (m (ix2 r 0)) (rmax (sc1 q kk r))) * a (ix2 r c)
      + ∑ cc : Fin 512, Ideal.exp (sc1 q kk r cc - max (m (ix2 r 0)) (rmax (sc1 q kk r))) * vv (ix3 0 cc ⟨64 + c.val, by omega⟩) := by
  rw [newa_at, alpha_at, pv_at, scG_hi]
  simp only [vhi_at]

end Points

/-! ## The reset state of the first key tile -/

theorem ofBits_neg_inf : Ideal.ofBits .f32 0xFF800000#32 = (⊥ : EReal) := by simp [Ideal.ofBits, Ideal.ieee]

theorem reset_m (r : Fin 2048) : k1_pay4 (F := Ideal) (ix2 r 0) = ⊥ := by
  unfold k1_pay4
  refine (congrFun (shapeCast_self _ _) _).trans ?_
  exact ofBits_neg_inf

theorem reset_m' (r : Fin 2048) : k1_pay7 (F := Ideal) (ix2 r 0) = ⊥ := by
  unfold k1_pay7
  refine (congrFun (shapeCast_self _ _) _).trans ?_
  exact ofBits_neg_inf

theorem reset_l (r : Fin 2048) : k1_pay5 (F := Ideal) (ix2 r 0) = 0 := by
  unfold k1_pay5
  refine (congrFun (shapeCast_self _ _) _).trans ?_
  exact Ideal.ofBits_zero_f32

theorem reset_l' (r : Fin 2048) : k1_pay8 (F := Ideal) (ix2 r 0) = 0 := by
  unfold k1_pay8
  refine (congrFun (shapeCast_self _ _) _).trans ?_
  exact Ideal.ofBits_zero_f32

theorem reset_a (r : Fin 2048) (c : Fin 64) : k1_pay6 (F := Ideal) (ix2 r c) = 0 := by
  unfold k1_pay6
  refine (congrFun (shapeCast_self _ _) _).trans ?_
  exact Ideal.ofBits_zero_f32

theorem reset_a' (r : Fin 2048) (c : Fin 64) : k1_pay9 (F := Ideal) (ix2 r c) = 0 := by
  unfold k1_pay9
  refine (congrFun (shapeCast_self _ _) _).trans ?_
  exact Ideal.ofBits_zero_f32

/-! ## The output block of the last key tile -/

/-- Head 0's lanes: numerator over denominator. -/
theorem out_at_lo (a0 : Vec Ideal S2048x64 .f32) (l0 : Vec Ideal S2048x1 .f32) (a1 : Vec Ideal S2048x64 .f32)
    (l1 : Vec Ideal S2048x1 .f32) (r : Fin 2048) (c : Fin 64) :
    k1_pay3 (F := Ideal) a0 l0 a1 l1 (ix3 0 r ⟨c.val, by omega⟩) = Ideal.div (a0 (ix2 r c)) (l0 (ix2 r 0)) := by
  unfold k1_pay3
  refine (shapeCast_ab_1ab_apply _ shapeCasts_S2048x128_S1x2048x128 0 r ⟨c.val, by omega⟩).trans ?_
  refine (truncf_apply (ψ := .bf16) _ bitsLt_bf16_f32 _).trans ?_
  refine (concatenate_pair_apply_left (t := S2048x128) (1 : Fin S2048x128.rank) _ _
    concatenates_S2048x64_S2048x64_S2048x128_d1 (ix2 r ⟨c.val, by omega⟩) rfl (ix2 r c)
    (fun b => by match b with | ⟨0, _⟩ => rfl | ⟨1, _⟩ => rfl)).trans ?_
  refine (divf_apply _ _ _).trans ?_
  exact congrArg (Ideal.div (a0 (ix2 r c))) (broadcastTo_a1_ab_apply _ _ r c)

/-- Head 1's lanes: numerator over denominator. -/
theorem out_at_hi (a0 : Vec Ideal S2048x64 .f32) (l0 : Vec Ideal S2048x1 .f32) (a1 : Vec Ideal S2048x64 .f32)
    (l1 : Vec Ideal S2048x1 .f32) (r : Fin 2048) (c : Fin 64) :
    k1_pay3 (F := Ideal) a0 l0 a1 l1 (ix3 0 r ⟨64 + c.val, by omega⟩) = Ideal.div (a1 (ix2 r c)) (l1 (ix2 r 0)) := by
  unfold k1_pay3
  refine (shapeCast_ab_1ab_apply _ shapeCasts_S2048x128_S1x2048x128 0 r ⟨64 + c.val, by omega⟩).trans ?_
  refine (truncf_apply (ψ := .bf16) _ bitsLt_bf16_f32 _).trans ?_
  refine (concatenate_pair_apply_right (t := S2048x128) (1 : Fin S2048x128.rank) _ _
    concatenates_S2048x64_S2048x64_S2048x128_d1 (ix2 r ⟨64 + c.val, by omega⟩) rfl rfl (ix2 r c)
    (fun b hb => by
      match b, hb with
      | ⟨0, _⟩, _ => rfl
      | ⟨1, _⟩, hb => exact (hb (Fin.ext rfl)).elim)
    (Nat.add_comm _ _)).trans ?_
  refine (divf_apply _ _ _).trans ?_
  exact congrArg (Ideal.div (a1 (ix2 r c))) (broadcastTo_a1_ab_apply _ _ r c)

end Cert.Hand.AttnPoint

end
-- ==== Proof.LibSoftmaxFold.lean ====
/-
  The online softmax over column tiles, on the extended reals.

  A row of real logits `x v` (v < N) is scanned tile by tile. The scan carries a running maximum `m`, a running
  denominator `l` and, for every output column `d`, a running numerator `a d`; a tile multiplies the old sums by
  `exp (m - m')` and adds the tile's own terms `exp (x v - m')`, where `m'` is the new maximum; a column past
  the row's end carries the logit -∞, whose term is `exp (-∞) = 0`.

  The invariant (`Inv`): the maximum is SOME real `M` (that it is the maximum is never used), the denominator is
  `∑ v < n, exp (x v - M)` and the numerators are `∑ v < n, exp (x v - M) * w d v`. The quotient numerator /
  denominator does not depend on `M` (`exp (-M)` cancels): it is the softmax-weighted average `avg`. The same
  average is what a two-pass softmax computes: `∑ v, (exp (x v - M) / ∑ u, exp (x u - M)) * w v`, for any real `M`.
-/
import Idealize.ShloMosaic.PureOps.Ideal

noncomputable section

open scoped BigOperators

namespace SoftmaxFold

open Idealize.ShloMosaic

/-- The shifted denominator over the first `n` columns. -/
def S (x : ℕ → ℝ) (M : ℝ) (n : ℕ) : ℝ := ∑ v ∈ Finset.range n, Real.exp (x v - M)

/-- The shifted numerator over the first `n` columns, against the weights `w`. -/
def A (x w : ℕ → ℝ) (M : ℝ) (n : ℕ) : ℝ := ∑ v ∈ Finset.range n, Real.exp (x v - M) * w v

/-- The softmax-weighted average of `w` over the first `n` columns. -/
def avg (x w : ℕ → ℝ) (n : ℕ) : ℝ :=
  (∑ v ∈ Finset.range n, Real.exp (x v) * w v) / (∑ v ∈ Finset.range n, Real.exp (x v))

/-- What the scan holds after the first `n` columns: a real maximum, and the two sums shifted by it. -/
def Inv {D : Type} (x : ℕ → ℝ) (w : D → ℕ → ℝ) (n : ℕ) (m l : EReal) (a : D → EReal) : Prop :=
  ∃ M : ℝ, m = (M : EReal) ∧ l = ((S x M n : ℝ) : EReal) ∧ ∀ d, a d = ((A x (w d) M n : ℝ) : EReal)

/-- A finite sum of real numbers, coerced, is the sum of the coercions. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over at least one column the shifted denominator is positive. -/
theorem S_pos (x : ℕ → ℝ) (M : ℝ) {n : ℕ} (hn : 0 < n) : 0 < S x M n :=
  Finset.sum_pos (fun _ _ => Real.exp_pos _) (Finset.nonempty_range_iff.mpr hn.ne')

/-- The factor exp (-M) cancels between the shifted numerator and the shifted denominator. -/
theorem A_div_S (x w : ℕ → ℝ) (M : ℝ) (n : ℕ) : A x w M n / S x M n = avg x w n := by
  have hA : A x w M n = (∑ v ∈ Finset.range n, Real.exp (x v) * w v) * Real.exp (-M) := by
    unfold A
    rw [Finset.sum_mul]
    refine Finset.sum_congr rfl (fun v _ => ?_)
    rw [sub_eq_add_neg, Real.exp_add]; ring
  have hS : S x M n = (∑ v ∈ Finset.range n, Real.exp (x v)) * Real.exp (-M) := by
    unfold S
    rw [Finset.sum_mul]
    refine Finset.sum_congr rfl (fun v _ => ?_)
    rw [sub_eq_add_neg, Real.exp_add]
  rw [hA, hS, avg, mul_div_mul_right _ _ (Real.exp_pos _).ne']

/-- Moving the shift from M to M' multiplies a term by exp (M - M'). -/
theorem exp_shift (t M M' : ℝ) : Real.exp (M - M') * Real.exp (t - M) = Real.exp (t - M') := by
  rw [← Real.exp_add]; congr 1; ring

/-- The denominator at a later column, under a new shift: the old denominator rescaled plus the new columns' terms. -/
theorem S_step (x : ℕ → ℝ) (M M' : ℝ) {off e : ℕ} (h : off ≤ e) :
    S x M' e = Real.exp (M - M') * S x M off + ∑ v ∈ Finset.Ico off e, Real.exp (x v - M') := by
  unfold S
  rw [← Finset.sum_range_add_sum_Ico _ h, Finset.mul_sum]
  congr 1
  exact Finset.sum_congr rfl (fun v _ => (exp_shift _ _ _).symm)

/-- The numerator at a later column, under a new shift. -/
theorem A_step (x w : ℕ → ℝ) (M M' : ℝ) {off e : ℕ} (h : off ≤ e) :
    A x w M' e = Real.exp (M - M') * A x w M off + ∑ v ∈ Finset.Ico off e, Real.exp (x v - M') * w v := by
  unfold A
  rw [← Finset.sum_range_add_sum_Ico _ h, Finset.mul_sum]
  congr 1
  refine Finset.sum_congr rfl (fun v _ => ?_)
  rw [← mul_assoc, exp_shift]

/-- A tile of T columns from column off, its columns past N contributing 0, sums the columns from off to the
    tile's end cut at N. -/
theorem sum_tile (f : ℕ → ℝ) (off T N : ℕ) :
    ∑ k ∈ Finset.range T, (if off + k < N then f (off + k) else 0)
      = ∑ v ∈ Finset.Ico off (min (off + T) N), f v := by
  rw [Finset.sum_Ico_eq_sum_range, ← Finset.sum_filter]
  refine Finset.sum_congr ?_ (fun _ _ => rfl)
  ext k
  simp only [Finset.mem_filter, Finset.mem_range]
  omega

/-- The exponential of a difference of two reals. -/
theorem exp_coe_sub (a b : ℝ) : Ideal.exp ((a : EReal) - (b : EReal)) = ((Real.exp (a - b) : ℝ) : EReal) := by
  rw [← EReal.coe_sub, Ideal.exp_coe]

/-- One masked column's term: a real exponential inside the row, 0 past its end. -/
theorem tile_term {T : ℕ} (x : ℕ → ℝ) (N off : ℕ) (z : Fin T → EReal)
    (hz : ∀ c : Fin T, z c = if off + c.val < N then ((x (off + c.val) : ℝ) : EReal) else ⊥) (M' : ℝ) (c : Fin T) :
    Ideal.exp (z c - (M' : EReal))
      = (((if off + c.val < N then Real.exp (x (off + c.val) - M') else 0 : ℝ)) : EReal) := by
  rw [hz c]
  split_ifs with hc
  · exact exp_coe_sub _ _
  · rw [EReal.bot_sub, Ideal.exp_bot, EReal.coe_zero]

/-- The tile's denominator terms sum to a real sum over the tile's columns inside the row. -/
theorem tile_sum_exp {T : ℕ} (x : ℕ → ℝ) (N off : ℕ) (z : Fin T → EReal)
    (hz : ∀ c : Fin T, z c = if off + c.val < N then ((x (off + c.val) : ℝ) : EReal) else ⊥) (M' : ℝ) :
    ∑ c : Fin T, Ideal.exp (z c - (M' : EReal))
      = ((∑ v ∈ Finset.Ico off (min (off + T) N), Real.exp (x v - M') : ℝ) : EReal) := by
  rw [Finset.sum_congr rfl (fun c _ => tile_term x N off z hz M' c), ← coe_sum',
    Fin.sum_univ_eq_sum_range (fun k => if off + k < N then Real.exp (x (off + k) - M') else 0) T,
    sum_tile (fun v => Real.exp (x v - M'))]

/-- The tile's numerator terms, against masked weights, likewise. -/
theorem tile_sum_exp_mul {T : ℕ} (x w' : ℕ → ℝ) (N off : ℕ) (z wz : Fin T → EReal)
    (hz : ∀ c : Fin T, z c = if off + c.val < N then ((x (off + c.val) : ℝ) : EReal) else ⊥)
    (hw : ∀ c : Fin T, wz c = if off + c.val < N then ((w' (off + c.val) : ℝ) : EReal) else 0) (M' : ℝ) :
    ∑ c : Fin T, Ideal.exp (z c - (M' : EReal)) * wz c
      = ((∑ v ∈ Finset.Ico off (min (off + T) N), Real.exp (x v - M') * w' v : ℝ) : EReal) := by
  have hterm : ∀ c : Fin T, Ideal.exp (z c - (M' : EReal)) * wz c
      = (((if off + c.val < N then Real.exp (x (off + c.val) - M') * w' (off + c.val) else 0 : ℝ)) : EReal) := by
    intro c
    rw [tile_term x N off z hz M' c, hw c]
    split_ifs with hc
    · rw [EReal.coe_mul]
    · rw [EReal.coe_zero, mul_zero]
  rw [Finset.sum_congr rfl (fun c _ => hterm c), ← coe_sum',
    Fin.sum_univ_eq_sum_range (fun k => if off + k < N then Real.exp (x (off + k) - M') * w' (off + k) else 0) T,
    sum_tile (fun v => Real.exp (x v - M') * w' v)]

/-- The maximum of a masked tile is never ⊤. -/
theorem tile_max_ne_top {T : ℕ} (x : ℕ → ℝ) (N off : ℕ) (z : Fin T → EReal)
    (hz : ∀ c : Fin T, z c = if off + c.val < N then ((x (off + c.val) : ℝ) : EReal) else ⊥) :
    (Finset.univ : Finset (Fin T)).fold max ⊥ z < ⊤ := by
  rw [Finset.fold_max_lt]
  refine ⟨bot_lt_top, fun c _ => ?_⟩
  rw [hz c]
  split_ifs
  · exact EReal.coe_lt_top _
  · exact bot_lt_top

/-- One tile of `T` columns starting at column `off`, of a row of `N` columns: from the reset state (at `off = 0`)
    or from the invariant at `off`, the updated maximum, denominator and numerators satisfy the invariant at the
    tile's end (cut at `N`). Columns past `N` carry the logit `⊥` and the weight `0`. -/
theorem Inv.step {D : Type} {T : ℕ} (x : ℕ → ℝ) (w : D → ℕ → ℝ) (N off : ℕ) (z : Fin T → EReal) (ww : D → Fin T → EReal)
    (hz : ∀ c : Fin T, z c = if off + c.val < N then ((x (off + c.val) : ℝ) : EReal) else ⊥)
    (hw : ∀ d (c : Fin T), ww d c = if off + c.val < N then ((w d (off + c.val) : ℝ) : EReal) else 0)
    (m l : EReal) (a : D → EReal)
    (h : (m = ⊥ ∧ l = 0 ∧ (∀ d, a d = 0) ∧ off = 0 ∧ 0 < T ∧ 0 < N) ∨ (Inv x w off m l a ∧ off ≤ N)) :
    Inv x w (min (off + T) N) (max m ((Finset.univ : Finset (Fin T)).fold max ⊥ z))
      (Ideal.exp (m - max m ((Finset.univ : Finset (Fin T)).fold max ⊥ z)) * l
        + ∑ c : Fin T, Ideal.exp (z c - max m ((Finset.univ : Finset (Fin T)).fold max ⊥ z)))
      (fun d => Ideal.exp (m - max m ((Finset.univ : Finset (Fin T)).fold max ⊥ z)) * a d
        + ∑ c : Fin T, Ideal.exp (z c - max m ((Finset.univ : Finset (Fin T)).fold max ⊥ z)) * ww d c) := by
  have hrm_top : (Finset.univ : Finset (Fin T)).fold max ⊥ z < ⊤ := tile_max_ne_top x N off z hz
  generalize hrm : (Finset.univ : Finset (Fin T)).fold max ⊥ z = rm at hrm_top ⊢
  rcases h with ⟨hm, hl, ha, hoff, hT, hN⟩ | ⟨⟨M, hm, hl, ha⟩, hoffN⟩
  · -- from the reset state: the new maximum is the tile's, a real since column 0 is inside the row
    subst hoff hm
    have hz0 : ((x 0 : ℝ) : EReal) ≤ rm := by
      rw [← hrm, Finset.le_fold_max]
      refine Or.inr ⟨⟨0, hT⟩, Finset.mem_univ _, ?_⟩
      rw [hz ⟨0, hT⟩, if_pos (by simpa using hN)]
      exact le_of_eq (by simp)
    have hbot : rm ≠ ⊥ := ne_of_gt (lt_of_lt_of_le (EReal.bot_lt_coe _) hz0)
    have hmn : max ⊥ rm = ((rm.toReal : ℝ) : EReal) := by
      rw [max_eq_right bot_le, EReal.coe_toReal hrm_top.ne hbot]
    rw [hmn]
    refine ⟨rm.toReal, rfl, ?_, fun d => ?_⟩
    · rw [EReal.bot_sub, Ideal.exp_bot, hl, mul_zero, zero_add, tile_sum_exp x N 0 z hz, S, Finset.range_eq_Ico]
    · beta_reduce
      rw [EReal.bot_sub, Ideal.exp_bot, ha d, mul_zero, zero_add,
        tile_sum_exp_mul x (w d) N 0 z (ww d) hz (hw d), A, Finset.range_eq_Ico]
  · -- from the invariant: the new maximum is at least the old real one and below ⊤
    subst hm
    have hmn_top : max (M : EReal) rm < ⊤ := max_lt (EReal.coe_lt_top M) hrm_top
    have hmn_bot : max (M : EReal) rm ≠ ⊥ :=
      ne_of_gt (lt_of_lt_of_le (EReal.bot_lt_coe M) (le_max_left _ _))
    have hmn : max (M : EReal) rm = (((max (M : EReal) rm).toReal : ℝ) : EReal) :=
      (EReal.coe_toReal hmn_top.ne hmn_bot).symm
    generalize (max (M : EReal) rm).toReal = M' at hmn
    rw [hmn]
    have he : off ≤ min (off + T) N := le_min (Nat.le_add_right _ _) hoffN
    refine ⟨M', rfl, ?_, fun d => ?_⟩
    · rw [exp_coe_sub, hl, tile_sum_exp x N off z hz, ← EReal.coe_mul, ← EReal.coe_add, S_step x M M' he]
    · beta_reduce
      rw [exp_coe_sub, ha d, tile_sum_exp_mul x (w d) N off z (ww d) hz (hw d), ← EReal.coe_mul, ← EReal.coe_add,
        A_step x (w d) M M' he]

/-- After at least one column the quotient numerator / denominator is the softmax-weighted average. -/
theorem Inv.div_eq {D : Type} {x : ℕ → ℝ} {w : D → ℕ → ℝ} {n : ℕ} {m l : EReal} {a : D → EReal}
    (h : Inv x w n m l a) (hn : 0 < n) (d : D) : Ideal.div (a d) l = ((avg x (w d) n : ℝ) : EReal) := by
  obtain ⟨M, _, hl, ha⟩ := h
  rw [ha d, hl, Ideal.div_coe (S_pos x M hn).ne', ← EReal.coe_mul, ← A_div_S x (w d) M n, mul_one_div]

/-- A maximum over real entries, from `⊥`, of a nonempty row is a real. -/
theorem fold_max_real {N : ℕ} (hN : 0 < N) (x : Fin N → ℝ) :
    ∃ M : ℝ, (Finset.univ : Finset (Fin N)).fold max (⊥ : EReal) (fun v => ((x v : ℝ) : EReal)) = (M : EReal) := by
  have htop : (Finset.univ : Finset (Fin N)).fold max (⊥ : EReal) (fun v => ((x v : ℝ) : EReal)) < ⊤ := by
    rw [Finset.fold_max_lt]
    exact ⟨bot_lt_top, fun v _ => EReal.coe_lt_top _⟩
  have hge : ((x ⟨0, hN⟩ : ℝ) : EReal)
      ≤ (Finset.univ : Finset (Fin N)).fold max (⊥ : EReal) (fun v => ((x v : ℝ) : EReal)) := by
    rw [Finset.le_fold_max]
    exact Or.inr ⟨⟨0, hN⟩, Finset.mem_univ _, le_refl _⟩
  have hbot := ne_of_gt (lt_of_lt_of_le (EReal.bot_lt_coe _) hge)
  exact ⟨_, (EReal.coe_toReal htop.ne hbot).symm⟩

/-- The two-pass softmax against weights: for ANY real shift `M`, the normalized terms times the weights sum to the
    softmax-weighted average (`x'`, `w'` the row and the weights as functions on `Fin N`). -/
theorem twopass_eq {N : ℕ} (hN : 0 < N) (x w : ℕ → ℝ) (M : ℝ) :
    ∑ v : Fin N, Ideal.div (Ideal.exp (((x v.val : ℝ) : EReal) - (M : EReal)))
        (0 + ∑ u : Fin N, Ideal.exp (((x u.val : ℝ) : EReal) - (M : EReal))) * ((w v.val : ℝ) : EReal)
      = ((avg x w N : ℝ) : EReal) := by
  have hS : (0 : EReal) + ∑ u : Fin N, Ideal.exp (((x u.val : ℝ) : EReal) - (M : EReal))
      = ((S x M N : ℝ) : EReal) := by
    rw [zero_add, S, ← Fin.sum_univ_eq_sum_range (fun v => Real.exp (x v - M)) N, coe_sum']
    exact Finset.sum_congr rfl (fun u _ => exp_coe_sub _ _)
  have hpos := S_pos x M hN
  have hterm : ∀ v : Fin N,
      Ideal.div (Ideal.exp (((x v.val : ℝ) : EReal) - (M : EReal))) ((S x M N : ℝ) : EReal) * ((w v.val : ℝ) : EReal)
        = ((Real.exp (x v.val - M) * w v.val / S x M N : ℝ) : EReal) := by
    intro v
    rw [exp_coe_sub, Ideal.div_coe hpos.ne', ← EReal.coe_mul, ← EReal.coe_mul]
    congr 1; ring
  rw [hS, Finset.sum_congr rfl (fun v _ => hterm v), ← coe_sum',
    Fin.sum_univ_eq_sum_range (fun v => Real.exp (x v - M) * w v / S x M N) N, ← Finset.sum_div,
    ← A_div_S x w M N, A]

/-- A finite sum of real numbers, coerced, is the sum of the coercions. -/
theorem coe_sum {ι : Type} (s : Finset ι) (f : ι → ℝ) : ((∑ i ∈ s, f i : ℝ) : EReal) = ∑ i ∈ s, ((f i : ℝ) : EReal) := by
  exact coe_sum' s f

end SoftmaxFold

end
-- ==== Proof.KI.AttnFold.lean ====
/-
  The four key tiles of the attention kernel as one online softmax, over the reals.

  Fix a query row r and one of the two heads. The 2048 key rows are scanned in four tiles of 512: key row v is row
  v % 512 of tile v / 512. Write x v for the scaled score of row r against key row v (the dot product over the head's
  64 lanes, times 1/8) and w d v for lane d of value row v. A tile takes the head's running maximum, denominator and
  numerators from the online-softmax invariant at column 512 g to the invariant at column 512 (g + 1), the first tile
  starting from the reset state (-∞, 0, 0). After the fourth tile numerator over denominator is the softmax-weighted
  average of the value rows over all 2048 key rows, which is what the output block holds.
-/
import proofs.«411221_j41120016892169_3_alg».proof.Proof.KI.R1Step
import proofs.«411221_j41120016892169_3_alg».proof.Proof.AttnPoint
import proofs.«411221_j41120016892169_3_alg».proof.Proof.LibSoftmaxFold

noncomputable section

open scoped BigOperators

namespace Cert.Hand.AttnFold

open Idealize.ShloMosaic Idealize.ShloMosaic.ValueIdx Cert.KernelIdeal Cert.KernelIdeal.Gen Cert.KernelIdeal.Hand
open Cert.Hand.AttnPoint

/-! ## The real scores and value entries of a row, over all 2048 key rows -/

variable (qR : S1x2048x128.Idx → ℝ) (kR vR : Fin 4 → S1x512x128.Idx → ℝ)

/-- Head 0's scaled score of query row r against key row v: lanes 0..63, times 1/8. -/
def scLo (r : Fin 2048) (v : ℕ) : ℝ :=
  if hv : v < 2048 then
    (∑ j : Fin 64, qR (ix3 0 r ⟨j.val, by omega⟩)
      * kR ⟨v / 512, by omega⟩ (ix3 0 ⟨v % 512, Nat.mod_lt _ (by norm_num)⟩ ⟨j.val, by omega⟩)) * (1 / 8)
  else 0

/-- Lane c of value row v, head 0. -/
def vaLo (c : Fin 64) (v : ℕ) : ℝ :=
  if hv : v < 2048 then vR ⟨v / 512, by omega⟩ (ix3 0 ⟨v % 512, Nat.mod_lt _ (by norm_num)⟩ ⟨c.val, by omega⟩) else 0

/-- Head 1's scaled score: lanes 64..127, times 1/8. -/
def scHi (r : Fin 2048) (v : ℕ) : ℝ :=
  if hv : v < 2048 then
    (∑ j : Fin 64, qR (ix3 0 r ⟨64 + j.val, by omega⟩)
      * kR ⟨v / 512, by omega⟩ (ix3 0 ⟨v % 512, Nat.mod_lt _ (by norm_num)⟩ ⟨64 + j.val, by omega⟩)) * (1 / 8)
  else 0

/-- Lane 64 + c of value row v: head 1. -/
def vaHi (c : Fin 64) (v : ℕ) : ℝ :=
  if hv : v < 2048 then vR ⟨v / 512, by omega⟩ (ix3 0 ⟨v % 512, Nat.mod_lt _ (by norm_num)⟩ ⟨64 + c.val, by omega⟩) else 0

/-! ## Column 512 g + cc of the row is row cc of tile g -/

theorem scLo_tile (r : Fin 2048) (g : Fin 4) (cc : Fin 512) :
    scLo qR kR r (512 * g.val + cc.val)
      = (∑ j : Fin 64, qR (ix3 0 r ⟨j.val, by omega⟩) * kR g (ix3 0 cc ⟨j.val, by omega⟩)) * (1 / 8) := by
  have hv : 512 * g.val + cc.val < 2048 := by omega
  have hd : (512 * g.val + cc.val) / 512 = g.val := by omega
  have hm : (512 * g.val + cc.val) % 512 = cc.val := by omega
  unfold scLo
  rw [dif_pos hv]
  simp only [hd, hm, Fin.eta]

theorem scHi_tile (r : Fin 2048) (g : Fin 4) (cc : Fin 512) :
    scHi qR kR r (512 * g.val + cc.val)
      = (∑ j : Fin 64, qR (ix3 0 r ⟨64 + j.val, by omega⟩) * kR g (ix3 0 cc ⟨64 + j.val, by omega⟩)) * (1 / 8) := by
  have hv : 512 * g.val + cc.val < 2048 := by omega
  have hd : (512 * g.val + cc.val) / 512 = g.val := by omega
  have hm : (512 * g.val + cc.val) % 512 = cc.val := by omega
  unfold scHi
  rw [dif_pos hv]
  simp only [hd, hm, Fin.eta]

theorem vaLo_tile (c : Fin 64) (g : Fin 4) (cc : Fin 512) :
    vaLo vR c (512 * g.val + cc.val) = vR g (ix3 0 cc ⟨c.val, by omega⟩) := by
  have hv : 512 * g.val + cc.val < 2048 := by omega
  have hd : (512 * g.val + cc.val) / 512 = g.val := by omega
  have hm : (512 * g.val + cc.val) % 512 = cc.val := by omega
  unfold vaLo
  rw [dif_pos hv]
  simp only [hd, hm, Fin.eta]

theorem vaHi_tile (c : Fin 64) (g : Fin 4) (cc : Fin 512) :
    vaHi vR c (512 * g.val + cc.val) = vR g (ix3 0 cc ⟨64 + c.val, by omega⟩) := by
  have hv : 512 * g.val + cc.val < 2048 := by omega
  have hd : (512 * g.val + cc.val) / 512 = g.val := by omega
  have hm : (512 * g.val + cc.val) % 512 = cc.val := by omega
  unfold vaHi
  rw [dif_pos hv]
  simp only [hd, hm, Fin.eta]

/-! ## A tile's scores are the coerced real scores -/

/-- The scale: the pattern of 1/8. -/
theorem ofBits_eighth : Ideal.ofBits .f32 0x3E000000#32 = (((1 : ℝ) / 8 : ℝ) : EReal) := by
  simp [Ideal.ofBits, Ideal.ieee, -EReal.coe_mul]; norm_num

theorem sc0_real (q : Vec Ideal S1x2048x128 .bf16) (k : Fin 4 → Vec Ideal S1x512x128 .bf16)
    (hq : ∀ i, q i = ((qR i : ℝ) : EReal)) (hk : ∀ g i, k g i = ((kR g i : ℝ) : EReal))
    (r : Fin 2048) (g : Fin 4) (cc : Fin 512) :
    sc0 q (k g) r cc = ((scLo qR kR r (512 * g.val + cc.val) : ℝ) : EReal) := by
  rw [scLo_tile, EReal.coe_mul, SoftmaxFold.coe_sum']
  unfold sc0
  rw [ofBits_eighth]
  refine congrArg (· * (((1 : ℝ) / 8 : ℝ) : EReal)) ?_
  refine Finset.sum_congr rfl fun j _ => ?_
  rw [hq, hk, EReal.coe_mul]

theorem sc1_real (q : Vec Ideal S1x2048x128 .bf16) (k : Fin 4 → Vec Ideal S1x512x128 .bf16)
    (hq : ∀ i, q i = ((qR i : ℝ) : EReal)) (hk : ∀ g i, k g i = ((kR g i : ℝ) : EReal))
    (r : Fin 2048) (g : Fin 4) (cc : Fin 512) :
    sc1 q (k g) r cc = ((scHi qR kR r (512 * g.val + cc.val) : ℝ) : EReal) := by
  rw [scHi_tile, EReal.coe_mul, SoftmaxFold.coe_sum']
  unfold sc1
  rw [ofBits_eighth]
  refine congrArg (· * (((1 : ℝ) / 8 : ℝ) : EReal)) ?_
  refine Finset.sum_congr rfl fun j _ => ?_
  rw [hq, hk, EReal.coe_mul]

/-! ## One tile: from the invariant at column off to the invariant at column off + 512 -/

/-- One tile of 512 columns inside a row of 2048, on values: if the new maximum, denominator and numerators are the
    online-softmax update of the old ones by the tile's logits z and weights ww, and the old ones are the reset state
    (at column 0) or satisfy the invariant at column off, the new ones satisfy it at column off + 512. -/
theorem tile_inv (x : ℕ → ℝ) (w : Fin 64 → ℕ → ℝ) (off e : ℕ) (he : off + 512 = e) (hN : e ≤ 2048)
    (z : Fin 512 → EReal) (ww : Fin 64 → Fin 512 → EReal)
    (hz : ∀ cc : Fin 512, z cc = ((x (off + cc.val) : ℝ) : EReal))
    (hw : ∀ (c : Fin 64) (cc : Fin 512), ww c cc = ((w c (off + cc.val) : ℝ) : EReal))
    (m l : EReal) (a : Fin 64 → EReal) (m' l' : EReal) (a' : Fin 64 → EReal)
    (hm' : m' = max m (rmax z))
    (hl' : l' = Ideal.exp (m - max m (rmax z)) * l + ∑ cc : Fin 512, Ideal.exp (z cc - max m (rmax z)))
    (ha' : ∀ c, a' c = Ideal.exp (m - max m (rmax z)) * a c
      + ∑ cc : Fin 512, Ideal.exp (z cc - max m (rmax z)) * ww c cc)
    (h : (m = ⊥ ∧ l = 0 ∧ (∀ c, a c = 0) ∧ off = 0) ∨ SoftmaxFold.Inv x w off m l a) :
    SoftmaxFold.Inv x w e m' l' a' := by
  subst he
  have hin : ∀ cc : Fin 512, off + cc.val < 2048 := fun cc => by have := cc.isLt; omega
  have step := SoftmaxFold.Inv.step (T := 512) x w 2048 off z ww
    (fun cc => by rw [hz cc, if_pos (hin cc)]) (fun c cc => by rw [hw c cc, if_pos (hin cc)]) m l a
    (h.elim (fun h => Or.inl ⟨h.1, h.2.1, h.2.2.1, h.2.2.2, by norm_num, by norm_num⟩)
      (fun h => Or.inr ⟨h, by omega⟩))
  rw [Nat.min_eq_left hN] at step
  obtain rfl : a' = _ := funext ha'
  subst hm' hl'
  exact step

section Tiles
variable (q : Vec Ideal S1x2048x128 .bf16) (kk vv : Vec Ideal S1x512x128 .bf16) (s : Scr Ideal) (r : Fin 2048)
  (x : ℕ → ℝ) (w : Fin 64 → ℕ → ℝ) (off e : ℕ)

/-- Head 0's three vectors across one key tile, at row r. -/
theorem tile_lo (he : off + 512 = e) (hN : e ≤ 2048)
    (hz : ∀ cc : Fin 512, sc0 q kk r cc = ((x (off + cc.val) : ℝ) : EReal))
    (hw : ∀ (c : Fin 64) (cc : Fin 512), vv (ix3 0 cc ⟨c.val, by omega⟩) = ((w c (off + cc.val) : ℝ) : EReal))
    (h : ((s.1 (ix2 r 0) : EReal) = ⊥ ∧ (s.2.1 (ix2 r 0) : EReal) = 0 ∧ (∀ c : Fin 64, (s.2.2.1 (ix2 r c) : EReal) = 0)
        ∧ off = 0)
      ∨ SoftmaxFold.Inv x w off (s.1 (ix2 r 0)) (s.2.1 (ix2 r 0)) (fun c : Fin 64 => s.2.2.1 (ix2 r c))) :
    SoftmaxFold.Inv x w e ((scrStep q kk vv s).1 (ix2 r 0)) ((scrStep q kk vv s).2.1 (ix2 r 0))
      (fun c : Fin 64 => (scrStep q kk vv s).2.2.1 (ix2 r c)) :=
  tile_inv x w off e he hN (sc0 q kk r) (fun c cc => vv (ix3 0 cc ⟨c.val, by omega⟩)) hz hw
    (s.1 (ix2 r 0)) (s.2.1 (ix2 r 0)) (fun c : Fin 64 => s.2.2.1 (ix2 r c))
    ((scrStep q kk vv s).1 (ix2 r 0)) ((scrStep q kk vv s).2.1 (ix2 r 0))
    (fun c : Fin 64 => (scrStep q kk vv s).2.2.1 (ix2 r c))
    (m0_at q kk s.1 r) (l0_at q kk s.1 s.2.1 r) (fun c => a0_at q kk vv s.1 s.2.2.1 r c) h

/-- Head 1's three vectors across one key tile, at row r. -/
theorem tile_hi (he : off + 512 = e) (hN : e ≤ 2048)
    (hz : ∀ cc : Fin 512, sc1 q kk r cc = ((x (off + cc.val) : ℝ) : EReal))
    (hw : ∀ (c : Fin 64) (cc : Fin 512), vv (ix3 0 cc ⟨64 + c.val, by omega⟩) = ((w c (off + cc.val) : ℝ) : EReal))
    (h : ((s.2.2.2.1 (ix2 r 0) : EReal) = ⊥ ∧ (s.2.2.2.2.1 (ix2 r 0) : EReal) = 0
        ∧ (∀ c : Fin 64, (s.2.2.2.2.2 (ix2 r c) : EReal) = 0) ∧ off = 0)
      ∨ SoftmaxFold.Inv x w off (s.2.2.2.1 (ix2 r 0)) (s.2.2.2.2.1 (ix2 r 0)) (fun c : Fin 64 => s.2.2.2.2.2 (ix2 r c))) :
    SoftmaxFold.Inv x w e ((scrStep q kk vv s).2.2.2.1 (ix2 r 0)) ((scrStep q kk vv s).2.2.2.2.1 (ix2 r 0))
      (fun c : Fin 64 => (scrStep q kk vv s).2.2.2.2.2 (ix2 r c)) :=
  tile_inv x w off e he hN (sc1 q kk r) (fun c cc => vv (ix3 0 cc ⟨64 + c.val, by omega⟩)) hz hw
    (s.2.2.2.1 (ix2 r 0)) (s.2.2.2.2.1 (ix2 r 0)) (fun c : Fin 64 => s.2.2.2.2.2 (ix2 r c))
    ((scrStep q kk vv s).2.2.2.1 (ix2 r 0)) ((scrStep q kk vv s).2.2.2.2.1 (ix2 r 0))
    (fun c : Fin 64 => (scrStep q kk vv s).2.2.2.2.2 (ix2 r c))
    (m1_at q kk s.2.2.2.1 r) (l1_at q kk s.2.2.2.1 s.2.2.2.2.1 r) (fun c => a1_at q kk vv s.2.2.2.1 s.2.2.2.2.2 r c) h

end Tiles

/-! ## The four tiles, and the output block -/

/-- Head 0's lanes of the output block after the four key tiles: the softmax-weighted average of the value rows. -/
theorem fold_lo (q : Vec Ideal S1x2048x128 .bf16) (k v : Fin 4 → Vec Ideal S1x512x128 .bf16)
    (hq : ∀ i, q i = ((qR i : ℝ) : EReal)) (hk : ∀ g i, k g i = ((kR g i : ℝ) : EReal))
    (hv : ∀ g i, v g i = ((vR g i : ℝ) : EReal)) (r : Fin 2048) (c : Fin 64) :
    outOf (F := Ideal) (scrStep q (k 3) (v 3) (scrStep q (k 2) (v 2) (scrStep q (k 1) (v 1) (scrStep q (k 0) (v 0) scr0))))
      (ix3 0 r ⟨c.val, by omega⟩) = ((SoftmaxFold.avg (scLo qR kR r) (vaLo vR c) 2048 : ℝ) : EReal) := by
  have hz : ∀ (g : Fin 4) (off : ℕ), off = 512 * g.val → ∀ cc : Fin 512,
      sc0 q (k g) r cc = ((scLo qR kR r (off + cc.val) : ℝ) : EReal) := by
    intro g off ho cc
    subst ho
    exact sc0_real qR kR q k hq hk r g cc
  have hw : ∀ (g : Fin 4) (off : ℕ), off = 512 * g.val → ∀ (d : Fin 64) (cc : Fin 512),
      v g (ix3 0 cc ⟨d.val, by omega⟩) = ((vaLo vR d (off + cc.val) : ℝ) : EReal) := by
    intro g off ho d cc
    subst ho
    rw [vaLo_tile, hv]
  have h0 := tile_lo q (k 0) (v 0) scr0 r (scLo qR kR r) (vaLo vR) 0 512 rfl (by norm_num) (hz 0 0 rfl) (hw 0 0 rfl)
    (Or.inl ⟨reset_m r, reset_l r, fun d => reset_a r d, rfl⟩)
  have h1 := tile_lo q (k 1) (v 1) _ r (scLo qR kR r) (vaLo vR) 512 1024 rfl (by norm_num) (hz 1 512 rfl)
    (hw 1 512 rfl) (Or.inr h0)
  have h2 := tile_lo q (k 2) (v 2) _ r (scLo qR kR r) (vaLo vR) 1024 1536 rfl (by norm_num) (hz 2 1024 rfl)
    (hw 2 1024 rfl) (Or.inr h1)
  have h3 := tile_lo q (k 3) (v 3) _ r (scLo qR kR r) (vaLo vR) 1536 2048 rfl (by norm_num) (hz 3 1536 rfl)
    (hw 3 1536 rfl) (Or.inr h2)
  exact (out_at_lo _ _ _ _ r c).trans (h3.div_eq (by norm_num) c)

/-- Head 1's lanes of the output block after the four key tiles. -/
theorem fold_hi (q : Vec Ideal S1x2048x128 .bf16) (k v : Fin 4 → Vec Ideal S1x512x128 .bf16)
    (hq : ∀ i, q i = ((qR i : ℝ) : EReal)) (hk : ∀ g i, k g i = ((kR g i : ℝ) : EReal))
    (hv : ∀ g i, v g i = ((vR g i : ℝ) : EReal)) (r : Fin 2048) (c : Fin 64) :
    outOf (F := Ideal) (scrStep q (k 3) (v 3) (scrStep q (k 2) (v 2) (scrStep q (k 1) (v 1) (scrStep q (k 0) (v 0) scr0))))
      (ix3 0 r ⟨64 + c.val, by omega⟩) = ((SoftmaxFold.avg (scHi qR kR r) (vaHi vR c) 2048 : ℝ) : EReal) := by
  have hz : ∀ (g : Fin 4) (off : ℕ), off = 512 * g.val → ∀ cc : Fin 512,
      sc1 q (k g) r cc = ((scHi qR kR r (off + cc.val) : ℝ) : EReal) := by
    intro g off ho cc
    subst ho
    exact sc1_real qR kR q k hq hk r g cc
  have hw : ∀ (g : Fin 4) (off : ℕ), off = 512 * g.val → ∀ (d : Fin 64) (cc : Fin 512),
      v g (ix3 0 cc ⟨64 + d.val, by omega⟩) = ((vaHi vR d (off + cc.val) : ℝ) : EReal) := by
    intro g off ho d cc
    subst ho
    rw [vaHi_tile, hv]
  have h0 := tile_hi q (k 0) (v 0) scr0 r (scHi qR kR r) (vaHi vR) 0 512 rfl (by norm_num) (hz 0 0 rfl) (hw 0 0 rfl)
    (Or.inl ⟨reset_m' r, reset_l' r, fun d => reset_a' r d, rfl⟩)
  have h1 := tile_hi q (k 1) (v 1) _ r (scHi qR kR r) (vaHi vR) 512 1024 rfl (by norm_num) (hz 1 512 rfl)
    (hw 1 512 rfl) (Or.inr h0)
  have h2 := tile_hi q (k 2) (v 2) _ r (scHi qR kR r) (vaHi vR) 1024 1536 rfl (by norm_num) (hz 2 1024 rfl)
    (hw 2 1024 rfl) (Or.inr h1)
  have h3 := tile_hi q (k 3) (v 3) _ r (scHi qR kR r) (vaHi vR) 1536 2048 rfl (by norm_num) (hz 3 1536 rfl)
    (hw 3 1536 rfl) (Or.inr h2)
  exact (out_at_hi _ _ _ _ r c).trans (h3.div_eq (by norm_num) c)

end Cert.Hand.AttnFold

end
-- ==== Proof.KI.AttnValue.lean ====
/-
  The attention region's result array as a function of its input array, over the reals.

  The region's input is one array of 2 × 2048 × 3072 entries: for batch b and row s, columns 0..1023 hold the queries,
  1024..2047 the keys and 2048..3071 the values of the 16 heads, 64 lanes each. Grid point (b, hp, g) reads the query
  block of head pair hp (all 2048 rows, 128 lanes), and key tile g and value tile g of that pair (512 rows each). The
  four points of one (b, hp) run one online softmax per head over the 2048 key rows; the last of them stores numerator
  over denominator, which is written back as columns hp·128.. of the result. So entry (b, s, e) of the result is the
  softmax-weighted average, over the key rows v, of the value entry (v, 2048 + e), the logits being the scaled scores of
  row s against the key rows in head e / 64.
-/
import proofs.«411221_j41120016892169_3_alg».proof.Proof.KI.Val1
import proofs.«411221_j41120016892169_3_alg».proof.Proof.KI.R1Eqs
import proofs.«411221_j41120016892169_3_alg».proof.Proof.KI.AttnFold

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Hand.AttnFold

/-! ## The four points of one batch and head pair -/

section Chain
variable {F : FTy → Type} [FloatOps F]
variable (V : (c : Dev nD) → (b : Ref sig .tc) → Buf (Elt F) ((c : Thread nD τ).loc b))

theorem outsAt1_eq (c : Dev nD) {n m : ℕ} (h : n = m) (hn : n < cfg1.N) (hm : m < cfg1.N) :
    outsAt1 V c n hn = outsAt1 V c m hm := by
  subst h; rfl

/-- The six vectors after the fourth key tile of a batch and head pair: four updates of the reset state. -/
theorem scr_chain (c : Dev nD) (t0 : ℕ) (h0 : t0 % 4 = 0) (h3 : t0 + 3 < cfg1.N) :
    (outsAt1 V c (t0 + 3) h3).2
      = scrStep (xq V c ⟨t0 + 3, h3⟩) (xk V c ⟨t0 + 3, h3⟩) (xv V c ⟨t0 + 3, h3⟩)
          (scrStep (xq V c ⟨t0 + 2, by omega⟩) (xk V c ⟨t0 + 2, by omega⟩) (xv V c ⟨t0 + 2, by omega⟩)
            (scrStep (xq V c ⟨t0 + 1, by omega⟩) (xk V c ⟨t0 + 1, by omega⟩) (xv V c ⟨t0 + 1, by omega⟩)
              (scrStep (xq V c ⟨t0, by omega⟩) (xk V c ⟨t0, by omega⟩) (xv V c ⟨t0, by omega⟩) scr0))) := by
  have h2 : t0 + 2 < cfg1.N := by omega
  have h1 : t0 + 1 < cfg1.N := by omega
  have h0' : t0 < cfg1.N := by omega
  have e3 := outsAt1_next V c ⟨t0 + 3, h3⟩ (by show (t0 + 3) % 4 ≠ 0; omega) (by show t0 + 3 - 1 < cfg1.N; omega)
  have e2 := outsAt1_next V c ⟨t0 + 2, h2⟩ (by show (t0 + 2) % 4 ≠ 0; omega) (by show t0 + 2 - 1 < cfg1.N; omega)
  have e1 := outsAt1_next V c ⟨t0 + 1, h1⟩ (by show (t0 + 1) % 4 ≠ 0; omega) (by show t0 + 1 - 1 < cfg1.N; omega)
  have e0 := outsAt1_first V c ⟨t0, h0'⟩ h0
  refine e3.trans (congrArg (scrStep _ _ _) ?_)
  refine (congrArg Prod.snd (outsAt1_eq V c (by show t0 + 3 - 1 = t0 + 2; omega) _ h2)).trans ?_
  refine e2.trans (congrArg (scrStep _ _ _) ?_)
  refine (congrArg Prod.snd (outsAt1_eq V c (by show t0 + 2 - 1 = t0 + 1; omega) _ h1)).trans ?_
  refine e1.trans (congrArg (scrStep _ _ _) ?_)
  refine (congrArg Prod.snd (outsAt1_eq V c (by show t0 + 1 - 1 = t0; omega) _ h0')).trans ?_
  exact e0

end Chain

/-! ## The blocks of a point as real arrays -/

/-- An index of a [1, n1, n2] block is (0, its row, its lane). -/
theorem idx3_one {n1 n2 : ℕ} (i : (⟨3, ![1, n1, n2]⟩ : Shape).Idx) : i = ix3 0 (i 1) (i 2) := by
  funext a
  match a with
  | ⟨0, _⟩ =>
    apply Fin.ext
    show (i 0).val = 0
    have h : (i 0).val < 1 := (i 0).isLt
    omega
  | ⟨1, _⟩ => rfl
  | ⟨2, _⟩ => rfl

section Blocks
variable (P : Fin 2 → Fin 2048 → Fin 3072 → ℝ) (b : Fin 2) (hp : Fin 8)

/-- The query block of head pair hp, batch b. -/
def qOf : S1x2048x128.Idx → ℝ := fun i =>
  P b ⟨(i 1).val, (i 1).isLt⟩
    ⟨hp.val * 128 + (i 2).val, by have := hp.isLt; have h2 : (i 2).val < 128 := (i 2).isLt; omega⟩

/-- Key tile g of head pair hp, batch b. -/
def kOf (g : Fin 4) : S1x512x128.Idx → ℝ := fun i =>
  P b ⟨g.val * 512 + (i 1).val, by have := g.isLt; have h1 : (i 1).val < 512 := (i 1).isLt; omega⟩
    ⟨1024 + hp.val * 128 + (i 2).val, by have := hp.isLt; have h2 : (i 2).val < 128 := (i 2).isLt; omega⟩

/-- Value tile g of head pair hp, batch b. -/
def vOf (g : Fin 4) : S1x512x128.Idx → ℝ := fun i =>
  P b ⟨g.val * 512 + (i 1).val, by have := g.isLt; have h1 : (i 1).val < 512 := (i 1).isLt; omega⟩
    ⟨2048 + hp.val * 128 + (i 2).val, by have := hp.isLt; have h2 : (i 2).val < 128 := (i 2).isLt; omega⟩

theorem qOf_at (r : Fin 2048) (l : Fin 128) :
    qOf P b hp (ix3 0 r l) = P b r ⟨hp.val * 128 + l.val, by have := hp.isLt; have := l.isLt; omega⟩ := rfl

theorem kOf_at (g : Fin 4) (r : Fin 512) (l : Fin 128) :
    kOf P b hp g (ix3 0 r l) = P b ⟨g.val * 512 + r.val, by have := g.isLt; have := r.isLt; omega⟩
      ⟨1024 + hp.val * 128 + l.val, by have := hp.isLt; have := l.isLt; omega⟩ := rfl

theorem vOf_at (g : Fin 4) (r : Fin 512) (l : Fin 128) :
    vOf P b hp g (ix3 0 r l) = P b ⟨g.val * 512 + r.val, by have := g.isLt; have := r.isLt; omega⟩
      ⟨2048 + hp.val * 128 + l.val, by have := hp.isLt; have := l.isLt; omega⟩ := rfl

end Blocks

section Value
variable (V : (c : Dev nD) → (b : Ref sig .tc) → Buf (Elt Ideal) ((c : Thread nD τ).loc b))
variable (c : Dev nD) (P : Fin 2 → Fin 2048 → Fin 3072 → ℝ)
  (hP : ∀ b s e, (V c main_v12 : S2x2048x3072.Idx → EReal) (ix3 b s e) = ((P b s e : ℝ) : EReal))

include hP in
theorem xq_real (t : Fin cfg1.N) (b : Fin 2) (hp : Fin 8) (g : Fin 4) (ht : t.val = b.val * 32 + hp.val * 4 + g.val)
    (i : S1x2048x128.Idx) : xq V c t i = ((qOf P b hp i : ℝ) : EReal) := by
  exact (congrArg (xq V c t) (idx3_one (n1 := 2048) (n2 := 128) i)).trans
    ((iblk1_0_pt V c t b hp g ht (i 1) (i 2)).trans (hP _ _ _))

include hP in
theorem xk_real (t : Fin cfg1.N) (b : Fin 2) (hp : Fin 8) (g : Fin 4) (ht : t.val = b.val * 32 + hp.val * 4 + g.val)
    (i : S1x512x128.Idx) : xk V c t i = ((kOf P b hp g i : ℝ) : EReal) := by
  exact (congrArg (xk V c t) (idx3_one (n1 := 512) (n2 := 128) i)).trans
    ((iblk1_1_pt V c t b hp g ht (i 1) (i 2)).trans (hP _ _ _))

include hP in
theorem xv_real (t : Fin cfg1.N) (b : Fin 2) (hp : Fin 8) (g : Fin 4) (ht : t.val = b.val * 32 + hp.val * 4 + g.val)
    (i : S1x512x128.Idx) : xv V c t i = ((vOf P b hp g i : ℝ) : EReal) := by
  exact (congrArg (xv V c t) (idx3_one (n1 := 512) (n2 := 128) i)).trans
    ((iblk1_2_pt V c t b hp g ht (i 1) (i 2)).trans (hP _ _ _))

end Value

/-! ## The real logits and weights of an output column -/

theorem P_congr (P : Fin 2 → Fin 2048 → Fin 3072 → ℝ) (b : Fin 2) {s s' : Fin 2048} {e e' : Fin 3072}
    (hs : s.val = s'.val) (he : e.val = e'.val) : P b s e = P b s' e' := by
  rw [Fin.ext hs, Fin.ext he]

section Columns
variable (P : Fin 2 → Fin 2048 → Fin 3072 → ℝ) (b : Fin 2) (hp : Fin 8) (e : Fin 1024)

/-- Head 0 of the pair: its 64 query columns start at hp·128 = (e / 64)·64. -/
theorem scLo_P (hh : hp.val * 128 = e.val / 64 * 64) (s : Fin 2048) :
    scLo (qOf P b hp) (kOf P b hp) s = fun v => if hv : v < 2048 then
      (∑ j : Fin 64, P b s ⟨(e.val / 64) * 64 + j.val, by omega⟩
        * P b ⟨v, hv⟩ ⟨1024 + (e.val / 64) * 64 + j.val, by omega⟩) * (1 / 8) else 0 := by
  funext v
  unfold scLo
  by_cases hv : v < 2048
  · rw [dif_pos hv, dif_pos hv]
    refine congrArg (· * (1 / 8 : ℝ)) (Finset.sum_congr rfl fun j _ => ?_)
    rw [qOf_at, kOf_at]
    have hj := j.isLt
    refine congrArg₂ (· * ·) (P_congr P b rfl ?_) (P_congr P b ?_ ?_)
    · show hp.val * 128 + j.val = e.val / 64 * 64 + j.val; omega
    · show v / 512 * 512 + v % 512 = v; omega
    · show 1024 + hp.val * 128 + j.val = 1024 + e.val / 64 * 64 + j.val; omega
  · rw [dif_neg hv, dif_neg hv]

/-- Head 1 of the pair: its 64 query columns start at hp·128 + 64 = (e / 64)·64. -/
theorem scHi_P (hh : hp.val * 128 + 64 = e.val / 64 * 64) (s : Fin 2048) :
    scHi (qOf P b hp) (kOf P b hp) s = fun v => if hv : v < 2048 then
      (∑ j : Fin 64, P b s ⟨(e.val / 64) * 64 + j.val, by omega⟩
        * P b ⟨v, hv⟩ ⟨1024 + (e.val / 64) * 64 + j.val, by omega⟩) * (1 / 8) else 0 := by
  funext v
  unfold scHi
  by_cases hv : v < 2048
  · rw [dif_pos hv, dif_pos hv]
    refine congrArg (· * (1 / 8 : ℝ)) (Finset.sum_congr rfl fun j _ => ?_)
    rw [qOf_at, kOf_at]
    have hj := j.isLt
    refine congrArg₂ (· * ·) (P_congr P b rfl ?_) (P_congr P b ?_ ?_)
    · show hp.val * 128 + (64 + j.val) = e.val / 64 * 64 + j.val; omega
    · show v / 512 * 512 + v % 512 = v; omega
    · show 1024 + hp.val * 128 + (64 + j.val) = 1024 + e.val / 64 * 64 + j.val; omega
  · rw [dif_neg hv, dif_neg hv]

/-- The value column of output column e = hp·128 + d is 2048 + e. -/
theorem vaLo_P (d : Fin 64) (hd : hp.val * 128 + d.val = e.val) :
    vaLo (vOf P b hp) d = fun v => if hv : v < 2048 then P b ⟨v, hv⟩ ⟨2048 + e.val, by omega⟩ else 0 := by
  funext v
  unfold vaLo
  by_cases hv : v < 2048
  · rw [dif_pos hv, dif_pos hv, vOf_at]
    refine P_congr P b ?_ ?_
    · show v / 512 * 512 + v % 512 = v; omega
    · show 2048 + hp.val * 128 + d.val = 2048 + e.val; omega
  · rw [dif_neg hv, dif_neg hv]

/-- The value column of output column e = hp·128 + 64 + d is 2048 + e. -/
theorem vaHi_P (d : Fin 64) (hd : hp.val * 128 + (64 + d.val) = e.val) :
    vaHi (vOf P b hp) d = fun v => if hv : v < 2048 then P b ⟨v, hv⟩ ⟨2048 + e.val, by omega⟩ else 0 := by
  funext v
  unfold vaHi
  by_cases hv : v < 2048
  · rw [dif_pos hv, dif_pos hv, vOf_at]
    refine P_congr P b ?_ ?_
    · show v / 512 * 512 + v % 512 = v; omega
    · show 2048 + hp.val * 128 + (64 + d.val) = 2048 + e.val; omega
  · rw [dif_neg hv, dif_neg hv]

end Columns

/-! ## The stored block, and the result array -/

section Result
variable (V : (c : Dev nD) → (b : Ref sig .tc) → Buf (Elt Ideal) ((c : Thread nD τ).loc b))
variable (c : Dev nD) (P : Fin 2 → Fin 2048 → Fin 3072 → ℝ)
  (hP : ∀ b s e, (V c main_v12 : S2x2048x3072.Idx → EReal) (ix3 b s e) = ((P b s e : ℝ) : EReal))

include hP in
/-- Head 0's lanes of the block stored at the last key tile of batch b, head pair hp. -/
theorem out_lo (b : Fin 2) (hp : Fin 8) (h3 : b.val * 32 + hp.val * 4 + 3 < cfg1.N) (s : Fin 2048) (d : Fin 64) :
    (outsAt1 V c (b.val * 32 + hp.val * 4 + 3) h3).1 (ix3 0 s ⟨d.val, by omega⟩)
      = ((SoftmaxFold.avg (scLo (qOf P b hp) (kOf P b hp) s) (vaLo (vOf P b hp) d) 2048 : ℝ) : EReal) := by
  refine (congrFun (outsAt1_out V c ⟨_, h3⟩ (by show (b.val * 32 + hp.val * 4 + 3) % 4 = 3; omega)) _).trans ?_
  refine (congrArg (fun S => outOf S (ix3 0 s ⟨d.val, by omega⟩))
    (scr_chain V c (b.val * 32 + hp.val * 4) (by omega) h3)).trans ?_
  have e3 : xq V c ⟨b.val * 32 + hp.val * 4 + 3, h3⟩ = fun i => ((qOf P b hp i : ℝ) : EReal) :=
    funext (xq_real V c P hP _ b hp 3 rfl)
  have e2 : xq V c ⟨b.val * 32 + hp.val * 4 + 2, by omega⟩ = fun i => ((qOf P b hp i : ℝ) : EReal) :=
    funext (xq_real V c P hP _ b hp 2 rfl)
  have e1 : xq V c ⟨b.val * 32 + hp.val * 4 + 1, by omega⟩ = fun i => ((qOf P b hp i : ℝ) : EReal) :=
    funext (xq_real V c P hP _ b hp 1 rfl)
  have e0 : xq V c ⟨b.val * 32 + hp.val * 4, by omega⟩ = fun i => ((qOf P b hp i : ℝ) : EReal) :=
    funext (xq_real V c P hP _ b hp 0 rfl)
  beta_reduce
  rw [e3, e2, e1, e0]
  exact fold_lo (qOf P b hp) (kOf P b hp) (vOf P b hp) (fun i => ((qOf P b hp i : ℝ) : EReal))
    (fun g => xk V c ⟨b.val * 32 + hp.val * 4 + g.val, by have := g.isLt; omega⟩)
    (fun g => xv V c ⟨b.val * 32 + hp.val * 4 + g.val, by have := g.isLt; omega⟩)
    (fun i => rfl) (fun g i => xk_real V c P hP _ b hp g rfl i) (fun g i => xv_real V c P hP _ b hp g rfl i) s d

include hP in
/-- Head 1's lanes of that block. -/
theorem out_hi (b : Fin 2) (hp : Fin 8) (h3 : b.val * 32 + hp.val * 4 + 3 < cfg1.N) (s : Fin 2048) (d : Fin 64) :
    (outsAt1 V c (b.val * 32 + hp.val * 4 + 3) h3).1 (ix3 0 s ⟨64 + d.val, by omega⟩)
      = ((SoftmaxFold.avg (scHi (qOf P b hp) (kOf P b hp) s) (vaHi (vOf P b hp) d) 2048 : ℝ) : EReal) := by
  refine (congrFun (outsAt1_out V c ⟨_, h3⟩ (by show (b.val * 32 + hp.val * 4 + 3) % 4 = 3; omega)) _).trans ?_
  refine (congrArg (fun S => outOf S (ix3 0 s ⟨64 + d.val, by omega⟩))
    (scr_chain V c (b.val * 32 + hp.val * 4) (by omega) h3)).trans ?_
  have e3 : xq V c ⟨b.val * 32 + hp.val * 4 + 3, h3⟩ = fun i => ((qOf P b hp i : ℝ) : EReal) :=
    funext (xq_real V c P hP _ b hp 3 rfl)
  have e2 : xq V c ⟨b.val * 32 + hp.val * 4 + 2, by omega⟩ = fun i => ((qOf P b hp i : ℝ) : EReal) :=
    funext (xq_real V c P hP _ b hp 2 rfl)
  have e1 : xq V c ⟨b.val * 32 + hp.val * 4 + 1, by omega⟩ = fun i => ((qOf P b hp i : ℝ) : EReal) :=
    funext (xq_real V c P hP _ b hp 1 rfl)
  have e0 : xq V c ⟨b.val * 32 + hp.val * 4, by omega⟩ = fun i => ((qOf P b hp i : ℝ) : EReal) :=
    funext (xq_real V c P hP _ b hp 0 rfl)
  beta_reduce
  rw [e3, e2, e1, e0]
  exact fold_hi (qOf P b hp) (kOf P b hp) (vOf P b hp) (fun i => ((qOf P b hp i : ℝ) : EReal))
    (fun g => xk V c ⟨b.val * 32 + hp.val * 4 + g.val, by have := g.isLt; omega⟩)
    (fun g => xv V c ⟨b.val * 32 + hp.val * 4 + g.val, by have := g.isLt; omega⟩)
    (fun i => rfl) (fun g i => xk_real V c P hP _ b hp g rfl i) (fun g i => xv_real V c P hP _ b hp g rfl i) s d

include hP in
/-- Entry (b, s, e) of the attention region's result: the softmax-weighted average over the 2048 key rows of the value
    column 2048 + e, the logits being the scaled scores of row s in head e / 64. -/
theorem attn_of_P (b : Fin 2) (s : Fin 2048) (e : Fin 1024) :
    ((dat1 (F := Ideal) V c).arrAt 3 cfg1.N : S2x2048x1024.Idx → EReal) (ix3 b s e)
      = ((SoftmaxFold.avg
          (fun v => if hv : v < 2048 then
            (∑ j : Fin 64, P b s ⟨(e.val / 64) * 64 + j.val, by omega⟩
              * P b ⟨v, hv⟩ ⟨1024 + (e.val / 64) * 64 + j.val, by omega⟩) * (1 / 8) else 0)
          (fun v => if hv : v < 2048 then P b ⟨v, hv⟩ ⟨2048 + e.val, by omega⟩ else 0) 2048 : ℝ) : EReal) := by
  have he := e.isLt
  refine (arr1_final V c b s e).trans ?_
  by_cases hlo : e.val % 128 < 64
  · refine (out_lo V c P hP b ⟨e.val / 128, by omega⟩ (fl_lt1 b e) s ⟨e.val % 128, hlo⟩).trans ?_
    exact congrArg₂ (fun x w => ((SoftmaxFold.avg x w 2048 : ℝ) : EReal))
      (scLo_P P b ⟨e.val / 128, by omega⟩ e (by show e.val / 128 * 128 = e.val / 64 * 64; omega) s)
      (vaLo_P P b ⟨e.val / 128, by omega⟩ e ⟨e.val % 128, hlo⟩ (by show e.val / 128 * 128 + e.val % 128 = e.val; omega))
  · have hl : (⟨e.val % 128, Nat.mod_lt _ (by decide)⟩ : Fin 128) = ⟨64 + (e.val % 128 - 64), by omega⟩ :=
      Fin.ext (by show e.val % 128 = 64 + (e.val % 128 - 64); omega)
    rw [hl]
    refine (out_hi V c P hP b ⟨e.val / 128, by omega⟩ (fl_lt1 b e) s ⟨e.val % 128 - 64, by omega⟩).trans ?_
    exact congrArg₂ (fun x w => ((SoftmaxFold.avg x w 2048 : ℝ) : EReal))
      (scHi_P P b ⟨e.val / 128, by omega⟩ e (by show e.val / 128 * 128 + 64 = e.val / 64 * 64; omega) s)
      (vaHi_P P b ⟨e.val / 128, by omega⟩ e ⟨e.val % 128 - 64, by omega⟩
        (by show e.val / 128 * 128 + (64 + (e.val % 128 - 64)) = e.val; omega))

end Result

end Cert.KernelIdeal.Hand

end
-- ==== Proof.KI.Val2.lean ====
/-
  The output projection, from blocks to the array. Grid point i of the 4 × 1 grid writes back row block i of the output:
  rows i·1024.. , all 1024 columns. At a point the body's stored block is, entry by entry, the dot product of a row of the
  block of the heads' outputs with a row of the whole weight array plus the bias entry; the block is rows i·1024.. of the
  input. So each written block is the restriction of ONE function of the three whole arrays,
  entry (r, d) ↦ ∑ k, v (r, k) · w (d, k) + b (0, d); the four blocks tile the output, every point writes its block
  back, hence the output array after the run is that function.
-/
import proofs.«411221_j41120016892169_3_alg».proof.Proof.KI.R2
import proofs.«411221_j41120016892169_3_alg».proof.Proof.LinPoint
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The whole array as one function of the three argument arrays -/

/-- Entry (r, d) of v · wᵀ + b. -/
def lin2R (X : S4096x1024.Idx → EReal) (W : S1024x1024.Idx → EReal) (B : S1x1024.Idx → EReal) (r : Fin 4096) (d : Fin 1024) : EReal :=
  (∑ k : Fin 1024, X (ix2 r k) * W (ix2 d k)) + B (ix2 0 d)

/-- The array of those entries. -/
def lin2G (X : S4096x1024.Idx → EReal) (W : S1024x1024.Idx → EReal) (B : S1x1024.Idx → EReal) : S4096x1024.Idx → EReal :=
  fun i => lin2R X W B (i 0) (i 1)

theorem zero_off2 : (![0, 0] : Fin 2 → Nat) = fun _ => 0 := funext fun a => by fin_cases a <;> rfl

/-! ## One grid point -/

/-- If the first block is rows i·1024.. of X and the other two are W and B whole, the body's stored block is row
    block i of the array of entries. -/
theorem lin2_block (X : S4096x1024.Idx → EReal) (W : S1024x1024.Idx → EReal) (B : S1x1024.Idx → EReal)
    (x0 : Vec Ideal S1024x1024 .bf16) (x1 : Vec Ideal S1024x1024 .bf16) (x2 : Vec Ideal S1x1024 .f32)
    (i : Nat) (hi : i ≤ 3)
    (h0 : ∀ (p : Fin 1024) (k : Fin 1024), x0 (ix2 p k) = X (ix2 ⟨i * 1024 + p.val, by have := p.isLt; omega⟩ k))
    (h1 : ∀ (q : Fin 1024) (k : Fin 1024), x1 (ix2 q k) = W (ix2 q k))
    (h2 : ∀ (q : Fin 1024), x2 (ix2 0 q) = B (ix2 0 q))
    (y : S1024x1024.Idx) :
    k2_pay1 (F := Ideal) x0 x1 x2 y
      = lin2R X W B ⟨i * 1024 + (y 0).val, by have := idx2_lt0 y; omega⟩ ⟨(y 1).val, idx2_lt1 y⟩ := by
  obtain ⟨p, q, rfl⟩ : ∃ (p : Fin 1024) (q : Fin 1024), y = ix2 p q := ⟨y 0, y 1, eq_ix2 y⟩
  rw [Cert.Hand.LinPoint.lin2_at]
  unfold lin2R
  rw [h2 q]
  refine congrArg₂ (· + ·) (Finset.sum_congr rfl fun k _ => ?_) rfl
  rw [h0 p k, h1 q k]

/-- The printed index maps over the grid: the first block moves with the output's row block, every other block index
    is 0, and the output's row block index stays in range. -/
theorem idx_rel2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 3 ∧ win2_3.index t (1 : Fin 2) = 0 :=
  (by decide +kernel : ∀ t : Fin grid2.N, _)

/-- Every row block of the output is some point's. -/
theorem idx_onto2 : ∀ (a : Fin 4), ∃ t : Fin cfg2.N, win2_3.index t = ![a.val, 0] :=
  (by decide +kernel : ∀ (a : Fin 4), ∃ t : Fin grid2.N, win2_3.index t = ![a.val, 0])

/-- What point t writes back is block t of the array of entries. -/
theorem flushed2_eq (c : Dev nD) (t : Fin cfg2.N) :
    (dat2 (F := Ideal) V c).flushed 3 t = ((cfg2.win 3).blk t).view.read (Elt Ideal) (lin2G (V c main_v14) (V c main_v8) (V c main_v15)) := by
  show (cfg2.win 3).cut (grid2.coords t) ((dat2 V c).after 3 t) = _
  rw [after2_3]
  unfold out2_3
  rw [View.canon_unit_zero zero_off2]
  simp only [View.ld_unit_zero (S := S1024x1024) zero_off2, View.ld_unit_zero (S := S1x1024) zero_off2]
  obtain ⟨e0, e1, e2, e3, e4, e5, e6, e7⟩ := idx_rel2 t
  funext y
  show k2_pay1 (iblk2 V c 0 t) (iblk2 V c 1 t) (iblk2 V c 2 t) y
    = lin2G (V c main_v14) (V c main_v8) (V c main_v15) (((cfg2.win 3).blk t).view.emb y)
  refine (lin2_block (V c main_v14) (V c main_v8) (V c main_v15) (iblk2 V c 0 t) (iblk2 V c 1 t) (iblk2 V c 2 t)
    (win2_3.index t (0 : Fin 2)) e6 ?_ ?_ ?_ y).trans ?_
  · intro p k
    show V c main_v14 (((cfg2.win 0).blk t).view.emb (ix2 p k)) = _
    refine congrArg (V c main_v14) (funext fun a => Fin.ext ?_)
    match a with
    | ⟨0, _⟩ => show win2_0.index t (0 : Fin 2) * 1024 + 1 * p.val = win2_3.index t (0 : Fin 2) * 1024 + p.val; omega
    | ⟨1, _⟩ => show win2_0.index t (1 : Fin 2) * 1024 + 1 * k.val = k.val; omega
  · intro q k
    show V c main_v8 (((cfg2.win 1).blk t).view.emb (ix2 q k)) = _
    refine congrArg (V c main_v8) (funext fun a => Fin.ext ?_)
    match a with
    | ⟨0, _⟩ => show win2_1.index t (0 : Fin 2) * 1024 + 1 * q.val = q.val; omega
    | ⟨1, _⟩ => show win2_1.index t (1 : Fin 2) * 1024 + 1 * k.val = k.val; omega
  · intro q
    show V c main_v15 (((cfg2.win 2).blk t).view.emb (ix2 0 q)) = _
    refine congrArg (V c main_v15) (funext fun a => Fin.ext ?_)
    match a with
    | ⟨0, _⟩ => show win2_2.index t (0 : Fin 2) * 1 + 1 * 0 = 0; omega
    | ⟨1, _⟩ => show win2_2.index t (1 : Fin 2) * 1024 + 1 * q.val = q.val; omega
  · unfold lin2G
    refine congrArg₂ (lin2R (V c main_v14) (V c main_v8) (V c main_v15)) (Fin.ext ?_) (Fin.ext ?_)
    · show win2_3.index t (0 : Fin 2) * 1024 + (y 0).val = win2_3.index t (0 : Fin 2) * 1024 + 1 * (y 0).val; omega
    · show (y 1).val = win2_3.index t (1 : Fin 2) * 1024 + 1 * (y 1).val; omega

/-! ## The blocks tile the array -/

/-- An index of the array is in point t's block iff each coordinate is in the block's range on its axis. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v16).slice (win2_3.rect t)).set ↔ _
  rw [View.set_slice_whole, Rect.mem_set_unit]
  exact Iff.rfl

/-- Entry (r, d) lies in the block of the point with row block r / 1024, which writes back. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## The array after the run -/

/-- The output array after all points is the array of entries of the arrays the region found. -/
theorem arr2_eq (c : Dev nD) :
    (dat2 (F := Ideal) V c).arrAt 3 cfg2.N = lin2G (V c main_v14) (V c main_v8) (V c main_v15) :=
  (dat2 (F := Ideal) V c).arrAt_eq_of_cover 3 (lin2G (V c main_v14) (V c main_v8) (V c main_v15))
    (fun t _ => flushed2_eq V c t) cover2

/-- Entry (r, d) of the output array after the run. -/
theorem arr2_final (c : Dev nD) (r : Fin 4096) (d : Fin 1024) :
    ((dat2 (F := Ideal) V c).arrAt 3 cfg2.N : S4096x1024.Idx → EReal) (ix2 r d)
      = lin2R (V c main_v14) (V c main_v8) (V c main_v15) r d :=
  congrFun (arr2_eq V c) (ix2 r d)

/-- The entry written out. -/
theorem lin2R_def (X : S4096x1024.Idx → EReal) (W : S1024x1024.Idx → EReal) (B : S1x1024.Idx → EReal) (r : Fin 4096) (d : Fin 1024) :
    lin2R X W B r d = (∑ k : Fin 1024, X (ix2 r k) * W (ix2 d k)) + B (ix2 0 d) := rfl

end Cert.KernelIdeal.Hand

end
-- ==== Proof.Spec.lean ====
/-
  Multi-head attention over the reals: the one function both programs compute.

  Inputs: x[2, 2048, 1024], the projection weights w[3072, 1024] and bias bq[3072], the output weights ow[1024, 1024] and
  bias ob[1024]. The projection's column e = h·192 + t·64 + j holds, for head h (16 heads of width 64), the query (t = 0),
  key (t = 1) or value (t = 2) lane j. For a batch b, a head h and a query row r the score against key row v is the dot
  product of the query and key lanes times 1/8; the attention output at lane j is the softmax-weighted average of the
  value lane j over the 2048 key rows; heads are laid side by side (column h·64 + j) and projected by ow, plus ob.
-/
import proofs.«411221_j41120016892169_3_alg».proof.Proof.LibSoftmaxFold
import Idealize.ShloMosaic.Lib.ValueIdx
import Mathlib.Algebra.BigOperators.Fin

noncomputable section

open scoped BigOperators

namespace Cert.Hand.Spec

open Idealize.ShloMosaic Idealize.ShloMosaic.ValueIdx

/-- Real arrays of the five argument shapes. -/
abbrev XArr := (⟨3, ![2, 2048, 1024]⟩ : Shape).Idx → ℝ
abbrev WArr := (⟨2, ![3072, 1024]⟩ : Shape).Idx → ℝ
abbrev BArr := (⟨1, ![3072]⟩ : Shape).Idx → ℝ
abbrev OWArr := (⟨2, ![1024, 1024]⟩ : Shape).Idx → ℝ
abbrev OBArr := (⟨1, ![1024]⟩ : Shape).Idx → ℝ

variable (x : XArr) (w : WArr) (bq : BArr) (ow : OWArr) (ob : OBArr)

/-- The projection x · wᵀ + bq at batch b, row s, column e. -/
def qkvR (b : Fin 2) (s : Fin 2048) (e : Fin 3072) : ℝ :=
  (∑ d : Fin 1024, x (ix3 b s d) * w (ix2 e d)) + bq (ix1 e)

/-- The projection's column of head h, part t (0 query, 1 key, 2 value), lane j. -/
def col (h : Fin 16) (t : Fin 3) (j : Fin 64) : Fin 3072 := ⟨h.val * 192 + t.val * 64 + j.val, by omega⟩

/-- The scaled score of query row r against key row v (0 past the last row). -/
def scoreR (b : Fin 2) (h : Fin 16) (r : Fin 2048) (v : ℕ) : ℝ :=
  if hv : v < 2048 then (∑ j : Fin 64, qkvR x w bq b r (col h 0 j) * qkvR x w bq b ⟨v, hv⟩ (col h 1 j)) * (1 / 8) else 0

/-- The value lane j of key row v (0 past the last row). -/
def valR (b : Fin 2) (h : Fin 16) (j : Fin 64) (v : ℕ) : ℝ :=
  if hv : v < 2048 then qkvR x w bq b ⟨v, hv⟩ (col h 2 j) else 0

/-- One head's attention output: the softmax-weighted average of the value lane over the key rows. -/
def attnR (b : Fin 2) (h : Fin 16) (r : Fin 2048) (j : Fin 64) : ℝ :=
  SoftmaxFold.avg (scoreR x w bq b h r) (valR x w bq b h j) 2048

/-- The heads side by side: column e = h·64 + j. -/
def valsR (b : Fin 2) (s : Fin 2048) (e : Fin 1024) : ℝ :=
  attnR x w bq b ⟨e.val / 64, by omega⟩ s ⟨e.val % 64, Nat.mod_lt _ (by norm_num)⟩

/-- The result: the heads' outputs projected by ow, plus ob. -/
def outR (b : Fin 2) (s : Fin 2048) (d : Fin 1024) : ℝ :=
  (∑ e : Fin 1024, valsR x w bq b s e * ow (ix2 d e)) + ob (ix1 d)

end Cert.Hand.Spec

end
-- ==== Proof.KI.OutValue.lean ====
/-
  The output projection on real arguments. After the last pipeline the result array holds, at row b·2048 + s and
  column d, the dot product of row b·2048 + s of the heads' outputs with row d of the output weights plus the bias
  entry d. The heads' outputs reach the pipeline through a reshape that merges batch and sequence position into rows;
  the weights and the bias are the launch arguments, carried unchanged through every item in between (the weights after
  a change of float format, the identity on extended reals; the bias as a one-row matrix); the result is split back into
  batch and sequence position. So when the attention pipeline leaves the specification's heads' outputs, the program's
  result is the specification's.
-/
import proofs.«411221_j41120016892169_3_alg».proof.Proof.KI.RunVals
import proofs.«411221_j41120016892169_3_alg».proof.Proof.KI.Val2
import proofs.«411221_j41120016892169_3_alg».proof.Proof.KI.HostGlue
import proofs.«411221_j41120016892169_3_alg».proof.Proof.Spec
import proofs.«411221_j41120016892169_3_alg».proof.Proof.LibSoftmaxFold

set_option maxRecDepth 16384

noncomputable section

open scoped BigOperators

namespace Cert.KernelIdeal.Hand

open Idealize.ShloMosaic Idealize.ShloMosaic.TcCoe
open Idealize.SL.Sem
open Cert.KernelIdeal Cert.KernelIdeal.Gen
open Idealize.ShloMosaic.ValueIdx
open Cert.Hand.Spec

variable (m : (ℓ : Loc nD τ sig) → Buf (Elt Ideal) ℓ)

/-! ## Buffers no item in between writes -/

/-- The stretch before the attention pipeline leaves alone every buffer it does not write. -/
theorem U3_keep (c : Dev nD) (r : Ref sig .tc) (h : r ∉ Gen.hostOps1_W) : U3 m c r = U2 m c r := by
  have e := Gen.V3_of m (outsK m) c r h
  rwa [V3_eq, V2_eq] at e

/-- The stretch before the last pipeline leaves alone every buffer it does not write. -/
theorem U5_keep (c : Dev nD) (r : Ref sig .tc) (h : r ∉ Gen.hostOps2_W) : U5 m c r = U4 m c r := by
  have e := Gen.V5_of m (outsK m) c r h
  rwa [V5_eq, V4_eq] at e

/-- The output weights as the last pipeline finds them are as the first stretch left them. -/
theorem U5_v8 (c : Dev nD) : U5 m c main_v8 = Gen.V1 m c main_v8 :=
  (U5_keep m c main_v8 (by decide)).trans <| (U4_of m c main_v8 (by decide)).trans <|
    (U3_keep m c main_v8 (by decide)).trans <| U2_of m c main_v8 (by decide)

/-- The output bias after the attention pipeline is the launch argument. -/
theorem U4_arg4 (c : Dev nD) : U4 m c main_arg4 = m ((c : Thread nD τ).loc main_arg4) :=
  (U4_of m c main_arg4 (by decide)).trans <| (U3_keep m c main_arg4 (by decide)).trans <|
    (U2_of m c main_arg4 (by decide)).trans <| (Gen.V1_of m c main_arg4 (by decide)).trans rfl

/-! ## The result -/

/-- If the attention pipeline leaves the specification's heads' outputs, the program's result is the specification's. -/
theorem out_of_vals (c : Dev nD) (x : XArr) (w : WArr) (bq : BArr) (ow : OWArr) (ob : OBArr)
    (hvals : ∀ b s e, (U4 m c main_v13 : S2x2048x1024.Idx → EReal) (ix3 b s e) = ((valsR x w bq b s e : ℝ) : EReal))
    (h3 : m ((c : Thread nD τ).loc main_arg3) = fun i => ((ow i : ℝ) : EReal))
    (h4 : m ((c : Thread nD τ).loc main_arg4) = fun i => ((ob i : ℝ) : EReal))
    (b : Fin 2) (s : Fin 2048) (d : Fin 1024) :
    (U7 m c main_v17 : S2x2048x1024.Idx → EReal) (ix3 b s d) = ((outR x w bq ow ob b s d : ℝ) : EReal) := by
  have e1 := hg_v17 (U6 m c) b s d
  refine e1.trans ?_
  have e2 : (U6 m c main_v16 : S4096x1024.Idx → EReal) = (dat2 (F := Ideal) (atTc (U5 m)) c).arrAt 3 cfg2.N := U6_self m c
  rw [e2, arr2_final, lin2R_def]
  have eX : ∀ k : Fin 1024, (atTc (U5 m) c main_v14 : S4096x1024.Idx → EReal) (ix2 ⟨b.val * 2048 + s.val, by omega⟩ k)
      = ((valsR x w bq b s k : ℝ) : EReal) :=
    fun k => (hg_v14 (U4 m c) b s k).trans (hvals b s k)
  have eW : ∀ k : Fin 1024, (atTc (U5 m) c main_v8 : S1024x1024.Idx → EReal) (ix2 d k) = ((ow (ix2 d k) : ℝ) : EReal) := by
    intro k
    have e3 : (atTc (U5 m) c main_v8 : S1024x1024.Idx → EReal) = (Gen.V1 m c main_v8 : S1024x1024.Idx → EReal) := U5_v8 m c
    rw [e3]
    exact (hg_v8 m c d k).trans (by rw [h3])
  have eB : (atTc (U5 m) c main_v15 : S1x1024.Idx → EReal) (ix2 0 d) = ((ob (ix1 d) : ℝ) : EReal) := by
    refine (hg_v15 (U4 m c) d).trans ?_
    have e4 : (U4 m c main_arg4 : S1024.Idx → EReal) = m ((c : Thread nD τ).loc main_arg4) := U4_arg4 m c
    rw [e4, h4]
  simp only [eX, eW, eB]
  unfold outR
  rw [EReal.coe_add, SoftmaxFold.coe_sum']
  simp only [EReal.coe_mul]

end Cert.KernelIdeal.Hand

end
-- ==== Proof.KI.KernelValue.lean ====
/-
  The kernel's result on real arguments. The first pipeline leaves, at batch b, row s and column part·1024 + h·64 + j,
  the real projection at the reference's column h·192 + part·64 + j (the host permuted the weights' rows and the bias so);
  the attention pipeline leaves at column e the softmax-weighted average of head e / 64 over the 2048 key rows; the last
  pipeline projects by ow and adds ob: the specification's outR.
-/
import proofs.«411221_j41120016892169_3_alg».proof.Proof.KI.RunVals
import proofs.«411221_j41120016892169_3_alg».proof.Proof.KI.Val0
import proofs.«411221_j41120016892169_3_alg».proof.Proof.KI.HostGlue
import proofs.«411221_j41120016892169_3_alg».proof.Proof.KI.AttnValue
import proofs.«411221_j41120016892169_3_alg».proof.Proof.KI.OutValue
import proofs.«411221_j41120016892169_3_alg».proof.Proof.Spec

set_option maxRecDepth 16384

noncomputable section

open scoped BigOperators

namespace Cert.KernelIdeal.Hand

open Idealize.ShloMosaic Idealize.ShloMosaic.TcCoe
open Idealize.SL.Sem
open Cert.KernelIdeal Cert.KernelIdeal.Gen
open Idealize.ShloMosaic.ValueIdx
open Cert.Hand.Spec

variable (m : (ℓ : Loc nD τ sig) → Buf (Elt Ideal) ℓ)

/-- The projection's result as the attention pipeline finds it: at batch b, row s and the column of part t (query, key,
    value), head h, lane j, the real projection at the reference's column h·192 + t·64 + j. -/
theorem v12_real (c : Dev nD) (x : XArr) (w : WArr) (bq : BArr)
    (h0 : m ((c : Thread nD τ).loc main_arg0) = fun i => ((x i : ℝ) : EReal))
    (h1 : m ((c : Thread nD τ).loc main_arg1) = fun i => ((w i : ℝ) : EReal))
    (h2 : m ((c : Thread nD τ).loc main_arg2) = fun i => ((bq i : ℝ) : EReal))
    (b : Fin 2) (s : Fin 2048) (t : Fin 3) (h : Fin 16) (j : Fin 64) :
    (U3 m c main_v12 : S2x2048x3072.Idx → EReal) (ix3 b s ⟨t.val * 1024 + h.val * 64 + j.val, by omega⟩)
      = ((qkvR x w bq b s (col h t j) : ℝ) : EReal) := by
  have e1 := hg_v12 (U2 m c) b s ⟨t.val * 1024 + h.val * 64 + j.val, by omega⟩
  refine e1.trans ?_
  have e2 : (U2 m c main_v11 : S4096x3072.Idx → EReal) = (dat0 (F := Ideal) (atTc (U1 m)) c).arrAt 3 cfg0.N := U2_self m c
  rw [e2, arr0_final, lin0R_def]
  have eX : ∀ k : Fin 1024, (atTc (U1 m) c main_v9 : S4096x1024.Idx → EReal) (ix2 ⟨b.val * 2048 + s.val, by omega⟩ k) = ((x (ix3 b s k) : ℝ) : EReal) :=
    fun k => (hg_v9 m c b s k).trans (by rw [h0])
  have eW : ∀ k : Fin 1024, (atTc (U1 m) c main_v7 : S3072x1024.Idx → EReal) (ix2 ⟨t.val * 1024 + h.val * 64 + j.val, by omega⟩ k) = ((w (ix2 (col h t j) k) : ℝ) : EReal) :=
    fun k => (hg_v7 m c t h j k).trans (by rw [h1]; rfl)
  have eB : (atTc (U1 m) c main_v10 : S1x3072.Idx → EReal) (ix2 0 ⟨t.val * 1024 + h.val * 64 + j.val, by omega⟩) = ((bq (ix1 (col h t j)) : ℝ) : EReal) :=
    (hg_v10 m c t h j).trans (by rw [h2]; rfl)
  simp only [eX, eW, eB]
  unfold qkvR
  rw [EReal.coe_add, SoftmaxFold.coe_sum']
  simp only [EReal.coe_mul]

/-- The reference's projection column that the kernel's permuted weights put at column e': part e' / 1024, head
    (e' % 1024) / 64, lane e' % 64. -/
def permCol (e' : Fin 3072) : Fin 3072 :=
  col ⟨e'.val % 1024 / 64, by omega⟩ ⟨e'.val / 1024, by omega⟩ ⟨e'.val % 64, Nat.mod_lt _ (by norm_num)⟩

theorem permCol_val (e' : Fin 3072) : (permCol e').val = (e'.val % 1024 / 64) * 192 + (e'.val / 1024) * 64 + e'.val % 64 := rfl

/-- The projection's result as the attention pipeline finds it, at any column. -/
theorem v12_P (c : Dev nD) (x : XArr) (w : WArr) (bq : BArr)
    (h0 : m ((c : Thread nD τ).loc main_arg0) = fun i => ((x i : ℝ) : EReal))
    (h1 : m ((c : Thread nD τ).loc main_arg1) = fun i => ((w i : ℝ) : EReal))
    (h2 : m ((c : Thread nD τ).loc main_arg2) = fun i => ((bq i : ℝ) : EReal))
    (b : Fin 2) (s : Fin 2048) (e' : Fin 3072) :
    (U3 m c main_v12 : S2x2048x3072.Idx → EReal) (ix3 b s e') = ((qkvR x w bq b s (permCol e') : ℝ) : EReal) := by
  have he' := e'.isLt
  have h := v12_real m c x w bq h0 h1 h2 b s ⟨e'.val / 1024, by omega⟩ ⟨e'.val % 1024 / 64, by omega⟩ ⟨e'.val % 64, Nat.mod_lt _ (by norm_num)⟩
  have he : (⟨e'.val / 1024 * 1024 + e'.val % 1024 / 64 * 64 + e'.val % 64, by omega⟩ : Fin 3072) = e' := Fin.ext (by simp only []; omega)
  rw [he] at h
  exact h

/-- The attention pipeline's result: at batch b, row s, column e the softmax-weighted average of head e / 64. -/
theorem v13_real (c : Dev nD) (x : XArr) (w : WArr) (bq : BArr)
    (h0 : m ((c : Thread nD τ).loc main_arg0) = fun i => ((x i : ℝ) : EReal))
    (h1 : m ((c : Thread nD τ).loc main_arg1) = fun i => ((w i : ℝ) : EReal))
    (h2 : m ((c : Thread nD τ).loc main_arg2) = fun i => ((bq i : ℝ) : EReal))
    (b : Fin 2) (s : Fin 2048) (e : Fin 1024) :
    (U4 m c main_v13 : S2x2048x1024.Idx → EReal) (ix3 b s e) = ((valsR x w bq b s e : ℝ) : EReal) := by
  have he := e.isLt
  have e2 : (U4 m c main_v13 : S2x2048x1024.Idx → EReal) = (dat1 (F := Ideal) (atTc (U3 m)) c).arrAt 3 cfg1.N := U4_self m c
  rw [e2, attn_of_P (atTc (U3 m)) c (fun b s e' => qkvR x w bq b s (permCol e')) (fun b s e' => v12_P m c x w bq h0 h1 h2 b s e') b s e]
  unfold valsR attnR
  have hsc : (fun v => if hv : v < 2048 then (∑ j : Fin 64, qkvR x w bq b s (permCol ⟨(e.val / 64) * 64 + j.val, by omega⟩)
        * qkvR x w bq b ⟨v, hv⟩ (permCol ⟨1024 + (e.val / 64) * 64 + j.val, by omega⟩)) * (1 / 8) else 0)
      = scoreR x w bq b ⟨e.val / 64, by omega⟩ s := by
    funext v
    unfold scoreR
    split_ifs with hv
    · congr 1
      refine Finset.sum_congr rfl fun j _ => ?_
      have hj := j.isLt
      have c0 : permCol ⟨(e.val / 64) * 64 + j.val, by omega⟩ = col ⟨e.val / 64, by omega⟩ 0 j :=
        Fin.ext (by rw [permCol_val]; simp only [col]; omega)
      have c1 : permCol ⟨1024 + (e.val / 64) * 64 + j.val, by omega⟩ = col ⟨e.val / 64, by omega⟩ 1 j :=
        Fin.ext (by rw [permCol_val]; simp only [col]; omega)
      rw [c0, c1]
    · rfl
  have hva : (fun v => if hv : v < 2048 then qkvR x w bq b ⟨v, hv⟩ (permCol ⟨2048 + e.val, by omega⟩) else 0)
      = valR x w bq b ⟨e.val / 64, by omega⟩ ⟨e.val % 64, Nat.mod_lt _ (by norm_num)⟩ := by
    funext v
    unfold valR
    split_ifs with hv
    · have c2 : permCol ⟨2048 + e.val, by omega⟩ = col ⟨e.val / 64, by omega⟩ 2 ⟨e.val % 64, Nat.mod_lt _ (by norm_num)⟩ :=
        Fin.ext (by rw [permCol_val]; simp only [col]; omega)
      rw [c2]
    · rfl
  rw [hsc, hva]

/-- The kernel's result on real arguments is the specification's. -/
theorem kernel_value (c : Dev nD) (x : XArr) (w : WArr) (bq : BArr) (ow : OWArr) (ob : OBArr)
    (h0 : m ((c : Thread nD τ).loc main_arg0) = fun i => ((x i : ℝ) : EReal))
    (h1 : m ((c : Thread nD τ).loc main_arg1) = fun i => ((w i : ℝ) : EReal))
    (h2 : m ((c : Thread nD τ).loc main_arg2) = fun i => ((bq i : ℝ) : EReal))
    (h3 : m ((c : Thread nD τ).loc main_arg3) = fun i => ((ow i : ℝ) : EReal))
    (h4 : m ((c : Thread nD τ).loc main_arg4) = fun i => ((ob i : ℝ) : EReal))
    (b : Fin 2) (s : Fin 2048) (d : Fin 1024) :
    (U7 m c main_v17 : S2x2048x1024.Idx → EReal) (ix3 b s d) = ((outR x w bq ow ob b s d : ℝ) : EReal) :=
  out_of_vals m c x w bq ow ob (fun b s e => v13_real m c x w bq h0 h1 h2 b s e) h3 h4 b s d

end Cert.KernelIdeal.Hand

end
-- ==== Proof.Finite.lean ====
/-
  Finite inputs are real arrays.

  The precondition says of each of the five float arguments that every entry a satisfies |a| < +∞, where |a| is
  max a (−a) in the extended reals; the five statements are joined by "and". An extended real whose absolute value is
  below +∞ is neither +∞ nor −∞, so it is the image of a real number. Hence each argument is the entrywise image of a
  real array of the same shape.
-/
import proofs.«411221_j41120016892169_3_alg».proof.Pre_finite_inputs
import proofs.«411221_j41120016892169_3_alg».proof.Proof.Gen.Pre_finite_inputs
import proofs.«411221_j41120016892169_3_alg».proof.Proof.Spec
import Idealize.ShloMosaic.Lib.ReduceAll
import Idealize.ShloMosaic.Lib.ValueIdx
import Idealize.ShloMosaic.PureOps.Ideal

noncomputable section

namespace Cert.Hand.Finite

open Idealize.ShloMosaic Idealize.ShloMosaic.ValueIdx

/-- The scalar shape has exactly one index. -/
instance : Subsingleton Cert.Pre_finite_inputs.S_.Idx := ⟨fun a b => funext fun d => d.elim0⟩

/-- An extended real with max a (−a) < +∞ is the image of a real. -/
theorem coe_of_abs_lt_top (a : EReal) (h : max a (-a) < ⊤) : ((a.toReal : ℝ) : EReal) = a := by
  refine EReal.coe_toReal ?_ ?_
  · rintro rfl; simp at h
  · rintro rfl; simp at h

/-- The pattern 0x7F800000 denotes +∞. -/
theorem inf_bits : Ideal.ofBits .f32 0x7F800000#32 = (⊤ : EReal) := by
  simp [Ideal.ofBits, Ideal.ieee]

/-- A vector every entry of which passes the test |a| < +∞ (the comparison against the broadcast of +∞, reduced by
    "and" over all axes to a scalar that is 1) is the entrywise image of a real vector. -/
theorem reals_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32) (init : IVec Cert.Pre_finite_inputs.S_ 1)
    (h : Host.reduce IntOp.andi
        (cmpf .olt (Host.absf a)
          (broadcastInDim S ![] hb (constant (F := Ideal) Cert.Pre_finite_inputs.S_ .f32 0x7F800000#32)))
        init hr hu ix0 = 1#1) :
    ∃ r : S.Idx → ℝ, a = fun i => ((r i : ℝ) : EReal) := by
  refine ⟨fun i => (a i).toReal, funext fun i => ?_⟩
  have e := Host.reduce_andi_all _ init hr hu ix0 h i
  have e' : Ideal.cmp .olt (max (a i) (-(a i))) (Ideal.ofBits .f32 0x7F800000#32) = 1#1 := e
  rw [inf_bits] at e'
  have hlt : max (a i) (-(a i)) < ⊤ := by
    by_contra hn
    simp [Ideal.cmp, hn] at e'
  exact (coe_of_abs_lt_top (a i) hlt).symm

/-- Under the precondition the five arguments are entrywise images of real arrays. -/
theorem reals_of_pre [hP : Cert.Pre_finite_inputs.Facts] (a0 : FVec Ideal Cert.Pre_finite_inputs.S2x2048x1024 .f32) (a1 : FVec Ideal Cert.Pre_finite_inputs.S3072x1024 .f32) (a2 : FVec Ideal Cert.Pre_finite_inputs.S3072 .f32) (a3 : FVec Ideal Cert.Pre_finite_inputs.S1024x1024 .f32) (a4 : FVec Ideal Cert.Pre_finite_inputs.S1024 .f32)
    (h : Cert.Pre_finite_inputs.fn (F := Ideal) a0 a1 a2 a3 a4 = fun _ => 1#1) :
    (∃ x : Cert.Hand.Spec.XArr, a0 = fun i => ((x i : ℝ) : EReal)) ∧ (∃ w : Cert.Hand.Spec.WArr, a1 = fun i => ((w i : ℝ) : EReal)) ∧ (∃ bq : Cert.Hand.Spec.BArr, a2 = fun i => ((bq i : ℝ) : EReal)) ∧ (∃ ow : Cert.Hand.Spec.OWArr, a3 = fun i => ((ow i : ℝ) : EReal)) ∧ (∃ ob : Cert.Hand.Spec.OBArr, a4 = fun i => ((ob i : ℝ) : EReal)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  exact ⟨reals_of_all _ _ _ a0 _ h00, reals_of_all _ _ _ a1 _ h1, reals_of_all _ _ _ a2 _ h2,
    reals_of_all _ _ _ a3 _ h3, reals_of_all _ _ _ a4 _ h4⟩

end Cert.Hand.Finite

end
-- ==== Proof.RefFrame.lean ====
/-
  The reference program's run: every weakly fair execution of its host operations terminates without a fault, the
  argument arrays unchanged and the result at the operations' composed term of the arguments.
-/
import proofs.«411221_j41120016892169_3_alg».proof.Defs
import proofs.«411221_j41120016892169_3_alg».proof.Proof.Gen.ReferenceIdeal
import proofs.«411221_j41120016892169_3_alg».proof.Proof.Gen.Pre_finite_inputs
import proofs.«411221_j41120016892169_3_alg».proof.Proof.Gen.ReferenceIdeal.Run
import proofs.«411221_j41120016892169_3_alg».proof.Proof.Gen.ReferenceIdeal.Read

noncomputable section

namespace Cert.Proof.RefSide

open Idealize.ShloMosaic Idealize.ShloMosaic.TcCoe Idealize.SL.Sem

/-- The reference's frame: its generated run with the result dropped. -/
theorem frame_ref [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.RefSpec.lean ====
/-
  The reference program's result is the specification.

  The reference computes multi-head attention stage by stage on the extended reals: the projection x · wᵀ + bq, its
  split into the heads' query, key and value lanes, the scores times 1/8, a two-pass softmax along the key rows (the
  row's maximum from -∞, the exponentials of the shifted scores, their sum from 0, the quotient), the product with the
  value lanes, the heads laid side by side, and the output projection plus its bias. On real arguments every stage is a
  real, and the last one is `Spec.outR`. The softmax's shift is SOME real (the row's maximum, of which only that it is
  a real is used): the weighted average does not depend on it.
-/
import proofs.«411221_j41120016892169_3_alg».proof.Proof.Gen.ReferenceIdeal.Read
import proofs.«411221_j41120016892169_3_alg».proof.Proof.Spec
import proofs.«411221_j41120016892169_3_alg».proof.Proof.LibSoftmaxFold
import Idealize.ShloMosaic.Lib.ValueIdx
import Idealize.ShloMosaic.Lib.IdealHost
import Idealize.ShloMosaic.PureOps.Ideal
import Idealize.ShloMosaic.PureOps.Ideal.Laws
import Idealize.ShloMosaic.PureOps.Reduce

noncomputable section

open scoped BigOperators

namespace Cert.Hand.RefSpec

open Idealize.ShloMosaic Idealize.ShloMosaic.ValueIdx Idealize.ShloMosaic.StableHlo
open Cert.ReferenceIdeal Cert.ReferenceIdeal.Gen Cert.ReferenceIdeal.Read Cert.Hand.Spec

variable (x : XArr) (w : WArr) (bq : BArr) (ow : OWArr) (ob : OBArr)

/-- The real arguments as arrays of extended reals. -/
abbrev cx : (⟨S2x2048x1024, .f32⟩ : BufTy).Contents (Elt Ideal) := fun i => ((x i : ℝ) : EReal)
abbrev cw : (⟨S3072x1024, .f32⟩ : BufTy).Contents (Elt Ideal) := fun i => ((w i : ℝ) : EReal)
abbrev cb : (⟨S3072, .f32⟩ : BufTy).Contents (Elt Ideal) := fun i => ((bq i : ℝ) : EReal)
abbrev cow : (⟨S1024x1024, .f32⟩ : BufTy).Contents (Elt Ideal) := fun i => ((ow i : ℝ) : EReal)
abbrev cob : (⟨S1024, .f32⟩ : BufTy).Contents (Elt Ideal) := fun i => ((ob i : ℝ) : EReal)

/-! ## The projection -/

theorem lidx_v0 (b : Fin 2) (s : Fin 2048) (e : Fin 3072) (k : Fin 1024) :
    lidx_main_v0 (ix3 b s e) k = ix3 b s k := by
  funext a; match a with | ⟨0, _⟩ => rfl | ⟨1, _⟩ => rfl | ⟨2, _⟩ => rfl

theorem ridx_v0 (b : Fin 2) (s : Fin 2048) (e : Fin 3072) (k : Fin 1024) :
    ridx_main_v0 (ix3 b s e) k = ix2 e k := by
  funext a; match a with | ⟨0, _⟩ => rfl | ⟨1, _⟩ => rfl

theorem idx_v1v2 (b : Fin 2) (s : Fin 2048) (e : Fin 3072) :
    idx_main_v1 (idx_main_v2 (ix3 b s e)) = ix1 e := by
  funext a; match a with | ⟨0, _⟩ => rfl

/-- The projection stage at batch b, row s, column e is the real projection. -/
theorem v3_eq (b : Fin 2) (s : Fin 2048) (e : Fin 3072) :
    val_main_v3 (F := Ideal) (cx x) (cw w) (cb bq) (ix3 b s e) = ((qkvR x w bq b s e : ℝ) : EReal) := by
  rw [val_main_v3_apply, val_main_v0_apply, val_main_v2_apply, val_main_v1_apply, idx_v1v2, Ideal.addf_def]
  simp only [lidx_v0, ridx_v0]
  unfold qkvR
  rw [EReal.coe_add, SoftmaxFold.coe_sum']
  simp only [EReal.coe_mul]

/-! ## The heads' query, key and value lanes -/

theorem idx_v6 (b : Fin 2) (h : Fin 16) (r : Fin 2048) (j : Fin 64) :
    idx_main_v4 (idx_main_v5 (idx_main_v6 (ix4 b h r j))) = ix3 b r (col h 0 j) := by
  have hb := b.isLt; have hh := h.isLt; have hr := r.isLt; have hj := j.isLt
  funext a; apply Fin.ext
  match a with
  | ⟨0, _⟩ => show (((b.val * 2048 + r.val) * 16 + h.val) * 192 + j.val) / 6291456 = b.val; omega
  | ⟨1, _⟩ => show (((b.val * 2048 + r.val) * 16 + h.val) * 192 + j.val) / 3072 % 2048 = r.val; omega
  | ⟨2, _⟩ => show (((b.val * 2048 + r.val) * 16 + h.val) * 192 + j.val) % 3072 = h.val * 192 + 0 * 64 + j.val; omega

theorem idx_v7 (b : Fin 2) (h : Fin 16) (r : Fin 2048) (j : Fin 64) :
    idx_main_v4 (idx_main_v5 (idx_main_v7 (ix4 b h r j))) = ix3 b r (col h 1 j) := by
  have hb := b.isLt; have hh := h.isLt; have hr := r.isLt; have hj := j.isLt
  funext a; apply Fin.ext
  match a with
  | ⟨0, _⟩ => show (((b.val * 2048 + r.val) * 16 + h.val) * 192 + (64 + j.val)) / 6291456 = b.val; omega
  | ⟨1, _⟩ => show (((b.val * 2048 + r.val) * 16 + h.val) * 192 + (64 + j.val)) / 3072 % 2048 = r.val; omega
  | ⟨2, _⟩ => show (((b.val * 2048 + r.val) * 16 + h.val) * 192 + (64 + j.val)) % 3072 = h.val * 192 + 1 * 64 + j.val; omega

theorem idx_v8 (b : Fin 2) (h : Fin 16) (r : Fin 2048) (j : Fin 64) :
    idx_main_v4 (idx_main_v5 (idx_main_v8 (ix4 b h r j))) = ix3 b r (col h 2 j) := by
  have hb := b.isLt; have hh := h.isLt; have hr := r.isLt; have hj := j.isLt
  funext a; apply Fin.ext
  match a with
  | ⟨0, _⟩ => show (((b.val * 2048 + r.val) * 16 + h.val) * 192 + (128 + j.val)) / 6291456 = b.val; omega
  | ⟨1, _⟩ => show (((b.val * 2048 + r.val) * 16 + h.val) * 192 + (128 + j.val)) / 3072 % 2048 = r.val; omega
  | ⟨2, _⟩ => show (((b.val * 2048 + r.val) * 16 + h.val) * 192 + (128 + j.val)) % 3072 = h.val * 192 + 2 * 64 + j.val; omega

/-- The query lane j of head h at row r. -/
theorem v6_eq (b : Fin 2) (h : Fin 16) (r : Fin 2048) (j : Fin 64) :
    val_main_v6 (F := Ideal) (cx x) (cw w) (cb bq) (ix4 b h r j) = ((qkvR x w bq b r (col h 0 j) : ℝ) : EReal) := by
  rw [val_main_v6_apply, val_main_v5_apply, val_main_v4_apply, idx_v6, v3_eq]

/-- The key lane j of head h at row r. -/
theorem v7_eq (b : Fin 2) (h : Fin 16) (r : Fin 2048) (j : Fin 64) :
    val_main_v7 (F := Ideal) (cx x) (cw w) (cb bq) (ix4 b h r j) = ((qkvR x w bq b r (col h 1 j) : ℝ) : EReal) := by
  rw [val_main_v7_apply, val_main_v5_apply, val_main_v4_apply, idx_v7, v3_eq]

/-- The value lane j of head h at row r. -/
theorem v8_eq (b : Fin 2) (h : Fin 16) (r : Fin 2048) (j : Fin 64) :
    val_main_v8 (F := Ideal) (cx x) (cw w) (cb bq) (ix4 b h r j) = ((qkvR x w bq b r (col h 2 j) : ℝ) : EReal) := by
  rw [val_main_v8_apply, val_main_v5_apply, val_main_v4_apply, idx_v8, v3_eq]

/-! ## The scores -/

theorem lidx_v9 (b : Fin 2) (h : Fin 16) (r v : Fin 2048) (k : Fin 64) :
    lidx_main_v9 (ix4 b h r v) k = ix4 b h r k := by
  funext a; match a with | ⟨0, _⟩ => rfl | ⟨1, _⟩ => rfl | ⟨2, _⟩ => rfl | ⟨3, _⟩ => rfl

theorem ridx_v9 (b : Fin 2) (h : Fin 16) (r v : Fin 2048) (k : Fin 64) :
    ridx_main_v9 (ix4 b h r v) k = ix4 b h v k := by
  funext a; match a with | ⟨0, _⟩ => rfl | ⟨1, _⟩ => rfl | ⟨2, _⟩ => rfl | ⟨3, _⟩ => rfl

/-- The scale: the pattern of 1/8. -/
theorem ofBits_eighth : Ideal.ofBits .f32 0x3E000000#32 = (((1 : ℝ) / 8 : ℝ) : EReal) := by
  simp [Ideal.ofBits, Ideal.ieee, -EReal.coe_mul]; norm_num

/-- The pattern of -∞. -/
theorem ofBits_neg_inf : Ideal.ofBits .f32 0xFF800000#32 = (⊥ : EReal) := by
  simp [Ideal.ofBits, Ideal.ieee]

/-- The scaled score of query row r against key row v. -/
theorem v11_eq (b : Fin 2) (h : Fin 16) (r v : Fin 2048) :
    val_main_v11 (F := Ideal) (cx x) (cw w) (cb bq) (ix4 b h r v) = ((scoreR x w bq b h r v.val : ℝ) : EReal) := by
  rw [val_main_v11_apply, val_main_v9_apply, val_main_v10_apply, val_main_cst_apply, Ideal.mulf_def, Ideal.ofBits_def,
    ofBits_eighth]
  simp only [lidx_v9, ridx_v9, v6_eq, v7_eq]
  unfold scoreR
  rw [dif_pos v.isLt, EReal.coe_mul, SoftmaxFold.coe_sum']
  simp only [EReal.coe_mul]

/-! ## The row's maximum -/

theorem reduces_d3 : S2x16x2048x2048.Reduces [3] S2x16x2048 := by decide

/-- The reduced index (b, h, r) with the key row k put back is (b, h, r, k). -/
theorem lift_d3 (b : Fin 2) (h : Fin 16) (r : Fin 2048) (k : Fin (S2x16x2048x2048.size 3)) :
    reduces_d3.lift (ix3 b h r) k = ix4 b h r (⟨k.val, k.isLt⟩ : Fin 2048) := by
  funext c; apply Fin.ext
  fin_cases c <;> rfl

/-- A maximum from -∞ of real entries over a nonempty finite index set is a real. -/
theorem fold_max_real' {ι : Type} [Fintype ι] (i0 : ι) (f : ι → ℝ) :
    ∃ M : ℝ, (Finset.univ : Finset ι).fold max (⊥ : EReal) (fun v => ((f v : ℝ) : EReal)) = (M : EReal) := by
  have htop : (Finset.univ : Finset ι).fold max (⊥ : EReal) (fun v => ((f v : ℝ) : EReal)) < ⊤ := by
    rw [Finset.fold_max_lt]
    exact ⟨bot_lt_top, fun v _ => EReal.coe_lt_top _⟩
  have hge : ((f i0 : ℝ) : EReal) ≤ (Finset.univ : Finset ι).fold max (⊥ : EReal) (fun v => ((f v : ℝ) : EReal)) := by
    rw [Finset.le_fold_max]
    exact Or.inr ⟨i0, Finset.mem_univ _, le_refl _⟩
  have hbot := ne_of_gt (lt_of_lt_of_le (EReal.bot_lt_coe _) hge)
  exact ⟨_, (EReal.coe_toReal htop.ne hbot).symm⟩

/-- A fold does not depend on how its operation is written. -/
theorem fold_op_congr {ι β : Type} {op op' : β → β → β} [Std.Commutative op] [Std.Associative op]
    [Std.Commutative op'] [Std.Associative op'] (h : op = op') (b : β) (f : ι → β) (s : Finset ι) :
    s.fold op b f = s.fold op' b f := by
  subst h; rfl

/-- A reduce with the maximum over ONE nonempty axis, from -∞, of a source whose entries along that axis are reals,
    is a real. Stated at any shapes: the axis's coordinates stay an abstract finite type. -/
theorem reduce_max_real {s t u : Shape} {a : Fin s.rank} (y : s.Idx → EReal) (init : u.Idx → EReal)
    (h' : s.ReducesTo [a] t) (h : s.Reduces [a] t) (hu : 0 < u.numel) (j : t.Idx)
    (hinit : init (Shape.Idx.first hu) = ⊥) (hpos : 0 < s.size a)
    (g : Fin (s.size a) → ℝ) (hg : ∀ k, y (h.lift j k) = ((g k : ℝ) : EReal)) :
    ∃ M : ℝ, Host.reduce (FloatOps.maximumf (F := Ideal) (φ := .f32)) y init h' hu j = (M : EReal) := by
  obtain ⟨M, hM⟩ := fold_max_real' (⟨0, hpos⟩ : Fin (s.size a)) g
  refine ⟨M, ?_⟩
  rw [Host.reduce_eq_fold_single (FloatOps.maximumf (F := Ideal) (φ := .f32)) y init h' h hu j, hinit,
    show (y ∘ h.lift j) = fun k => ((g k : ℝ) : EReal) from funext hg,
    fold_op_congr (show (FloatOps.maximumf (F := Ideal) (φ := .f32)) = (max : EReal → EReal → EReal) from rfl)]
  exact hM

/-- The row's maximum from -∞ over the 2048 real scores is a real. -/
theorem v14_real (b : Fin 2) (h : Fin 16) (r : Fin 2048) :
    ∃ M : ℝ, val_main_v14 (F := Ideal) (cx x) (cw w) (cb bq) (ix3 b h r) = (M : EReal) := by
  obtain ⟨M, hM⟩ := reduce_max_real (val_main_v11 (F := Ideal) (cx x) (cw w) (cb bq)) (val_main_cst_0 (F := Ideal))
    reducesTo_S2x16x2048x2048_S2x16x2048_d3 reduces_d3 h_S_ (ix3 b h r)
    (by rw [val_main_cst_0_apply, Ideal.ofBits_def, ofBits_neg_inf]) (Nat.pos_of_ne_zero (by decide))
    (fun k => scoreR x w bq b h r k.val) (fun k => by rw [lift_d3, v11_eq])
  refine ⟨M, ?_⟩
  rw [val_main_v14_apply, val_main_v13_apply, val_main_cst_1_apply, Ideal.maximumf_def, Ideal.ofBits_def, ofBits_neg_inf,
    max_eq_right bot_le]
  unfold val_main_v12
  exact hM

/-! ## The softmax and the attention output -/

theorem idx_v16 (b : Fin 2) (h : Fin 16) (r v : Fin 2048) :
    idx_main_v15 (idx_main_v16 (ix4 b h r v)) = ix3 b h r := by
  funext a; match a with | ⟨0, _⟩ => rfl | ⟨1, _⟩ => rfl | ⟨2, _⟩ => rfl

theorem idx_v21 (b : Fin 2) (h : Fin 16) (r v : Fin 2048) :
    idx_main_v20 (idx_main_v21 (ix4 b h r v)) = ix3 b h r := by
  funext a; match a with | ⟨0, _⟩ => rfl | ⟨1, _⟩ => rfl | ⟨2, _⟩ => rfl

theorem idx_v19 (b : Fin 2) (h : Fin 16) (r k : Fin 2048) :
    idx_main_v19 (ix3 b h r) k = ix4 b h r k := by
  funext a; match a with | ⟨0, _⟩ => rfl | ⟨1, _⟩ => rfl | ⟨2, _⟩ => rfl | ⟨3, _⟩ => rfl

theorem lidx_v23 (b : Fin 2) (h : Fin 16) (r : Fin 2048) (j : Fin 64) (k : Fin 2048) :
    lidx_main_v23 (ix4 b h r j) k = ix4 b h r k := by
  funext a; match a with | ⟨0, _⟩ => rfl | ⟨1, _⟩ => rfl | ⟨2, _⟩ => rfl | ⟨3, _⟩ => rfl

theorem ridx_v23 (b : Fin 2) (h : Fin 16) (r : Fin 2048) (j : Fin 64) (k : Fin 2048) :
    ridx_main_v23 (ix4 b h r j) k = ix4 b h k j := by
  funext a; match a with | ⟨0, _⟩ => rfl | ⟨1, _⟩ => rfl | ⟨2, _⟩ => rfl | ⟨3, _⟩ => rfl

/-- The exponential of the score shifted by the row's maximum M. -/
theorem v18_eq (b : Fin 2) (h : Fin 16) (r v : Fin 2048) (M : ℝ)
    (hM : val_main_v14 (F := Ideal) (cx x) (cw w) (cb bq) (ix3 b h r) = (M : EReal)) :
    val_main_v18 (F := Ideal) (cx x) (cw w) (cb bq) (ix4 b h r v)
      = Ideal.exp (((scoreR x w bq b h r v.val : ℝ) : EReal) - (M : EReal)) := by
  rw [val_main_v18_apply, val_main_v17_apply, val_main_v16_apply, val_main_v15_apply, idx_v16, hM, v11_eq,
    Ideal.hostUnary_exp_def, Ideal.subf_def]

/-- The row's denominator: from 0, the sum of the shifted exponentials. -/
theorem v19_eq (b : Fin 2) (h : Fin 16) (r : Fin 2048) (M : ℝ)
    (hM : val_main_v14 (F := Ideal) (cx x) (cw w) (cb bq) (ix3 b h r) = (M : EReal)) :
    val_main_v19 (F := Ideal) (cx x) (cw w) (cb bq) (ix3 b h r)
      = 0 + ∑ u : Fin 2048, Ideal.exp (((scoreR x w bq b h r u.val : ℝ) : EReal) - (M : EReal)) := by
  rw [val_main_v19_apply, val_main_cst_2_apply, Ideal.ofBits_def, Ideal.ofBits_zero_f32]
  simp only [idx_v19, v18_eq x w bq b h r _ M hM]

/-- The normalized weight of key row v. -/
theorem v22_eq (b : Fin 2) (h : Fin 16) (r v : Fin 2048) (M : ℝ)
    (hM : val_main_v14 (F := Ideal) (cx x) (cw w) (cb bq) (ix3 b h r) = (M : EReal)) :
    val_main_v22 (F := Ideal) (cx x) (cw w) (cb bq) (ix4 b h r v)
      = Ideal.div (Ideal.exp (((scoreR x w bq b h r v.val : ℝ) : EReal) - (M : EReal)))
          (0 + ∑ u : Fin 2048, Ideal.exp (((scoreR x w bq b h r u.val : ℝ) : EReal) - (M : EReal))) := by
  rw [val_main_v22_apply, val_main_v21_apply, val_main_v20_apply, idx_v21, v19_eq x w bq b h r M hM,
    v18_eq x w bq b h r v M hM, Ideal.hostDivf_def]

/-- One head's attention output at row r, lane j: the softmax-weighted average of the value lane. -/
theorem v23_eq (b : Fin 2) (h : Fin 16) (r : Fin 2048) (j : Fin 64) :
    val_main_v23 (F := Ideal) (cx x) (cw w) (cb bq) (ix4 b h r j) = ((attnR x w bq b h r j : ℝ) : EReal) := by
  obtain ⟨M, hM⟩ := v14_real x w bq b h r
  have hv : ∀ k : Fin 2048, qkvR x w bq b k (col h 2 j) = valR x w bq b h j k.val := by
    intro k; unfold valR; rw [dif_pos k.isLt]
  rw [val_main_v23_apply]
  simp only [lidx_v23, ridx_v23, v22_eq x w bq b h r _ M hM, v8_eq, hv]
  rw [attnR, ← SoftmaxFold.twopass_eq (N := 2048) (by norm_num) (scoreR x w bq b h r) (valR x w bq b h j) M]

/-! ## The heads side by side and the output projection -/

theorem idx_v25 (b : Fin 2) (s : Fin 2048) (e : Fin 1024) :
    idx_main_v24 (idx_main_v25 (ix3 b s e))
      = ix4 b (⟨e.val / 64, by omega⟩ : Fin 16) s (⟨e.val % 64, Nat.mod_lt _ (by norm_num)⟩ : Fin 64) := by
  have hb := b.isLt; have hs := s.isLt; have he := e.isLt
  funext a; apply Fin.ext
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The heads' outputs side by side: column e = h·64 + j. -/
theorem v25_eq (b : Fin 2) (s : Fin 2048) (e : Fin 1024) :
    val_main_v25 (F := Ideal) (cx x) (cw w) (cb bq) (ix3 b s e) = ((valsR x w bq b s e : ℝ) : EReal) := by
  rw [val_main_v25_apply, val_main_v24_apply, idx_v25, v23_eq]
  rfl

theorem lidx_v26 (b : Fin 2) (s : Fin 2048) (d k : Fin 1024) :
    lidx_main_v26 (ix3 b s d) k = ix3 b s k := by
  funext a; match a with | ⟨0, _⟩ => rfl | ⟨1, _⟩ => rfl | ⟨2, _⟩ => rfl

theorem ridx_v26 (b : Fin 2) (s : Fin 2048) (d k : Fin 1024) :
    ridx_main_v26 (ix3 b s d) k = ix2 d k := by
  funext a; match a with | ⟨0, _⟩ => rfl | ⟨1, _⟩ => rfl

theorem idx_v27v28 (b : Fin 2) (s : Fin 2048) (d : Fin 1024) :
    idx_main_v27 (idx_main_v28 (ix3 b s d)) = ix1 d := by
  funext a; match a with | ⟨0, _⟩ => rfl

/-- The reference's result on real arguments is the specification's. -/
theorem ref_out (x : Cert.Hand.Spec.XArr) (w : Cert.Hand.Spec.WArr) (bq : Cert.Hand.Spec.BArr) (ow : Cert.Hand.Spec.OWArr)
    (ob : Cert.Hand.Spec.OBArr) (b : Fin 2) (s : Fin 2048) (d : Fin 1024) :
    Cert.ReferenceIdeal.Read.val_main_v29 (F := Ideal) (fun i => ((x i : ℝ) : EReal)) (fun i => ((w i : ℝ) : EReal))
        (fun i => ((bq i : ℝ) : EReal)) (fun i => ((ow i : ℝ) : EReal)) (fun i => ((ob i : ℝ) : EReal)) (ix3 b s d)
      = ((Cert.Hand.Spec.outR x w bq ow ob b s d : ℝ) : EReal) := by
  show val_main_v29 (F := Ideal) (cx x) (cw w) (cb bq) (cow ow) (cob ob) (ix3 b s d) = _
  rw [val_main_v29_apply, val_main_v26_apply, val_main_v28_apply, val_main_v27_apply, idx_v27v28, Ideal.addf_def]
  simp only [lidx_v26, ridx_v26, v25_eq]
  unfold outR
  rw [EReal.coe_add, SoftmaxFold.coe_sum']
  simp only [EReal.coe_mul]

end Cert.Hand.RefSpec

end
-- ==== Proof.SpecArr.lean ====
/-
  The specification's result as an array of extended reals: the array both programs' results are compared with.
-/
import proofs.«411221_j41120016892169_3_alg».proof.Proof.Spec
import Idealize.ShloMosaic.Lib.ValueIdx

noncomputable section

namespace Cert.Hand.Spec

open Idealize.ShloMosaic Idealize.ShloMosaic.ValueIdx

/-- The result array: at (b, s, d) the real `outR … b s d`, as an extended real. -/
def outArr (x : XArr) (w : WArr) (bq : BArr) (ow : OWArr) (ob : OBArr) : (⟨3, ![2, 2048, 1024]⟩ : Shape).Idx → EReal :=
  fun i => ((outR x w bq ow ob (i 0) (i 1) (i 2) : ℝ) : EReal)

theorem outArr_apply (x : XArr) (w : WArr) (bq : BArr) (ow : OWArr) (ob : OBArr) (i : (⟨3, ![2, 2048, 1024]⟩ : Shape).Idx) :
    outArr x w bq ow ob i = ((outR x w bq ow ob (i 0) (i 1) (i 2) : ℝ) : EReal) := rfl

theorem outArr_ix3 (x : XArr) (w : WArr) (bq : BArr) (ow : OWArr) (ob : OBArr) (b : Fin 2) (s : Fin 2048) (d : Fin 1024) :
    outArr x w bq ow ob (ix3 b s d) = ((outR x w bq ow ob b s d : ℝ) : EReal) := rfl

/-- An array that agrees with the result array at every (b, s, d) is the result array. -/
theorem eq_outArr_of_ix3 (x : XArr) (w : WArr) (bq : BArr) (ow : OWArr) (ob : OBArr)
    (f : (⟨3, ![2, 2048, 1024]⟩ : Shape).Idx → EReal)
    (hf : ∀ (b : Fin 2) (s : Fin 2048) (d : Fin 1024), f (ix3 b s d) = ((outR x w bq ow ob b s d : ℝ) : EReal)) :
    f = outArr x w bq ow ob := by
  funext i
  rw [eq_ix3 i]
  exact hf _ _ _

end Cert.Hand.Spec

end
-- ==== Proof.RefRun.lean ====
/-
  The reference program's run with its result named: every weakly fair execution of its host operations terminates
  without a fault; when the five argument arrays hold real numbers, the result array is the specification's result
  array of those reals, and the arguments are unchanged.
-/
import proofs.«411221_j41120016892169_3_alg».proof.Defs
import proofs.«411221_j41120016892169_3_alg».proof.Proof.Gen.ReferenceIdeal
import proofs.«411221_j41120016892169_3_alg».proof.Proof.Gen.Pre_finite_inputs
import proofs.«411221_j41120016892169_3_alg».proof.Proof.Gen.ReferenceIdeal.Run
import proofs.«411221_j41120016892169_3_alg».proof.Proof.Gen.ReferenceIdeal.Read
import proofs.«411221_j41120016892169_3_alg».proof.Proof.RefSpec
import proofs.«411221_j41120016892169_3_alg».proof.Proof.SpecArr

noncomputable section

namespace Cert.Proof.RefSide

open Idealize.ShloMosaic Idealize.ShloMosaic.TcCoe Idealize.SL.Sem Idealize.ShloMosaic.ValueIdx
open Cert.ReferenceIdeal Cert.ReferenceIdeal.Gen Cert.ReferenceIdeal.Read Cert.Hand

/-- On real arguments the reference's composed term is the specification's result array. -/
theorem res_eq_outArr (m' : (ℓ : Loc nD τ sig) → Buf (Elt Ideal) ℓ)
    (x : Dev nD → Spec.XArr) (w : Dev nD → Spec.WArr) (bq : Dev nD → Spec.BArr) (ow : Dev nD → Spec.OWArr)
    (ob : Dev nD → Spec.OBArr)
    (h0 : ∀ c : Dev nD, m' ((c.tc : Thread nD τ).loc main_arg0) = fun i => ((x c i : ℝ) : EReal))
    (h1 : ∀ c : Dev nD, m' ((c.tc : Thread nD τ).loc main_arg1) = fun i => ((w c i : ℝ) : EReal))
    (h2 : ∀ c : Dev nD, m' ((c.tc : Thread nD τ).loc main_arg2) = fun i => ((bq c i : ℝ) : EReal))
    (h3 : ∀ c : Dev nD, m' ((c.tc : Thread nD τ).loc main_arg3) = fun i => ((ow c i : ℝ) : EReal))
    (h4 : ∀ c : Dev nD, m' ((c.tc : Thread nD τ).loc main_arg4) = fun i => ((ob c i : ℝ) : EReal)) (c : Dev nD) :
    Cert.ReferenceIdeal.Value.res_main_v29 m' c = Spec.outArr (x c) (w c) (bq c) (ow c) (ob c) := by
  rw [val_main_v29_eq, h0 c, h1 c, h2 c, h3 c, h4 c]
  exact Spec.eq_outArr_of_ix3 _ _ _ _ _ _ (fun b s d => RefSpec.ref_out (x c) (w c) (bq c) (ow c) (ob c) b s d)

/-- The reference's run on real arguments: the result is the specification's result array, the arguments stay. -/
theorem ref_value [hR : Cert.ReferenceIdeal.Facts] (m' : (ℓ : Loc nD τ sig) → Buf (Elt Ideal) ℓ) (ρ' : Dev nD → PrngReg)
    (x : Dev nD → Spec.XArr) (w : Dev nD → Spec.WArr) (bq : Dev nD → Spec.BArr) (ow : Dev nD → Spec.OWArr)
    (ob : Dev nD → Spec.OBArr)
    (h0 : ∀ c : Dev nD, m' ((c.tc : Thread nD τ).loc main_arg0) = fun i => ((x c i : ℝ) : EReal))
    (h1 : ∀ c : Dev nD, m' ((c.tc : Thread nD τ).loc main_arg1) = fun i => ((w c i : ℝ) : EReal))
    (h2 : ∀ c : Dev nD, m' ((c.tc : Thread nD τ).loc main_arg2) = fun i => ((bq c i : ℝ) : EReal))
    (h3 : ∀ c : Dev nD, m' ((c.tc : Thread nD τ).loc main_arg3) = fun i => ((ow c i : ℝ) : EReal))
    (h4 : ∀ c : Dev nD, m' ((c.tc : Thread nD τ).loc main_arg4) = fun i => ((ob c i : ℝ) : EReal)) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v29) = Spec.outArr (x c) (w c) (bq c) (ow c) (ob c)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)) :=
  (θ_run (Cert.ReferenceIdeal.defs (F := Ideal)) _ _).mono
    (fun _ h c => ⟨(h c).1.trans (res_eq_outArr m' x w bq ow ob h0 h1 h2 h3 h4 c), (h c).2⟩)
    (Cert.ReferenceIdeal.Value.run (F := Ideal) m' ρ')

end Cert.Proof.RefSide

end
-- ==== Proof.lean ====
/-
  Multi-head attention: a kernel of three pipelines (the projection x · wᵀ + bq with the weights' rows permuted into
  query, key and value slabs; a flash attention that scans the 2048 key rows in four tiles of 512 with an online softmax,
  two heads to a 128-lane block; the output projection) against the plain reference (projection, per-head scores times
  1/8, a two-pass softmax, the weighted values, the output projection).

  Frames: each pipeline's body is run symbolically once per control case and its proof data put into the program's
  conditional frame; between two items a core holds every unscoped buffer at a known valuation. The attention pipeline
  reads one array through three windows, whose full share is dealt in three at entry and joined at exit.

  Values: under the precondition every argument is an array of reals. Each stage then maps coerced reals to coerced
  reals; the online softmax's running maximum, denominator and numerators after the rows seen so far are a real maximum
  and the sums of exp (score - maximum) and exp (score - maximum) · value, whose quotient is the softmax-weighted average
  whatever the shift; the reference's two-pass softmax is the same average. Both programs compute Spec.outR.
-/
import proofs.«411221_j41120016892169_3_alg».proof.Defs
import proofs.«411221_j41120016892169_3_alg».proof.Proof.Gen.Kernel
import proofs.«411221_j41120016892169_3_alg».proof.Proof.Gen.KernelIdeal
import proofs.«411221_j41120016892169_3_alg».proof.Proof.Gen.ReferenceIdeal
import proofs.«411221_j41120016892169_3_alg».proof.Proof.Gen.Pre_finite_inputs
import proofs.«411221_j41120016892169_3_alg».proof.Proof.KB.RunAll
import proofs.«411221_j41120016892169_3_alg».proof.Proof.KI.RunAll
import proofs.«411221_j41120016892169_3_alg».proof.Proof.KI.KernelValue
import proofs.«411221_j41120016892169_3_alg».proof.Proof.Finite
import proofs.«411221_j41120016892169_3_alg».proof.Proof.RefFrame
import proofs.«411221_j41120016892169_3_alg».proof.Proof.RefRun
import proofs.«411221_j41120016892169_3_alg».proof.Proof.SpecArr

noncomputable section

namespace Cert.Proof

open Idealize.ShloMosaic Idealize.ShloMosaic.TcCoe Idealize.SL.Sem Idealize.ShloMosaic.ValueIdx

/-- The word-level kernel runs to the end with its arguments unchanged: the whole run, read at the arguments. -/
theorem frame_kernel : Cert.frame_Kernel (hKernel := Cert.Kernel.Gen.facts) (hPre_finite_inputs := Cert.Pre_finite_inputs.Gen.facts) :=
  fun m g _ => (θ_run _ _ _).mono (fun _ h c => (h c).2) (Cert.Kernel.Hand.run_all (F := Bits) m g)

/-- The idealized kernel likewise. -/
theorem frame_kernelIdeal : Cert.frame_KernelIdeal (hKernelIdeal := Cert.KernelIdeal.Gen.facts) (hPre_finite_inputs := Cert.Pre_finite_inputs.Gen.facts) :=
  fun m g _ => (θ_run _ _ _).mono (fun _ h c => (h c).2) (Cert.KernelIdeal.Hand.run_all (F := Ideal) m g)

/-- Both idealized programs compute the specification: under the precondition the arguments are real arrays, the
    kernel's three pipelines leave the specification's value of them in the result buffer, and so does the reference's
    chain of host operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hr : ∀ c : Dev Cert.KernelIdeal.nD, ∃ (x : Cert.Hand.Spec.XArr) (w : Cert.Hand.Spec.WArr) (bq : Cert.Hand.Spec.BArr)
      (ow : Cert.Hand.Spec.OWArr) (ob : Cert.Hand.Spec.OBArr),
      m ((c.tc : Thread Cert.KernelIdeal.nD Cert.KernelIdeal.τ).loc Cert.KernelIdeal.main_arg0) = (fun i => ((x i : ℝ) : EReal))
      ∧ m ((c.tc : Thread Cert.KernelIdeal.nD Cert.KernelIdeal.τ).loc Cert.KernelIdeal.main_arg1) = (fun i => ((w i : ℝ) : EReal))
      ∧ m ((c.tc : Thread Cert.KernelIdeal.nD Cert.KernelIdeal.τ).loc Cert.KernelIdeal.main_arg2) = (fun i => ((bq i : ℝ) : EReal))
      ∧ m ((c.tc : Thread Cert.KernelIdeal.nD Cert.KernelIdeal.τ).loc Cert.KernelIdeal.main_arg3) = (fun i => ((ow i : ℝ) : EReal))
      ∧ m ((c.tc : Thread Cert.KernelIdeal.nD Cert.KernelIdeal.τ).loc Cert.KernelIdeal.main_arg4) = (fun i => ((ob i : ℝ) : EReal)) := fun c => by
    obtain ⟨⟨x, hx⟩, ⟨w, hw⟩, ⟨bq, hb⟩, ⟨ow, how⟩, ⟨ob, hob⟩⟩ := Cert.Hand.Finite.reals_of_pre (hP := Cert.Pre_finite_inputs.Gen.facts) _ _ _ _ _ (hpre c)
    exact ⟨x, w, bq, ow, ob, hx, hw, hb, how, hob⟩
  choose x w bq ow ob h0 h1 h2 h3 h4 using hr
  refine ⟨fun c => Cert.Hand.Spec.outArr (x c) (w c) (bq c) (ow c) (ob c), ?_, ?_⟩
  · refine (θ_run _ _ _).mono (fun r hr c => ⟨(hr c).1.trans ?_, (hr c).2⟩) (Cert.KernelIdeal.Hand.run_all (F := Ideal) m g)
    exact Cert.Hand.Spec.eq_outArr_of_ix3 (x c) (w c) (bq c) (ow c) (ob c) _
      (Cert.KernelIdeal.Hand.kernel_value m c (x c) (w c) (bq c) (ow c) (ob c) (h0 c) (h1 c) (h2 c) (h3 c) (h4 c))
  · exact Cert.Proof.RefSide.ref_value m' g' x w bq ow ob
      (fun c => ((hagree c).1).trans (h0 c)) (fun c => ((hagree c).2.1).trans (h1 c)) (fun c => ((hagree c).2.2.1).trans (h2 c))
      (fun c => ((hagree c).2.2.2.1).trans (h3 c)) (fun c => ((hagree c).2.2.2.2).trans (h4 c))

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefSide.frame_ref, trivial, algebraic⟩

end Cert.Proof

end
